-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S80000x256 : Shape := ⟨2, ![80000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S80000x256 : S_.BroadcastsInDim S80000x256 (![] : Fin 0 → Fin S80000x256.rank)
  reducesTo_S80000x256_S_d0_1 : S80000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg29 : FVec F S256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg29
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  main_v128

def fn_part6 {F : FTy → Type} [FloatOps F] (main_arg25 : FVec F S1 .f32) (main_arg26 : FVec F S256x256 .f32) (main_arg27 : FVec F S256 .f32) (main_arg28 : FVec F S256x256 .f32) (main_arg29 : FVec F S256 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S256x256 .f32 := Host.absf main_arg26
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg27
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg28
  fn_part7 (F := F) main_arg29 main_v118 main_v119

def fn_part5 {F : FTy → Type} [FloatOps F] (main_arg22 : FVec F S64x1 .f32) (main_arg23 : FVec F S1 .f32) (main_arg24 : FVec F S64x1 .f32) (main_arg25 : FVec F S1 .f32) (main_arg26 : FVec F S256x256 .f32) (main_arg27 : FVec F S256 .f32) (main_arg28 : FVec F S256x256 .f32) (main_arg29 : FVec F S256 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S64x1 .f32 := Host.absf main_arg22
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S64x1 .f32 := Host.absf main_arg24
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg25 main_arg26 main_arg27 main_arg28 main_arg29 main_v98 main_v101 main_c_39

def fn_part4 {F : FTy → Type} [FloatOps F] (main_arg18 : FVec F S64x1 .f32) (main_arg19 : FVec F S1 .f32) (main_arg20 : FVec F S64x1 .f32) (main_arg21 : FVec F S1 .f32) (main_arg22 : FVec F S64x1 .f32) (main_arg23 : FVec F S1 .f32) (main_arg24 : FVec F S64x1 .f32) (main_arg25 : FVec F S1 .f32) (main_arg26 : FVec F S256x256 .f32) (main_arg27 : FVec F S256 .f32) (main_arg28 : FVec F S256x256 .f32) (main_arg29 : FVec F S256 .f32) (main_v63 : IVec S_ 1) (main_v67 : IVec S_ 1) : IVec S_ 1 :=
  let main_v68 : IVec S_ 1 := andi main_v63 main_v67
  let main_v69 : FVec F S64x1 .f32 := Host.absf main_arg18
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S64x1 .f32 := Host.absf main_arg20
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg22 main_arg23 main_arg24 main_arg25 main_arg26 main_arg27 main_arg28 main_arg29 main_v83 main_v84 main_cst_32

def fn_part3 {F : FTy → Type} [FloatOps F] (main_arg15 : FVec F S64 .f32) (main_arg16 : FVec F S256x64 .f32) (main_arg17 : FVec F S64 .f32) (main_arg18 : FVec F S64x1 .f32) (main_arg19 : FVec F S1 .f32) (main_arg20 : FVec F S64x1 .f32) (main_arg21 : FVec F S1 .f32) (main_arg22 : FVec F S64x1 .f32) (main_arg23 : FVec F S1 .f32) (main_arg24 : FVec F S64x1 .f32) (main_arg25 : FVec F S1 .f32) (main_arg26 : FVec F S256x256 .f32) (main_arg27 : FVec F S256 .f32) (main_arg28 : FVec F S256x256 .f32) (main_arg29 : FVec F S256 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg16
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_arg22 main_arg23 main_arg24 main_arg25 main_arg26 main_arg27 main_arg28 main_arg29 main_v63 main_v67

def fn_part2 {F : FTy → Type} [FloatOps F] (main_arg11 : FVec F S64 .f32) (main_arg12 : FVec F S256x64 .f32) (main_arg13 : FVec F S64 .f32) (main_arg14 : FVec F S256x64 .f32) (main_arg15 : FVec F S64 .f32) (main_arg16 : FVec F S256x64 .f32) (main_arg17 : FVec F S64 .f32) (main_arg18 : FVec F S64x1 .f32) (main_arg19 : FVec F S1 .f32) (main_arg20 : FVec F S64x1 .f32) (main_arg21 : FVec F S1 .f32) (main_arg22 : FVec F S64x1 .f32) (main_arg23 : FVec F S1 .f32) (main_arg24 : FVec F S64x1 .f32) (main_arg25 : FVec F S1 .f32) (main_arg26 : FVec F S256x256 .f32) (main_arg27 : FVec F S256 .f32) (main_arg28 : FVec F S256x256 .f32) (main_arg29 : FVec F S256 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg12
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg14
  let main_cst_18 : FVec F S_ .f32 := constant S_ .f32 0x7F800000#32
  let main_v50 : FVec F S256x64 .f32 := broadcastInDim S256x64 ![] bcast_S_S256x64 main_cst_18
  fn_part3 (F := F) main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg8 : FVec F S256x256 .f32) (main_arg9 : FVec F S256 .f32) (main_arg10 : FVec F S256x64 .f32) (main_arg11 : FVec F S64 .f32) (main_arg12 : FVec F S256x64 .f32) (main_arg13 : FVec F S64 .f32) (main_arg14 : FVec F S256x64 .f32) (main_arg15 : FVec F S64 .f32) (main_arg16 : FVec F S256x64 .f32) (main_arg17 : FVec F S64 .f32) (main_arg18 : FVec F S64x1 .f32) (main_arg19 : FVec F S1 .f32) (main_arg20 : FVec F S64x1 .f32) (main_arg21 : FVec F S1 .f32) (main_arg22 : FVec F S64x1 .f32) (main_arg23 : FVec F S1 .f32) (main_arg24 : FVec F S64x1 .f32) (main_arg25 : FVec F S1 .f32) (main_arg26 : FVec F S256x256 .f32) (main_arg27 : FVec F S256 .f32) (main_arg28 : FVec F S256x256 .f32) (main_arg29 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg10
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S40000x256 .f32) (main_arg1 : FVec F S80000x256 .f32) (main_arg2 : IVec S800000 32) (main_arg3 : IVec S800000 32) (main_arg4 : IVec S800000 32) (main_arg5 : IVec S800000 32) (main_arg6 : FVec F S256x256 .f32) (main_arg7 : FVec F S256 .f32) (main_arg8 : FVec F S256x256 .f32) (main_arg9 : FVec F S256 .f32) (main_arg10 : FVec F S256x64 .f32) (main_arg11 : FVec F S64 .f32) (main_arg12 : FVec F S256x64 .f32) (main_arg13 : FVec F S64 .f32) (main_arg14 : FVec F S256x64 .f32) (main_arg15 : FVec F S64 .f32) (main_arg16 : FVec F S256x64 .f32) (main_arg17 : FVec F S64 .f32) (main_arg18 : FVec F S64x1 .f32) (main_arg19 : FVec F S1 .f32) (main_arg20 : FVec F S64x1 .f32) (main_arg21 : FVec F S1 .f32) (main_arg22 : FVec F S64x1 .f32) (main_arg23 : FVec F S1 .f32) (main_arg24 : FVec F S64x1 .f32) (main_arg25 : FVec F S1 .f32) (main_arg26 : FVec F S256x256 .f32) (main_arg27 : FVec F S256 .f32) (main_arg28 : FVec F S256x256 .f32) (main_arg29 : FVec F S256 .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S80000x256 .f32 := Host.absf main_arg1
  let main_cst_0 : FVec F S_ .f32 := constant S_ .f32 0x7F800000#32
  let main_v5 : FVec F S80000x256 .f32 := broadcastInDim S80000x256 ![] bcast_S_S80000x256 main_cst_0
  let main_v6 : IVec S80000x256 1 := cmpf .olt main_v4 main_v5
  let main_c_1 : IVec S_ 1 := constantI S_ 1 1#1
  let main_v7 : IVec S_ 1 := (fun x v => Host.reduce IntOp.andi x v reducesTo_S80000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S40000x256 : Shape := ⟨2, ![40000, 256]⟩
abbrev S80000x256 : Shape := ⟨2, ![80000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S40000 : Shape := ⟨1, ![40000]⟩
abbrev S800000x1 : Shape := ⟨2, ![800000, 1]⟩
abbrev S800000x256 : Shape := ⟨2, ![800000, 256]⟩
abbrev S40000x1 : Shape := ⟨2, ![40000, 1]⟩
abbrev S80000 : Shape := ⟨1, ![80000]⟩
abbrev S80000x1 : Shape := ⟨2, ![80000, 1]⟩
abbrev S1x256 : Shape := ⟨2, ![1, 256]⟩
abbrev S1x64 : Shape := ⟨2, ![1, 64]⟩
abbrev S1x1 : Shape := ⟨2, ![1, 1]⟩
abbrev S2000x256 : Shape := ⟨2, ![2000, 256]⟩
abbrev S2000x64 : Shape := ⟨2, ![2000, 64]⟩
abbrev S2000 : Shape := ⟨1, ![2000]⟩
abbrev S2000x1 : Shape := ⟨2, ![2000, 1]⟩

abbrev nBuf : Space → Nat
  | .hbm => 108
  | .vmem => 36
  | .smem => 0
  | _ => 0

abbrev bufTy : (tb : Table) → Fin (tcTables nBuf tb) → BufTy
  | .hbm, ⟨0, _⟩ => ⟨S40000x256, .f32⟩
  | .hbm, ⟨1, _⟩ => ⟨S80000x256, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S64, .f32⟩
  | .hbm, ⟨14, _⟩ => ⟨S256x64, .f32⟩
  | .hbm, ⟨15, _⟩ => ⟨S64, .f32⟩
  | .hbm, ⟨16, _⟩ => ⟨S256x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S64x1, .f32⟩
  | .hbm, ⟨21, _⟩ => ⟨S1, .f32⟩
  | .hbm, ⟨22, _⟩ => ⟨S64x1, .f32⟩
  | .hbm, ⟨23, _⟩ => ⟨S1, .f32⟩
  | .hbm, ⟨24, _⟩ => ⟨S64x1, .f32⟩
  | .hbm, ⟨25, _⟩ => ⟨S1, .f32⟩
  | .hbm, ⟨26, _⟩ => ⟨S256x256, .f32⟩
  | .hbm, ⟨27, _⟩ => ⟨S256, .f32⟩
  | .hbm, ⟨28, _⟩ => ⟨S256x256, .f32⟩
  | .hbm, ⟨29, _⟩ => ⟨S256, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S40000, .f32⟩
  | .hbm, ⟨34, _⟩ => ⟨S800000x1, .i32⟩
  | .hbm, ⟨35, _⟩ => ⟨S40000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S40000x256, .f32⟩
  | .hbm, ⟨47, _⟩ => ⟨S800000x1, .i32⟩
  | .hbm, ⟨48, _⟩ => ⟨S40000x256, .f32⟩
  | .hbm, ⟨49, _⟩ => ⟨S_, .f32⟩
  | .hbm, ⟨50, _⟩ => ⟨S40000, .f32⟩
  | .hbm, ⟨51, _⟩ => ⟨S40000, .f32⟩
  | .hbm, ⟨52, _⟩ => ⟨S40000x1, .f32⟩
  | .hbm, ⟨53, _⟩ => ⟨S40000x256, .f32⟩
  | .hbm, ⟨54, _⟩ => ⟨S40000x256, .f32⟩
  | .hbm, ⟨55, _⟩ => ⟨S_, .f32⟩
  | .hbm, ⟨56, _⟩ => ⟨S80000, .f32⟩
  | .hbm, ⟨57, _⟩ => ⟨S800000x1, .i32⟩
  | .hbm, ⟨58, _⟩ => ⟨S80000, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S80000x256, .f32⟩
  | .hbm, ⟨70, _⟩ => ⟨S800000x1, .i32⟩
  | .hbm, ⟨71, _⟩ => ⟨S80000x256, .f32⟩
  | .hbm, ⟨72, _⟩ => ⟨S_, .f32⟩
  | .hbm, ⟨73, _⟩ => ⟨S80000, .f32⟩
  | .hbm, ⟨74, _⟩ => ⟨S80000, .f32⟩
  | .hbm, ⟨75, _⟩ => ⟨S80000x1, .f32⟩
  | .hbm, ⟨76, _⟩ => ⟨S80000x256, .f32⟩
  | .hbm, ⟨77, _⟩ => ⟨S80000x256, .f32⟩
  | .hbm, ⟨78, _⟩ => ⟨S40000x256, .bf16⟩
  | .hbm, ⟨79, _⟩ => ⟨S40000x256, .bf16⟩
  | .hbm, ⟨80, _⟩ => ⟨S256x256, .bf16⟩
  | .hbm, ⟨81, _⟩ => ⟨S256x256, .bf16⟩
  | .hbm, ⟨82, _⟩ => ⟨S256x64, .bf16⟩
  | .hbm, ⟨83, _⟩ => ⟨S256x64, .bf16⟩
  | .hbm, ⟨84, _⟩ => ⟨S1x256, .f32⟩
  | .hbm, ⟨85, _⟩ => ⟨S1x256, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x1, .f32⟩
  | .hbm, ⟨90, _⟩ => ⟨S1x64, .f32⟩
  | .hbm, ⟨91, _⟩ => ⟨S1x1, .f32⟩
  | .hbm, ⟨92, _⟩ => ⟨S40000x256, .f32⟩
  | .hbm, ⟨93, _⟩ => ⟨S80000x256, .bf16⟩
  | .hbm, ⟨94, _⟩ => ⟨S80000x256, .bf16⟩
  | .hbm, ⟨95, _⟩ => ⟨S256x256, .bf16⟩
  | .hbm, ⟨96, _⟩ => ⟨S256x256, .bf16⟩
  | .hbm, ⟨97, _⟩ => ⟨S256x64, .bf16⟩
  | .hbm, ⟨98, _⟩ => ⟨S256x64, .bf16⟩
  | .hbm, ⟨99, _⟩ => ⟨S1x256, .f32⟩
  | .hbm, ⟨100, _⟩ => ⟨S1x256, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x1, .f32⟩
  | .hbm, ⟨105, _⟩ => ⟨S1x64, .f32⟩
  | .hbm, ⟨106, _⟩ => ⟨S1x1, .f32⟩
  | .hbm, ⟨107, _⟩ => ⟨S80000x256, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x64, .bf16⟩
  | .local _ .vmem, ⟨9, _⟩ => ⟨S1x64, .f32⟩
  | .local _ .vmem, ⟨10, _⟩ => ⟨S256x64, .bf16⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S1x64, .f32⟩
  | .local _ .vmem, ⟨15, _⟩ => ⟨S1x1, .f32⟩
  | .local _ .vmem, ⟨16, _⟩ => ⟨S2000x256, .f32⟩
  | .local _ .vmem, ⟨17, _⟩ => ⟨S2000x256, .f32⟩
  | .local _ .vmem, ⟨18, _⟩ => ⟨S2000x256, .bf16⟩
  | .local _ .vmem, ⟨19, _⟩ => ⟨S2000x256, .bf16⟩
  | .local _ .vmem, ⟨20, _⟩ => ⟨S2000x256, .bf16⟩
  | .local _ .vmem, ⟨21, _⟩ => ⟨S2000x256, .bf16⟩
  | .local _ .vmem, ⟨22, _⟩ => ⟨S256x256, .bf16⟩
  | .local _ .vmem, ⟨23, _⟩ => ⟨S1x256, .f32⟩
  | .local _ .vmem, ⟨24, _⟩ => ⟨S256x256, .bf16⟩
  | .local _ .vmem, ⟨25, _⟩ => ⟨S1x256, .f32⟩
  | .local _ .vmem, ⟨26, _⟩ => ⟨S256x64, .bf16⟩
  | .local _ .vmem, ⟨27, _⟩ => ⟨S1x64, .f32⟩
  | .local _ .vmem, ⟨28, _⟩ => ⟨S256x64, .bf16⟩
  | .local _ .vmem, ⟨29, _⟩ => ⟨S1x64, .f32⟩
  | .local _ .vmem, ⟨30, _⟩ => ⟨S1x64, .f32⟩
  | .local _ .vmem, ⟨31, _⟩ => ⟨S1x1, .f32⟩
  | .local _ .vmem, ⟨32, _⟩ => ⟨S1x64, .f32⟩
  | .local _ .vmem, ⟨33, _⟩ => ⟨S1x1, .f32⟩
  | .local _ .vmem, ⟨34, _⟩ => ⟨S2000x256, .f32⟩
  | .local _ .vmem, ⟨35, _⟩ => ⟨S2000x256, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_4 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_5 : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_8 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S800000 : S_.BroadcastsInDim S800000 (![] : Fin 0 → Fin S800000.rank)
  bcast_S_S40000 : S_.BroadcastsInDim S40000 (![] : Fin 0 → Fin S40000.rank)
  bcast_S800000_S800000x1_0 : S800000.BroadcastsInDim S800000x1 (![0] : Fin 1 → Fin S800000x1.rank)
  bcast_S_S40000x256 : S_.BroadcastsInDim S40000x256 (![] : Fin 0 → Fin S40000x256.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  bcast_S_S80000 : S_.BroadcastsInDim S80000 (![] : Fin 0 → Fin S80000.rank)
  bcast_S_S80000x256 : S_.BroadcastsInDim S80000x256 (![] : Fin 0 → Fin S80000x256.rank)
  bcast_S80000_S80000x1_0 : S80000.BroadcastsInDim S80000x1 (![0] : Fin 1 → Fin S80000x1.rank)
  bcast_S80000x1_S80000x256_0_1 : S80000x1.BroadcastsInDim S80000x256 (![0, 1] : Fin 2 → Fin S80000x256.rank)
  bitsLt_bf16_f32 : FTy.bits .bf16 < FTy.bits .f32
  shapeCasts_S256_S1x256 : S256.ShapeCasts S1x256
  shapeCasts_S64_S1x64 : S64.ShapeCasts S1x64
  shapeCasts_S64x1_S1x64 : S64x1.ShapeCasts S1x64
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S2000x256 : S1x256.Broadcasts S2000x256
  broadcasts_S1x64_S2000x64 : S1x64.Broadcasts S2000x64
  reduces_S2000x64_S2000 : S2000x64.Reduces [1] S2000
  shapeCasts_S2000_S2000x1 : S2000.ShapeCasts S2000x1
  broadcasts_S1x1_S2000x1 : S1x1.Broadcasts S2000x1
  broadcasts_S2000x1_S2000x256 : S2000x1.Broadcasts S2000x256
  scatter_S40000_S800000x1_S800000_n_0_0_1_wf : ScatterDims.WF S40000 S800000x1 S800000 [] [0] [0] 1
  gather_S80000x256_S800000x1_S800000x256_1_0_n_n_0_1_1256_wf : GatherDims.WF S80000x256 S800000x1 S800000x256 [1] [0] [] [0] [] 1 ![1, 256]
  scatter_S40000x256_S800000x1_S800000x256_1_0_0_1_wf : ScatterDims.WF S40000x256 S800000x1 S800000x256 [1] [0] [0] 1
  scatter_S80000_S800000x1_S800000_n_0_0_1_wf : ScatterDims.WF S80000 S800000x1 S800000 [] [0] [0] 1
  gather_S40000x256_S800000x1_S800000x256_1_0_n_n_0_1_1256_wf : GatherDims.WF S40000x256 S800000x1 S800000x256 [1] [0] [] [0] [] 1 ![1, 256]
  scatter_S80000x256_S800000x1_S800000x256_1_0_0_1_wf : ScatterDims.WF S80000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S40000x256.size a
  hwx0_0 : ∀ i : grid0.Coords, EltTy.bits .bf16 = 32 ∨ (Rect.block (s := S40000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S40000x256.size a
  hwx0_1 : ∀ i : grid0.Coords, EltTy.bits .bf16 = 32 ∨ (Rect.block (s := S40000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .bf16 = 32 ∨ (Rect.block (s := S256x64) S256x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x256.size a ≤ S40000x256.size a
  hwx0_14 : ∀ i : grid0.Coords, EltTy.bits .f32 = 32 ∨ (Rect.block (s := S40000x256) S2000x256.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S80000x256.size a
  hwx1_0 : ∀ i : grid1.Coords, EltTy.bits .bf16 = 32 ∨ (Rect.block (s := S80000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S80000x256.size a
  hwx1_1 : ∀ i : grid1.Coords, EltTy.bits .bf16 = 32 ∨ (Rect.block (s := S80000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .bf16 = 32 ∨ (Rect.block (s := S256x64) S256x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x64.size a ≤ S256x64.size a
  hwx1_8 : ∀ i : grid1.Coords, EltTy.bits .bf16 = 32 ∨ (Rect.block (s := S256x64) S256x64.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x256.size a ≤ S80000x256.size a
  hwx1_14 : ∀ i : grid1.Coords, EltTy.bits .f32 = 32 ∨ (Rect.block (s := S80000x256) S2000x256.size (cc1_transform_14 i) (hinb1_14 i)).WholeWords (EltTy.packing .f32)

variable [Facts₀]

def scatter_S40000_S800000x1_S800000_n_0_0_1 : ScatterDims S40000 S800000x1 S800000 where
  updateWindowDims := []
  insertedWindowDims := [0]
  scatterDimsToOperandDims := [0]
  indexVectorDim := 1
  wf := scatter_S40000_S800000x1_S800000_n_0_0_1_wf
def gather_S80000x256_S800000x1_S800000x256_1_0_n_n_0_1_1256 : GatherDims S80000x256 S800000x1 S800000x256 where
  offsetDims := [1]
  collapsedSliceDims := [0]
  operandBatchingDims := []
  startIndicesBatchingDims := []
  startIndexMap := [0]
  indexVectorDim := 1
  sliceSizes := ![1, 256]
  wf := gather_S80000x256_S800000x1_S800000x256_1_0_n_n_0_1_1256_wf
def scatter_S40000x256_S800000x1_S800000x256_1_0_0_1 : ScatterDims S40000x256 S800000x1 S800000x256 where
  updateWindowDims := [1]
  insertedWindowDims := [0]
  scatterDimsToOperandDims := [0]
  indexVectorDim := 1
  wf := scatter_S40000x256_S800000x1_S800000x256_1_0_0_1_wf
def scatter_S80000_S800000x1_S800000_n_0_0_1 : ScatterDims S80000 S800000x1 S800000 where
  updateWindowDims := []
  insertedWindowDims := [0]
  scatterDimsToOperandDims := [0]
  indexVectorDim := 1
  wf := scatter_S80000_S800000x1_S800000_n_0_0_1_wf
def gather_S40000x256_S800000x1_S800000x256_1_0_n_n_0_1_1256 : GatherDims S40000x256 S800000x1 S800000x256 where
  offsetDims := [1]
  collapsedSliceDims := [0]
  operandBatchingDims := []
  startIndicesBatchingDims := []
  startIndexMap := [0]
  indexVectorDim := 1
  sliceSizes := ![1, 256]
  wf := gather_S40000x256_S800000x1_S800000x256_1_0_n_n_0_1_1256_wf
def scatter_S80000x256_S800000x1_S800000x256_1_0_0_1 : ScatterDims S80000x256 S800000x1 S800000x256 where
  updateWindowDims := [1]
  insertedWindowDims := [0]
  scatterDimsToOperandDims := [0]
  indexVectorDim := 1
  wf := scatter_S80000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v37) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v48) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v49) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v51) S2000x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v52) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S256x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S256x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v61) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v62) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v63) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v64) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v65) S1x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v66) S2000x256.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S40000x256 : Shape := ⟨2, ![40000, 256]⟩
abbrev S80000x256 : Shape := ⟨2, ![80000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x256 : Shape := ⟨2, ![1, 256]⟩
abbrev S_ : Shape := ⟨0, ![]⟩
abbrev S40000 : Shape := ⟨1, ![40000]⟩
abbrev S800000x1 : Shape := ⟨2, ![800000, 1]⟩
abbrev S800000x256 : Shape := ⟨2, ![800000, 256]⟩
abbrev S40000x1 : Shape := ⟨2, ![40000, 1]⟩
abbrev S80000 : Shape := ⟨1, ![80000]⟩
abbrev S80000x1 : Shape := ⟨2, ![80000, 1]⟩
abbrev S40000x64 : Shape := ⟨2, ![40000, 64]⟩
abbrev S1x64 : Shape := ⟨2, ![1, 64]⟩
abbrev S1x1 : Shape := ⟨2, ![1, 1]⟩
abbrev S1x40000x1 : Shape := ⟨3, ![1, 40000, 1]⟩
abbrev S2x40000x1 : Shape := ⟨3, ![2, 40000, 1]⟩
abbrev S80000x64 : Shape := ⟨2, ![80000, 64]⟩
abbrev S1x80000x1 : Shape := ⟨3, ![1, 80000, 1]⟩
abbrev S2x80000x1 : Shape := ⟨3, ![2, 80000, 1]⟩

abbrev nBuf : Space → Nat
  | .hbm => 290
  | .vmem => 0
  | .smem => 0
  | _ => 0

abbrev hbmTy0_0 (i : Nat) : BufTy := match i % 128 with
  | 0 => ⟨S40000x256, .f32⟩
  | 1 => ⟨S80000x256, .f32⟩
  | 2 => ⟨S800000, .i32⟩
  | 3 => ⟨S800000, .i32⟩
  | 4 => ⟨S800000, .i32⟩
  | 5 => ⟨S800000, .i32⟩
  | 6 => ⟨S256x256, .f32⟩
  | 7 => ⟨S256, .f32⟩
  | 8 => ⟨S256x256, .f32⟩
  | 9 => ⟨S256, .f32⟩
  | 10 => ⟨S256x64, .f32⟩
  | 11 => ⟨S64, .f32⟩
  | 12 => ⟨S256x64, .f32⟩
  | 13 => ⟨S64, .f32⟩
  | 14 => ⟨S256x64, .f32⟩
  | 15 => ⟨S64, .f32⟩
  | 16 => ⟨S256x64, .f32⟩
  | 17 => ⟨S64, .f32⟩
  | 18 => ⟨S64x1, .f32⟩
  | 19 => ⟨S1, .f32⟩
  | 20 => ⟨S64x1, .f32⟩
  | 21 => ⟨S1, .f32⟩
  | 22 => ⟨S64x1, .f32⟩
  | 23 => ⟨S1, .f32⟩
  | 24 => ⟨S64x1, .f32⟩
  | 25 => ⟨S1, .f32⟩
  | 26 => ⟨S256x256, .f32⟩
  | 27 => ⟨S256, .f32⟩
  | 28 => ⟨S256x256, .f32⟩
  | 29 => ⟨S256, .f32⟩
  | 30 => ⟨S40000x256, .f32⟩
  | 31 => ⟨S1x256, .f32⟩
  | 32 => ⟨S40000x256, .f32⟩
  | 33 => ⟨S40000x256, .f32⟩
  | 34 => ⟨S80000x256, .f32⟩
  | 35 => ⟨S1x256, .f32⟩
  | 36 => ⟨S80000x256, .f32⟩
  | 37 => ⟨S80000x256, .f32⟩
  | 38 => ⟨S_, .f32⟩
  | 39 => ⟨S800000, .f32⟩
  | 40 => ⟨S_, .f32⟩
  | 41 => ⟨S40000, .f32⟩
  | 42 => ⟨S800000x1, .i32⟩
  | 43 => ⟨S40000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S_, .f32⟩
  | 54 => ⟨S40000x256, .f32⟩
  | 55 => ⟨S800000x1, .i32⟩
  | 56 => ⟨S40000x256, .f32⟩
  | 57 => ⟨S_, .f32⟩
  | 58 => ⟨S40000, .f32⟩
  | 59 => ⟨S40000, .f32⟩
  | 60 => ⟨S40000x1, .f32⟩
  | 61 => ⟨S40000x256, .f32⟩
  | 62 => ⟨S40000x256, .f32⟩
  | 63 => ⟨S40000x256, .f32⟩
  | 64 => ⟨S1x256, .f32⟩
  | 65 => ⟨S40000x256, .f32⟩
  | 66 => ⟨S40000x256, .f32⟩
  | 67 => ⟨S_, .f32⟩
  | 68 => ⟨S800000, .f32⟩
  | 69 => ⟨S_, .f32⟩
  | 70 => ⟨S80000, .f32⟩
  | 71 => ⟨S800000x1, .i32⟩
  | 72 => ⟨S80000, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S_, .f32⟩
  | 83 => ⟨S80000x256, .f32⟩
  | 84 => ⟨S800000x1, .i32⟩
  | 85 => ⟨S80000x256, .f32⟩
  | 86 => ⟨S_, .f32⟩
  | 87 => ⟨S80000, .f32⟩
  | 88 => ⟨S80000, .f32⟩
  | 89 => ⟨S80000x1, .f32⟩
  | 90 => ⟨S80000x256, .f32⟩
  | 91 => ⟨S80000x256, .f32⟩
  | 92 => ⟨S80000x256, .f32⟩
  | 93 => ⟨S1x256, .f32⟩
  | 94 => ⟨S80000x256, .f32⟩
  | 95 => ⟨S80000x256, .f32⟩
  | 96 => ⟨S40000x64, .f32⟩
  | 97 => ⟨S1x64, .f32⟩
  | 98 => ⟨S40000x64, .f32⟩
  | 99 => ⟨S40000x64, .f32⟩
  | 100 => ⟨S40000x1, .f32⟩
  | 101 => ⟨S1x1, .f32⟩
  | 102 => ⟨S40000x1, .f32⟩
  | 103 => ⟨S40000x1, .f32⟩
  | 104 => ⟨S40000x64, .f32⟩
  | 105 => ⟨S1x64, .f32⟩
  | 106 => ⟨S40000x64, .f32⟩
  | 107 => ⟨S40000x64, .f32⟩
  | 108 => ⟨S40000x1, .f32⟩
  | 109 => ⟨S1x1, .f32⟩
  | 110 => ⟨S40000x1, .f32⟩
  | 111 => ⟨S40000x1, .f32⟩
  | 112 => ⟨S40000x1, .f32⟩
  | 113 => ⟨S_, .f32⟩
  | 114 => ⟨S40000x1, .f32⟩
  | 115 => ⟨S40000x1, .i1⟩
  | 116 => ⟨S_, .f32⟩
  | 117 => ⟨S40000x1, .f32⟩
  | 118 => ⟨S40000x1, .i1⟩
  | 119 => ⟨S_, .f32⟩
  | 120 => ⟨S_, .f32⟩
  | 121 => ⟨S40000x1, .f32⟩
  | 122 => ⟨S40000x1, .f32⟩
  | 123 => ⟨S40000x1, .f32⟩
  | 124 => ⟨S_, .f32⟩
  | 125 => ⟨S40000x1, .f32⟩
  | 126 => ⟨S40000x1, .f32⟩
  | 127 => ⟨S40000x1, .f32⟩
  | _ => ⟨S40000x256, .f32⟩

abbrev hbmTy0_1 (i : Nat) : BufTy := match i % 128 with
  | 0 => ⟨S40000x64, .f32⟩
  | 1 => ⟨S1x64, .f32⟩
  | 2 => ⟨S40000x64, .f32⟩
  | 3 => ⟨S40000x64, .f32⟩
  | 4 => ⟨S40000x1, .f32⟩
  | 5 => ⟨S1x1, .f32⟩
  | 6 => ⟨S40000x1, .f32⟩
  | 7 => ⟨S40000x1, .f32⟩
  | 8 => ⟨S40000x1, .f32⟩
  | 9 => ⟨S_, .f32⟩
  | 10 => ⟨S40000x1, .f32⟩
  | 11 => ⟨S40000x1, .i1⟩
  | 12 => ⟨S_, .f32⟩
  | 13 => ⟨S40000x1, .f32⟩
  | 14 => ⟨S40000x1, .i1⟩
  | 15 => ⟨S_, .f32⟩
  | 16 => ⟨S_, .f32⟩
  | 17 => ⟨S40000x1, .f32⟩
  | 18 => ⟨S40000x1, .f32⟩
  | 19 => ⟨S40000x1, .f32⟩
  | 20 => ⟨S_, .f32⟩
  | 21 => ⟨S40000x1, .f32⟩
  | 22 => ⟨S40000x1, .f32⟩
  | 23 => ⟨S40000x1, .f32⟩
  | 24 => ⟨S1x40000x1, .f32⟩
  | 25 => ⟨S1x40000x1, .f32⟩
  | 26 => ⟨S2x40000x1, .f32⟩
  | 27 => ⟨S_, .f32⟩
  | 28 => ⟨S40000x1, .f32⟩
  | 29 => ⟨S_, .f32⟩
  | 30 => ⟨S40000x1, .f32⟩
  | 31 => ⟨S40000x1, .f32⟩
  | 32 => ⟨S1x40000x1, .f32⟩
  | 33 => ⟨S2x40000x1, .f32⟩
  | 34 => ⟨S2x40000x1, .f32⟩
  | 35 => ⟨S2x40000x1, .f32⟩
  | 36 => ⟨S_, .f32⟩
  | 37 => ⟨S40000x1, .f32⟩
  | 38 => ⟨S1x40000x1, .f32⟩
  | 39 => ⟨S2x40000x1, .f32⟩
  | 40 => ⟨S2x40000x1, .f32⟩
  | 41 => ⟨S1x40000x1, .f32⟩
  | 42 => ⟨S40000x1, .f32⟩
  | 43 => ⟨S40000x256, .f32⟩
  | 44 => ⟨S40000x256, .f32⟩
  | 45 => ⟨S1x40000x1, .f32⟩
  | 46 => ⟨S40000x1, .f32⟩
  | 47 => ⟨S40000x256, .f32⟩
  | 48 => ⟨S40000x256, .f32⟩
  | 49 => ⟨S40000x256, .f32⟩
  | 50 => ⟨S_, .f32⟩
  | 51 => ⟨S40000x256, .f32⟩
  | 52 => ⟨S40000x256, .i1⟩
  | 53 => ⟨S_, .f32⟩
  | 54 => ⟨S40000x256, .f32⟩
  | 55 => ⟨S40000x256, .i1⟩
  | 56 => ⟨S_, .f32⟩
  | 57 => ⟨S_, .f32⟩
  | 58 => ⟨S40000x256, .f32⟩
  | 59 => ⟨S40000x256, .f32⟩
  | 60 => ⟨S40000x256, .f32⟩
  | 61 => ⟨S_, .f32⟩
  | 62 => ⟨S40000x256, .f32⟩
  | 63 => ⟨S40000x256, .f32⟩
  | 64 => ⟨S40000x256, .f32⟩
  | 65 => ⟨S80000x64, .f32⟩
  | 66 => ⟨S1x64, .f32⟩
  | 67 => ⟨S80000x64, .f32⟩
  | 68 => ⟨S80000x64, .f32⟩
  | 69 => ⟨S80000x1, .f32⟩
  | 70 => ⟨S1x1, .f32⟩
  | 71 => ⟨S80000x1, .f32⟩
  | 72 => ⟨S80000x1, .f32⟩
  | 73 => ⟨S80000x64, .f32⟩
  | 74 => ⟨S1x64, .f32⟩
  | 75 => ⟨S80000x64, .f32⟩
  | 76 => ⟨S80000x64, .f32⟩
  | 77 => ⟨S80000x1, .f32⟩
  | 78 => ⟨S1x1, .f32⟩
  | 79 => ⟨S80000x1, .f32⟩
  | 80 => ⟨S80000x1, .f32⟩
  | 81 => ⟨S80000x1, .f32⟩
  | 82 => ⟨S_, .f32⟩
  | 83 => ⟨S80000x1, .f32⟩
  | 84 => ⟨S80000x1, .i1⟩
  | 85 => ⟨S_, .f32⟩
  | 86 => ⟨S80000x1, .f32⟩
  | 87 => ⟨S80000x1, .i1⟩
  | 88 => ⟨S_, .f32⟩
  | 89 => ⟨S_, .f32⟩
  | 90 => ⟨S80000x1, .f32⟩
  | 91 => ⟨S80000x1, .f32⟩
  | 92 => ⟨S80000x1, .f32⟩
  | 93 => ⟨S_, .f32⟩
  | 94 => ⟨S80000x1, .f32⟩
  | 95 => ⟨S80000x1, .f32⟩
  | 96 => ⟨S80000x1, .f32⟩
  | 97 => ⟨S80000x64, .f32⟩
  | 98 => ⟨S1x64, .f32⟩
  | 99 => ⟨S80000x64, .f32⟩
  | 100 => ⟨S80000x64, .f32⟩
  | 101 => ⟨S80000x1, .f32⟩
  | 102 => ⟨S1x1, .f32⟩
  | 103 => ⟨S80000x1, .f32⟩
  | 104 => ⟨S80000x1, .f32⟩
  | 105 => ⟨S80000x1, .f32⟩
  | 106 => ⟨S_, .f32⟩
  | 107 => ⟨S80000x1, .f32⟩
  | 108 => ⟨S80000x1, .i1⟩
  | 109 => ⟨S_, .f32⟩
  | 110 => ⟨S80000x1, .f32⟩
  | 111 => ⟨S80000x1, .i1⟩
  | 112 => ⟨S_, .f32⟩
  | 113 => ⟨S_, .f32⟩
  | 114 => ⟨S80000x1, .f32⟩
  | 115 => ⟨S80000x1, .f32⟩
  | 116 => ⟨S80000x1, .f32⟩
  | 117 => ⟨S_, .f32⟩
  | 118 => ⟨S80000x1, .f32⟩
  | 119 => ⟨S80000x1, .f32⟩
  | 120 => ⟨S80000x1, .f32⟩
  | 121 => ⟨S1x80000x1, .f32⟩
  | 122 => ⟨S1x80000x1, .f32⟩
  | 123 => ⟨S2x80000x1, .f32⟩
  | 124 => ⟨S_, .f32⟩
  | 125 => ⟨S80000x1, .f32⟩
  | 126 => ⟨S_, .f32⟩
  | 127 => ⟨S80000x1, .f32⟩
  | _ => ⟨S40000x256, .f32⟩

abbrev hbmTy0_2 (i : Nat) : BufTy := match i % 128 with
  | 0 => ⟨S80000x1, .f32⟩
  | 1 => ⟨S1x80000x1, .f32⟩
  | 2 => ⟨S2x80000x1, .f32⟩
  | 3 => ⟨S2x80000x1, .f32⟩
  | 4 => ⟨S2x80000x1, .f32⟩
  | 5 => ⟨S_, .f32⟩
  | 6 => ⟨S80000x1, .f32⟩
  | 7 => ⟨S1x80000x1, .f32⟩
  | 8 => ⟨S2x80000x1, .f32⟩
  | 9 => ⟨S2x80000x1, .f32⟩
  | 10 => ⟨S1x80000x1, .f32⟩
  | 11 => ⟨S80000x1, .f32⟩
  | 12 => ⟨S80000x256, .f32⟩
  | 13 => ⟨S80000x256, .f32⟩
  | 14 => ⟨S1x80000x1, .f32⟩
  | 15 => ⟨S80000x1, .f32⟩
  | 16 => ⟨S80000x256, .f32⟩
  | 17 => ⟨S80000x256, .f32⟩
  | 18 => ⟨S80000x256, .f32⟩
  | 19 => ⟨S_, .f32⟩
  | 20 => ⟨S80000x256, .f32⟩
  | 21 => ⟨S80000x256, .i1⟩
  | 22 => ⟨S_, .f32⟩
  | 23 => ⟨S80000x256, .f32⟩
  | 24 => ⟨S80000x256, .i1⟩
  | 25 => ⟨S_, .f32⟩
  | 26 => ⟨S_, .f32⟩
  | 27 => ⟨S80000x256, .f32⟩
  | 28 => ⟨S80000x256, .f32⟩
  | 29 => ⟨S80000x256, .f32⟩
  | 30 => ⟨S_, .f32⟩
  | 31 => ⟨S80000x256, .f32⟩
  | 32 => ⟨S80000x256, .f32⟩
  | 33 => ⟨S80000x256, .f32⟩
  | _ => ⟨S40000x256, .f32⟩

abbrev hbmTy (i : Nat) : BufTy := match i / 128 with
  | 0 => hbmTy0_0 i
  | 1 => hbmTy0_1 i
  | 2 => hbmTy0_2 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c : Ref sig .tc := ⟨.hbm, 44, rfl⟩
abbrev main_v12 : Ref sig .tc := ⟨.hbm, 45, rfl⟩
abbrev main_v13 : Ref sig .tc := ⟨.hbm, 46, rfl⟩
abbrev main_c_1 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_cst_5 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_6 : Ref sig .tc := ⟨.hbm, 73, rfl⟩
abbrev main_v35 : Ref sig .tc := ⟨.hbm, 74, rfl⟩
abbrev main_v36 : Ref sig .tc := ⟨.hbm, 75, rfl⟩
abbrev main_c_7 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_8 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_9 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call0_cst : Ref sig .tc := ⟨.hbm, 113, rfl⟩
abbrev main_call0_v0 : Ref sig .tc := ⟨.hbm, 114, rfl⟩
abbrev main_call0_v1 : Ref sig .tc := ⟨.hbm, 115, rfl⟩
abbrev main_call0_cst_0 : Ref sig .tc := ⟨.hbm, 116, rfl⟩
abbrev main_call0_v2 : Ref sig .tc := ⟨.hbm, 117, rfl⟩
abbrev main_call0_v3 : Ref sig .tc := ⟨.hbm, 118, rfl⟩
abbrev main_call0_cst_1 : Ref sig .tc := ⟨.hbm, 119, rfl⟩
abbrev main_call0_call0_v0 : Ref sig .tc := ⟨.hbm, 120, rfl⟩
abbrev main_call0_call0_v1 : Ref sig .tc := ⟨.hbm, 121, rfl⟩
abbrev main_call0_v4 : Ref sig .tc := ⟨.hbm, 122, rfl⟩
abbrev main_call0_v5 : Ref sig .tc := ⟨.hbm, 123, rfl⟩
abbrev main_call0_cst_2 : Ref sig .tc := ⟨.hbm, 124, rfl⟩
abbrev main_call0_v6 : Ref sig .tc := ⟨.hbm, 125, rfl⟩
abbrev main_call0_v7 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_call1_cst : Ref sig .tc := ⟨.hbm, 137, rfl⟩
abbrev main_call1_v0 : Ref sig .tc := ⟨.hbm, 138, rfl⟩
abbrev main_call1_v1 : Ref sig .tc := ⟨.hbm, 139, rfl⟩
abbrev main_call1_cst_0 : Ref sig .tc := ⟨.hbm, 140, rfl⟩
abbrev main_call1_v2 : Ref sig .tc := ⟨.hbm, 141, rfl⟩
abbrev main_call1_v3 : Ref sig .tc := ⟨.hbm, 142, rfl⟩
abbrev main_call1_cst_1 : Ref sig .tc := ⟨.hbm, 143, rfl⟩
abbrev main_call1_call0_v0 : Ref sig .tc := ⟨.hbm, 144, rfl⟩
abbrev main_call1_call0_v1 : Ref sig .tc := ⟨.hbm, 145, rfl⟩
abbrev main_call1_v4 : Ref sig .tc := ⟨.hbm, 146, rfl⟩
abbrev main_call1_v5 : Ref sig .tc := ⟨.hbm, 147, rfl⟩
abbrev main_call1_cst_2 : Ref sig .tc := ⟨.hbm, 148, rfl⟩
abbrev main_call1_v6 : Ref sig .tc := ⟨.hbm, 149, rfl⟩
abbrev main_call1_v7 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_10 : Ref sig .tc := ⟨.hbm, 155, rfl⟩
abbrev main_v85 : Ref sig .tc := ⟨.hbm, 156, rfl⟩
abbrev main_cst_11 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_cst_12 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_call2_cst : Ref sig .tc := ⟨.hbm, 178, rfl⟩
abbrev main_call2_v0 : Ref sig .tc := ⟨.hbm, 179, rfl⟩
abbrev main_call2_v1 : Ref sig .tc := ⟨.hbm, 180, rfl⟩
abbrev main_call2_cst_0 : Ref sig .tc := ⟨.hbm, 181, rfl⟩
abbrev main_call2_v2 : Ref sig .tc := ⟨.hbm, 182, rfl⟩
abbrev main_call2_v3 : Ref sig .tc := ⟨.hbm, 183, rfl⟩
abbrev main_call2_cst_1 : Ref sig .tc := ⟨.hbm, 184, rfl⟩
abbrev main_call2_call0_v0 : Ref sig .tc := ⟨.hbm, 185, rfl⟩
abbrev main_call2_call0_v1 : Ref sig .tc := ⟨.hbm, 186, rfl⟩
abbrev main_call2_v4 : Ref sig .tc := ⟨.hbm, 187, rfl⟩
abbrev main_call2_v5 : Ref sig .tc := ⟨.hbm, 188, rfl⟩
abbrev main_call2_cst_2 : Ref sig .tc := ⟨.hbm, 189, rfl⟩
abbrev main_call2_v6 : Ref sig .tc := ⟨.hbm, 190, rfl⟩
abbrev main_call2_v7 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_call3_cst : Ref sig .tc := ⟨.hbm, 210, rfl⟩
abbrev main_call3_v0 : Ref sig .tc := ⟨.hbm, 211, rfl⟩
abbrev main_call3_v1 : Ref sig .tc := ⟨.hbm, 212, rfl⟩
abbrev main_call3_cst_0 : Ref sig .tc := ⟨.hbm, 213, rfl⟩
abbrev main_call3_v2 : Ref sig .tc := ⟨.hbm, 214, rfl⟩
abbrev main_call3_v3 : Ref sig .tc := ⟨.hbm, 215, rfl⟩
abbrev main_call3_cst_1 : Ref sig .tc := ⟨.hbm, 216, rfl⟩
abbrev main_call3_call0_v0 : Ref sig .tc := ⟨.hbm, 217, rfl⟩
abbrev main_call3_call0_v1 : Ref sig .tc := ⟨.hbm, 218, rfl⟩
abbrev main_call3_v4 : Ref sig .tc := ⟨.hbm, 219, rfl⟩
abbrev main_call3_v5 : Ref sig .tc := ⟨.hbm, 220, rfl⟩
abbrev main_call3_cst_2 : Ref sig .tc := ⟨.hbm, 221, rfl⟩
abbrev main_call3_v6 : Ref sig .tc := ⟨.hbm, 222, rfl⟩
abbrev main_call3_v7 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_call4_cst : Ref sig .tc := ⟨.hbm, 234, rfl⟩
abbrev main_call4_v0 : Ref sig .tc := ⟨.hbm, 235, rfl⟩
abbrev main_call4_v1 : Ref sig .tc := ⟨.hbm, 236, rfl⟩
abbrev main_call4_cst_0 : Ref sig .tc := ⟨.hbm, 237, rfl⟩
abbrev main_call4_v2 : Ref sig .tc := ⟨.hbm, 238, rfl⟩
abbrev main_call4_v3 : Ref sig .tc := ⟨.hbm, 239, rfl⟩
abbrev main_call4_cst_1 : Ref sig .tc := ⟨.hbm, 240, rfl⟩
abbrev main_call4_call0_v0 : Ref sig .tc := ⟨.hbm, 241, rfl⟩
abbrev main_call4_call0_v1 : Ref sig .tc := ⟨.hbm, 242, rfl⟩
abbrev main_call4_v4 : Ref sig .tc := ⟨.hbm, 243, rfl⟩
abbrev main_call4_v5 : Ref sig .tc := ⟨.hbm, 244, rfl⟩
abbrev main_call4_cst_2 : Ref sig .tc := ⟨.hbm, 245, rfl⟩
abbrev main_call4_v6 : Ref sig .tc := ⟨.hbm, 246, rfl⟩
abbrev main_call4_v7 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_cst_13 : Ref sig .tc := ⟨.hbm, 252, rfl⟩
abbrev main_v137 : Ref sig .tc := ⟨.hbm, 253, rfl⟩
abbrev main_cst_14 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_cst_15 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_call5_cst : Ref sig .tc := ⟨.hbm, 275, rfl⟩
abbrev main_call5_v0 : Ref sig .tc := ⟨.hbm, 276, rfl⟩
abbrev main_call5_v1 : Ref sig .tc := ⟨.hbm, 277, rfl⟩
abbrev main_call5_cst_0 : Ref sig .tc := ⟨.hbm, 278, rfl⟩
abbrev main_call5_v2 : Ref sig .tc := ⟨.hbm, 279, rfl⟩
abbrev main_call5_v3 : Ref sig .tc := ⟨.hbm, 280, rfl⟩
abbrev main_call5_cst_1 : Ref sig .tc := ⟨.hbm, 281, rfl⟩
abbrev main_call5_call0_v0 : Ref sig .tc := ⟨.hbm, 282, rfl⟩
abbrev main_call5_call0_v1 : Ref sig .tc := ⟨.hbm, 283, rfl⟩
abbrev main_call5_v4 : Ref sig .tc := ⟨.hbm, 284, rfl⟩
abbrev main_call5_v5 : Ref sig .tc := ⟨.hbm, 285, rfl⟩
abbrev main_call5_cst_2 : Ref sig .tc := ⟨.hbm, 286, rfl⟩
abbrev main_call5_v6 : Ref sig .tc := ⟨.hbm, 287, rfl⟩
abbrev main_call5_v7 : Ref sig .tc := ⟨.hbm, 288, rfl⟩
abbrev main_v157 : Ref sig .tc := ⟨.hbm, 289, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S1x256_S80000x256_0_1 : S1x256.BroadcastsInDim S80000x256 (![0, 1] : Fin 2 → Fin S80000x256.rank)
  bcast_S_S800000 : S_.BroadcastsInDim S800000 (![] : Fin 0 → Fin S800000.rank)
  bcast_S_S40000 : S_.BroadcastsInDim S40000 (![] : Fin 0 → Fin S40000.rank)
  bcast_S800000_S800000x1_0 : S800000.BroadcastsInDim S800000x1 (![0] : Fin 1 → Fin S800000x1.rank)
  bcast_S_S40000x256 : S_.BroadcastsInDim S40000x256 (![] : Fin 0 → Fin S40000x256.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  bcast_S_S80000 : S_.BroadcastsInDim S80000 (![] : Fin 0 → Fin S80000.rank)
  bcast_S_S80000x256 : S_.BroadcastsInDim S80000x256 (![] : Fin 0 → Fin S80000x256.rank)
  bcast_S80000_S80000x1_0 : S80000.BroadcastsInDim S80000x1 (![0] : Fin 1 → Fin S80000x1.rank)
  bcast_S80000x1_S80000x256_0_1 : S80000x1.BroadcastsInDim S80000x256 (![0, 1] : Fin 2 → Fin S80000x256.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  bcast_S_S40000x1 : S_.BroadcastsInDim S40000x1 (![] : Fin 0 → Fin S40000x1.rank)
  bcast_S40000x1_S1x40000x1_1_2 : S40000x1.BroadcastsInDim S1x40000x1 (![1, 2] : Fin 2 → Fin S1x40000x1.rank)
  concatenates_S1x40000x1_S1x40000x1_S2x40000x1_d0 : Shape.Concatenates [S1x40000x1, S1x40000x1] S2x40000x1 0
  reducesTo_S2x40000x1_S40000x1_d0 : S2x40000x1.ReducesTo [0] S40000x1
  h_S_ : 0 < S_.numel
  bcast_S1x40000x1_S2x40000x1_0_1_2 : S1x40000x1.BroadcastsInDim S2x40000x1 (![0, 1, 2] : Fin 3 → Fin S2x40000x1.rank)
  slices_S2x40000x1_S1x40000x1_0_0_0 : S2x40000x1.Slices ![0, 0, 0] S1x40000x1
  shapeCasts_S1x40000x1_S40000x1 : S1x40000x1.ShapeCasts S40000x1
  slices_S2x40000x1_S1x40000x1_1_0_0 : S2x40000x1.Slices ![1, 0, 0] S1x40000x1
  bcast_S1x64_S80000x64_0_1 : S1x64.BroadcastsInDim S80000x64 (![0, 1] : Fin 2 → Fin S80000x64.rank)
  bcast_S1x1_S80000x1_0_1 : S1x1.BroadcastsInDim S80000x1 (![0, 1] : Fin 2 → Fin S80000x1.rank)
  bcast_S_S80000x1 : S_.BroadcastsInDim S80000x1 (![] : Fin 0 → Fin S80000x1.rank)
  bcast_S80000x1_S1x80000x1_1_2 : S80000x1.BroadcastsInDim S1x80000x1 (![1, 2] : Fin 2 → Fin S1x80000x1.rank)
  concatenates_S1x80000x1_S1x80000x1_S2x80000x1_d0 : Shape.Concatenates [S1x80000x1, S1x80000x1] S2x80000x1 0
  reducesTo_S2x80000x1_S80000x1_d0 : S2x80000x1.ReducesTo [0] S80000x1
  bcast_S1x80000x1_S2x80000x1_0_1_2 : S1x80000x1.BroadcastsInDim S2x80000x1 (![0, 1, 2] : Fin 3 → Fin S2x80000x1.rank)
  slices_S2x80000x1_S1x80000x1_0_0_0 : S2x80000x1.Slices ![0, 0, 0] S1x80000x1
  shapeCasts_S1x80000x1_S80000x1 : S1x80000x1.ShapeCasts S80000x1
  slices_S2x80000x1_S1x80000x1_1_0_0 : S2x80000x1.Slices ![1, 0, 0] S1x80000x1
  dot_S40000x256_S256x256_S40000x256_1_0_0_1_n_n_wf : DotDims.WF S40000x256 S256x256 S40000x256 [1] [0] [0] [1] [] []
  dot_S80000x256_S256x256_S80000x256_1_0_0_1_n_n_wf : DotDims.WF S80000x256 S256x256 S80000x256 [1] [0] [0] [1] [] []
  scatter_S40000_S800000x1_S800000_n_0_0_1_wf : ScatterDims.WF S40000 S800000x1 S800000 [] [0] [0] 1
  gather_S80000x256_S800000x1_S800000x256_1_0_n_n_0_1_1256_wf : GatherDims.WF S80000x256 S800000x1 S800000x256 [1] [0] [] [0] [] 1 ![1, 256]
  scatter_S40000x256_S800000x1_S800000x256_1_0_0_1_wf : ScatterDims.WF S40000x256 S800000x1 S800000x256 [1] [0] [0] 1
  scatter_S80000_S800000x1_S800000_n_0_0_1_wf : ScatterDims.WF S80000 S800000x1 S800000 [] [0] [0] 1
  gather_S40000x256_S800000x1_S800000x256_1_0_n_n_0_1_1256_wf : GatherDims.WF S40000x256 S800000x1 S800000x256 [1] [0] [] [0] [] 1 ![1, 256]
  scatter_S80000x256_S800000x1_S800000x256_1_0_0_1_wf : ScatterDims.WF S80000x256 S800000x1 S800000x256 [1] [0] [0] 1
  dot_S40000x256_S256x64_S40000x64_1_0_0_1_n_n_wf : DotDims.WF S40000x256 S256x64 S40000x64 [1] [0] [0] [1] [] []
  dot_S40000x64_S64x1_S40000x1_1_0_0_1_n_n_wf : DotDims.WF S40000x64 S64x1 S40000x1 [1] [0] [0] [1] [] []
  dot_S80000x256_S256x64_S80000x64_1_0_0_1_n_n_wf : DotDims.WF S80000x256 S256x64 S80000x64 [1] [0] [0] [1] [] []
  dot_S80000x64_S64x1_S80000x1_1_0_0_1_n_n_wf : DotDims.WF S80000x64 S64x1 S80000x1 [1] [0] [0] [1] [] []

variable [Facts₀]

def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def dot_S80000x256_S256x256_S80000x256_1_0_0_1_n_n : DotDims S80000x256 S256x256 S80000x256 where
  lhsContracting := [1]
  rhsContracting := [0]
  lhsNonContracting := [0]
  rhsNonContracting := [1]
  lhsBatch := []
  rhsBatch := []
  wf := dot_S80000x256_S256x256_S80000x256_1_0_0_1_n_n_wf
def scatter_S40000_S800000x1_S800000_n_0_0_1 : ScatterDims S40000 S800000x1 S800000 where
  updateWindowDims := []
  insertedWindowDims := [0]
  scatterDimsToOperandDims := [0]
  indexVectorDim := 1
  wf := scatter_S40000_S800000x1_S800000_n_0_0_1_wf
def gather_S80000x256_S800000x1_S800000x256_1_0_n_n_0_1_1256 : GatherDims S80000x256 S800000x1 S800000x256 where
  offsetDims := [1]
  collapsedSliceDims := [0]
  operandBatchingDims := []
  startIndicesBatchingDims := []
  startIndexMap := [0]
  indexVectorDim := 1
  sliceSizes := ![1, 256]
  wf := gather_S80000x256_S800000x1_S800000x256_1_0_n_n_0_1_1256_wf
def scatter_S40000x256_S800000x1_S800000x256_1_0_0_1 : ScatterDims S40000x256 S800000x1 S800000x256 where
  updateWindowDims := [1]
  insertedWindowDims := [0]
  scatterDimsToOperandDims := [0]
  indexVectorDim := 1
  wf := scatter_S40000x256_S800000x1_S800000x256_1_0_0_1_wf
def scatter_S80000_S800000x1_S800000_n_0_0_1 : ScatterDims S80000 S800000x1 S800000 where
  updateWindowDims := []
  insertedWindowDims := [0]
  scatterDimsToOperandDims := [0]
  indexVectorDim := 1
  wf := scatter_S80000_S800000x1_S800000_n_0_0_1_wf
def gather_S40000x256_S800000x1_S800000x256_1_0_n_n_0_1_1256 : GatherDims S40000x256 S800000x1 S800000x256 where
  offsetDims := [1]
  collapsedSliceDims := [0]
  operandBatchingDims := []
  startIndicesBatchingDims := []
  startIndexMap := [0]
  indexVectorDim := 1
  sliceSizes := ![1, 256]
  wf := gather_S40000x256_S800000x1_S800000x256_1_0_n_n_0_1_1256_wf
def scatter_S80000x256_S800000x1_S800000x256_1_0_0_1 : ScatterDims S80000x256 S800000x1 S800000x256 where
  updateWindowDims := [1]
  insertedWindowDims := [0]
  scatterDimsToOperandDims := [0]
  indexVectorDim := 1
  wf := scatter_S80000x256_S800000x1_S800000x256_1_0_0_1_wf
def dot_S40000x256_S256x64_S40000x64_1_0_0_1_n_n : DotDims S40000x256 S256x64 S40000x64 where
  lhsContracting := [1]
  rhsContracting := [0]
  lhsNonContracting := [0]
  rhsNonContracting := [1]
  lhsBatch := []
  rhsBatch := []
  wf := dot_S40000x256_S256x64_S40000x64_1_0_0_1_n_n_wf
def dot_S40000x64_S64x1_S40000x1_1_0_0_1_n_n : DotDims S40000x64 S64x1 S40000x1 where
  lhsContracting := [1]
  rhsContracting := [0]
  lhsNonContracting := [0]
  rhsNonContracting := [1]
  lhsBatch := []
  rhsBatch := []
  wf := dot_S40000x64_S64x1_S40000x1_1_0_0_1_n_n_wf
def dot_S80000x256_S256x64_S80000x64_1_0_0_1_n_n : DotDims S80000x256 S256x64 S80000x64 where
  lhsContracting := [1]
  rhsContracting := [0]
  lhsNonContracting := [0]
  rhsNonContracting := [1]
  lhsBatch := []
  rhsBatch := []
  wf := dot_S80000x256_S256x64_S80000x64_1_0_0_1_n_n_wf
def dot_S80000x64_S64x1_S80000x1_1_0_0_1_n_n : DotDims S80000x64 S64x1 S80000x1 where
  lhsContracting := [1]
  rhsContracting := [0]
  lhsNonContracting := [0]
  rhsNonContracting := [1]
  lhsBatch := []
  rhsBatch := []
  wf := dot_S80000x64_S64x1_S80000x1_1_0_0_1_n_n_wf

class Facts : Prop extends Facts₀ where

variable [Facts]
-- ==== Proof.NodeSpec.lean ====
import Idealize.ShloMosaic.PureOps.Ideal
import Idealize.ShloMosaic.PureOps.Ideal.Laws
import Idealize.ShloMosaic.Lib.ValueIdx

/-! # One node type of the heterogeneous graph convolution, row by row, on the extended reals

For one node type the layer takes a node's feature row `h` (256 entries) and the degree-normalised sum `agg` of its
neighbours' rows, and computes

* `z = h · Wself + bself` and `cv = agg · Wconv + bconv` (two affine maps into 256 features);
* the right-hand attention score `hr = (z · Wq + bq) · war + bar` (a scalar);
* for each of the two channels `x ∈ {z, cv}` the logit `elu ((x · Wk + bk) · wal + bal + hr)`;
* the two-way softmax of the logits, `e₀ / (e₀ + e₁)` and `e₁ / (e₀ + e₁)` with `eᵢ = exp (lᵢ − max l₀ l₁)`;
* the output row `elu (att₀ · z + att₁ · cv)`.

Everything is a function of ONE row of `h` and ONE row of `agg`: no entry of the result depends on another node's
row. `rowOut` is that function; `nodeArr` applies it to every row of a whole array. -/

noncomputable section

open scoped BigOperators

namespace Cert.NodeSpec

open Idealize.ShloMosaic Idealize.ShloMosaic.ValueIdx

/-- The exponential linear unit as both programs spell it: the value itself where it is above zero, else
    `exp x − 1`; the test is the ordered comparison's bit. -/
def elu (x : EReal) : EReal := Scalar.select (Ideal.cmp .ogt x 0) x (Ideal.exp x - 1)

/-- A row times a matrix plus a bias, entry `o`: `∑ₖ xₖ · Wₖₒ + bₒ`. -/
def affine {K O : Nat} (x : Fin K → EReal) (W : Fin K → Fin O → EReal) (b : Fin O → EReal) (o : Fin O) : EReal :=
  (∑ k, x k * W k o) + b o

/-- A row against a weight vector plus a bias: `∑ₖ yₖ · wₖ + b`. -/
def score {K : Nat} (y : Fin K → EReal) (w : Fin K → EReal) (b : EReal) : EReal := (∑ k, y k * w k) + b

/-- One node type's weights. -/
structure Params where
  Wself : Fin 256 → Fin 256 → EReal
  bself : Fin 256 → EReal
  Wconv : Fin 256 → Fin 256 → EReal
  bconv : Fin 256 → EReal
  Wq : Fin 256 → Fin 64 → EReal
  bq : Fin 64 → EReal
  Wk : Fin 256 → Fin 64 → EReal
  bk : Fin 64 → EReal
  wal : Fin 64 → EReal
  bal : EReal
  war : Fin 64 → EReal
  bar : EReal

/-- The self channel's features of a row. -/
def zRow (P : Params) (h : Fin 256 → EReal) : Fin 256 → EReal := affine h P.Wself P.bself
/-- The relation channel's features of a row. -/
def cvRow (P : Params) (agg : Fin 256 → EReal) : Fin 256 → EReal := affine agg P.Wconv P.bconv
/-- The right-hand attention score of a row's self features. -/
def hrOf (P : Params) (z : Fin 256 → EReal) : EReal := score (affine z P.Wq P.bq) P.war P.bar
/-- A channel's attention logit: `elu` of the key score plus the right-hand score. -/
def logit (P : Params) (x : Fin 256 → EReal) (hr : EReal) : EReal := elu (score (affine x P.Wk P.bk) P.wal P.bal + hr)
/-- The two-way softmax's combination of the channels at feature `o`, then `elu`. -/
def combine (l0 l1 : EReal) (z cv : Fin 256 → EReal) (o : Fin 256) : EReal :=
  elu (Ideal.div (Ideal.exp (l0 - max l0 l1)) (Ideal.exp (l0 - max l0 l1) + Ideal.exp (l1 - max l0 l1)) * z o
     + Ideal.div (Ideal.exp (l1 - max l0 l1)) (Ideal.exp (l0 - max l0 l1) + Ideal.exp (l1 - max l0 l1)) * cv o)

/-- The layer's output row of a node from its own row and its neighbourhood's mean row. -/
def rowOut (P : Params) (h agg : Fin 256 → EReal) (o : Fin 256) : EReal :=
  combine (logit P (zRow P h) (hrOf P (zRow P h))) (logit P (cvRow P agg) (hrOf P (zRow P h))) (zRow P h) (cvRow P agg) o

/-- The layer on a whole array of `N` nodes: row `n` of the result is `rowOut` of row `n` of `h` and of `agg`. -/
def nodeArr {N : Nat} (P : Params) (h agg : (⟨2, ![N, 256]⟩ : Shape).Idx → EReal) : (⟨2, ![N, 256]⟩ : Shape).Idx → EReal :=
  fun i => rowOut P (fun k => h (ix2 (i 0) k)) (fun k => agg (ix2 (i 0) k)) (i 1)

theorem nodeArr_apply {N : Nat} (P : Params) (h agg : (⟨2, ![N, 256]⟩ : Shape).Idx → EReal) (n : Fin N) (o : Fin 256) :
    nodeArr P h agg (ix2 n o) = rowOut P (fun k => h (ix2 n k)) (fun k => agg (ix2 n k)) o := rfl

/-- The weights read off arrays of the shapes the programs keep them in: matrices as `[K, O]`, biases and weight
    vectors as rows `[1, O]`, scalars as `[1, 1]` (the kernel's windows). -/
def paramsOfRows (Wself : (⟨2, ![256, 256]⟩ : Shape).Idx → EReal) (bself : (⟨2, ![1, 256]⟩ : Shape).Idx → EReal)
    (Wconv : (⟨2, ![256, 256]⟩ : Shape).Idx → EReal) (bconv : (⟨2, ![1, 256]⟩ : Shape).Idx → EReal)
    (Wq : (⟨2, ![256, 64]⟩ : Shape).Idx → EReal) (bq : (⟨2, ![1, 64]⟩ : Shape).Idx → EReal)
    (Wk : (⟨2, ![256, 64]⟩ : Shape).Idx → EReal) (bk : (⟨2, ![1, 64]⟩ : Shape).Idx → EReal)
    (wal : (⟨2, ![1, 64]⟩ : Shape).Idx → EReal) (bal : (⟨2, ![1, 1]⟩ : Shape).Idx → EReal)
    (war : (⟨2, ![1, 64]⟩ : Shape).Idx → EReal) (bar : (⟨2, ![1, 1]⟩ : Shape).Idx → EReal) : Params where
  Wself := fun k o => Wself (ix2 k o)
  bself := fun o => bself (ix2 0 o)
  Wconv := fun k o => Wconv (ix2 k o)
  bconv := fun o => bconv (ix2 0 o)
  Wq := fun k o => Wq (ix2 k o)
  bq := fun o => bq (ix2 0 o)
  Wk := fun k o => Wk (ix2 k o)
  bk := fun o => bk (ix2 0 o)
  wal := fun k => wal (ix2 0 k)
  bal := bal (ix2 0 0)
  war := fun k => war (ix2 0 k)
  bar := bar (ix2 0 0)

/-- The weights read off the arrays the programs are GIVEN: matrices `[K, O]`, biases `[O]`, the two weight vectors
    as columns `[64, 1]`, their biases `[1]` (the reference's operands; the kernel's program reshapes these into the rows
    above before its launches). -/
def paramsOfArgs (Wself : (⟨2, ![256, 256]⟩ : Shape).Idx → EReal) (bself : (⟨1, ![256]⟩ : Shape).Idx → EReal)
    (Wconv : (⟨2, ![256, 256]⟩ : Shape).Idx → EReal) (bconv : (⟨1, ![256]⟩ : Shape).Idx → EReal)
    (Wq : (⟨2, ![256, 64]⟩ : Shape).Idx → EReal) (bq : (⟨1, ![64]⟩ : Shape).Idx → EReal)
    (Wk : (⟨2, ![256, 64]⟩ : Shape).Idx → EReal) (bk : (⟨1, ![64]⟩ : Shape).Idx → EReal)
    (wal : (⟨2, ![64, 1]⟩ : Shape).Idx → EReal) (bal : (⟨1, ![1]⟩ : Shape).Idx → EReal)
    (war : (⟨2, ![64, 1]⟩ : Shape).Idx → EReal) (bar : (⟨1, ![1]⟩ : Shape).Idx → EReal) : Params where
  Wself := fun k o => Wself (ix2 k o)
  bself := fun o => bself (ix1 o)
  Wconv := fun k o => Wconv (ix2 k o)
  bconv := fun o => bconv (ix1 o)
  Wq := fun k o => Wq (ix2 k o)
  bq := fun o => bq (ix1 o)
  Wk := fun k o => Wk (ix2 k o)
  bk := fun o => bk (ix1 o)
  wal := fun k => wal (ix2 k 0)
  bal := bal (ix1 0)
  war := fun k => war (ix2 k 0)
  bar := bar (ix1 0)

end Cert.NodeSpec

end
-- ==== Proof.KernelBlock.lean ====
import proofs.«161233_j27118423507478_1_alg».proof.Proof.Gen.KernelIdeal.Frame
import proofs.«161233_j27118423507478_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

/-! # What one grid point of the node kernel leaves in its output block, entry by entry -/

noncomputable section

namespace Cert.KernelIdeal.Block

open Idealize.ShloMosaic Idealize.ShloMosaic.ValueIdx Cert.KernelIdeal Cert.KernelIdeal.Gen Cert.NodeSpec
open scoped BigOperators

section Layout
variable {α : Type}

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a lane sum over axis 1 of a matrix: row `r`, lane `k`. -/
theorem lift_axis1 {a b : ℕ} (h : (⟨2, ![a, b]⟩ : Shape).Reduces [(1 : Fin 2)] ⟨1, ![a]⟩) (r : Fin a) (k : Fin b) :
    h.lift (ix1 r) k = ix2 r k := by
  funext c; apply Fin.ext
  match c with
  | ⟨0, _⟩ => rfl
  | ⟨1, _⟩ => rfl

end Layout

/-! ## The two contractions at an index

Both products contract axis 1 of the left operand with axis 0 of the right one: the left index at result `(r, o)` and
contraction position `k` is `(r, k)`, the right one `(k, o)`. The four coordinate facts, then the sum over `Fin 256`. -/

theorem lhs256_0 (j : S2000x256.Idx) (k : dot_S2000x256_S256x256_S2000x256_1_0_0_1_n_n.contr.Idx) :
    ((dot_S2000x256_S256x256_S2000x256_1_0_0_1_n_n.lhsIdx j k) 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs256_1 (j : S2000x256.Idx) (k : dot_S2000x256_S256x256_S2000x256_1_0_0_1_n_n.contr.Idx) :
    ((dot_S2000x256_S256x256_S2000x256_1_0_0_1_n_n.lhsIdx j k) 1).val = (k ⟨0, Nat.one_pos⟩).val :=
  DotDims.lhsIdx_val_of_single (d := dot_S2000x256_S256x256_S2000x256_1_0_0_1_n_n) (cl := 1) rfl j k

theorem rhs256_0 (j : S2000x256.Idx) (k : dot_S2000x256_S256x256_S2000x256_1_0_0_1_n_n.contr.Idx) :
    ((dot_S2000x256_S256x256_S2000x256_1_0_0_1_n_n.rhsIdx j k) 0).val = (k ⟨0, Nat.one_pos⟩).val :=
  DotDims.rhsIdx_val_of_single (d := dot_S2000x256_S256x256_S2000x256_1_0_0_1_n_n) (cr := 0) rfl j k

theorem rhs256_1 (j : S2000x256.Idx) (k : dot_S2000x256_S256x256_S2000x256_1_0_0_1_n_n.contr.Idx) :
    ((dot_S2000x256_S256x256_S2000x256_1_0_0_1_n_n.rhsIdx j k) 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of the staged rows with a 256×256 weight block, entry `(r, o)`. -/
theorem mm256_apply (A : FVec Ideal S2000x256 .bf16) (B : FVec Ideal S256x256 .bf16) (r : Fin 2000) (o : Fin 256) :
    matmul (F := Ideal) dot_S2000x256_S256x256_S2000x256_1_0_0_1_n_n none A B (constant (F := Ideal) S2000x256 .f32 0x00000000#32) (ix2 r o)
      = ∑ k : Fin 256, A (ix2 r k) * B (ix2 k o) := by
  refine (Ideal.matmul_constant_zero_apply dot_S2000x256_S256x256_S2000x256_1_0_0_1_n_n none A B (ix2 r o)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : dot_S2000x256_S256x256_S2000x256_1_0_0_1_n_n.lhsIdx (ix2 r o)
      ((contrEquiv1 dot_S2000x256_S256x256_S2000x256_1_0_0_1_n_n 256 rfl rfl).symm k) = ix2 r k := by
    funext ax; apply Fin.ext
    match ax with
    | ⟨0, _⟩ => exact lhs256_0 _ _
    | ⟨1, _⟩ => exact (lhs256_1 _ _).trans hk
  have hr : dot_S2000x256_S256x256_S2000x256_1_0_0_1_n_n.rhsIdx (ix2 r o)
      ((contrEquiv1 dot_S2000x256_S256x256_S2000x256_1_0_0_1_n_n 256 rfl rfl).symm k) = ix2 k o := by
    funext ax; apply Fin.ext
    match ax with
    | ⟨0, _⟩ => exact (rhs256_0 _ _).trans hk
    | ⟨1, _⟩ => exact rhs256_1 _ _
  rw [hl, hr]

theorem lhs64_0 (j : S2000x64.Idx) (k : dot_S2000x256_S256x64_S2000x64_1_0_0_1_n_n.contr.Idx) :
    ((dot_S2000x256_S256x64_S2000x64_1_0_0_1_n_n.lhsIdx j k) 0).val = (j 0).val := by
  unfold DotDims.lhsIdx
  rw [dif_neg (show ¬(0 : Fin S2000x256.rank) ∈ dot_S2000x256_S256x64_S2000x64_1_0_0_1_n_n.lhsBatch by decide),
    dif_pos (show (0 : Fin S2000x256.rank) ∈ dot_S2000x256_S256x64_S2000x64_1_0_0_1_n_n.lhsNonContracting by decide)]
  rfl

theorem lhs64_1 (j : S2000x64.Idx) (k : dot_S2000x256_S256x64_S2000x64_1_0_0_1_n_n.contr.Idx) :
    ((dot_S2000x256_S256x64_S2000x64_1_0_0_1_n_n.lhsIdx j k) 1).val = (k ⟨0, Nat.one_pos⟩).val :=
  DotDims.lhsIdx_val_of_single (d := dot_S2000x256_S256x64_S2000x64_1_0_0_1_n_n) (cl := 1) rfl j k

theorem rhs64_0 (j : S2000x64.Idx) (k : dot_S2000x256_S256x64_S2000x64_1_0_0_1_n_n.contr.Idx) :
    ((dot_S2000x256_S256x64_S2000x64_1_0_0_1_n_n.rhsIdx j k) 0).val = (k ⟨0, Nat.one_pos⟩).val :=
  DotDims.rhsIdx_val_of_single (d := dot_S2000x256_S256x64_S2000x64_1_0_0_1_n_n) (cr := 0) rfl j k

theorem rhs64_1 (j : S2000x64.Idx) (k : dot_S2000x256_S256x64_S2000x64_1_0_0_1_n_n.contr.Idx) :
    ((dot_S2000x256_S256x64_S2000x64_1_0_0_1_n_n.rhsIdx j k) 1).val = (j 1).val := by
  unfold DotDims.rhsIdx
  rw [dif_neg (show ¬(1 : Fin S256x64.rank) ∈ dot_S2000x256_S256x64_S2000x64_1_0_0_1_n_n.rhsBatch by decide),
    dif_pos (show (1 : Fin S256x64.rank) ∈ dot_S2000x256_S256x64_S2000x64_1_0_0_1_n_n.rhsNonContracting by decide)]
  rfl

/-- The product of the staged rows with a 256×64 weight block, entry `(r, c)`. -/
theorem mm64_apply (A : FVec Ideal S2000x256 .bf16) (B : FVec Ideal S256x64 .bf16) (r : Fin 2000) (o : Fin 64) :
    matmul (F := Ideal) dot_S2000x256_S256x64_S2000x64_1_0_0_1_n_n none A B (constant (F := Ideal) S2000x64 .f32 0x00000000#32) (ix2 r o)
      = ∑ k : Fin 256, A (ix2 r k) * B (ix2 k o) := by
  refine (Ideal.matmul_constant_zero_apply dot_S2000x256_S256x64_S2000x64_1_0_0_1_n_n none A B (ix2 r o)).trans ?_
  rw [← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have hl : dot_S2000x256_S256x64_S2000x64_1_0_0_1_n_n.lhsIdx (ix2 r o)
      ((contrEquiv1 dot_S2000x256_S256x64_S2000x64_1_0_0_1_n_n 256 rfl rfl).symm k) = ix2 r k := by
    funext ax; apply Fin.ext
    match ax with
    | ⟨0, _⟩ => exact lhs64_0 _ _
    | ⟨1, _⟩ => exact (lhs64_1 _ _).trans hk
  have hr : dot_S2000x256_S256x64_S2000x64_1_0_0_1_n_n.rhsIdx (ix2 r o)
      ((contrEquiv1 dot_S2000x256_S256x64_S2000x64_1_0_0_1_n_n 256 rfl rfl).symm k) = ix2 k o := by
    funext ax; apply Fin.ext
    match ax with
    | ⟨0, _⟩ => exact (rhs64_0 _ _).trans hk
    | ⟨1, _⟩ => exact rhs64_1 _ _
  rw [hl, hr]

/-! ## The body's values, entry by entry -/

theorem ofBits_one_f32 : Ideal.ofBits .f32 0x3F800000#32 = 1 := by
  simp [Ideal.ofBits, Ideal.ieee, -EReal.coe_mul]; norm_num

/-- The select of a value against `exp − 1` on the sign test is the exponential linear unit of the entry. -/
theorem elu_apply {s : Shape} (v : FVec Ideal s .f32) (i : s.Idx) :
    select (cmpf .ogt v (broadcast s (Scalar.ofBits (F := Ideal) .f32 0x00000000#32))) v
      (subf (exp v) (broadcast s (Scalar.ofBits (F := Ideal) .f32 0x3F800000#32))) i = elu (v i) := by
  show Scalar.select (Ideal.cmp .ogt (v i) (Ideal.ofBits .f32 0x00000000#32)) (v i)
      (Ideal.exp (v i) - Ideal.ofBits .f32 0x3F800000#32) = _
  rw [Ideal.ofBits_zero_f32, ofBits_one_f32]
  rfl

/-- The self product: entry `(r, o)` is row `r` of the features against column `o` of the weights. -/
theorem pay13_apply (x0 : Vec Ideal S2000x256 .bf16) (x2 : Vec Ideal S256x256 .bf16) (r : Fin 2000) (o : Fin 256) :
    k0_pay13 (F := Ideal) x0 x2 (ix2 r o) = ∑ k : Fin 256, x0 (ix2 r k) * x2 (ix2 k o) := by
  unfold k0_pay13
  simp only [shapeCast_self]
  exact mm256_apply x0 x2 r o

/-- The self bias spread over the rows. -/
theorem pay14_apply (x3 : Vec Ideal S1x256 .f32) (r : Fin 2000) (o : Fin 256) :
    k0_pay14 (F := Ideal) x3 (ix2 r o) = x3 (ix2 0 o) := by
  unfold k0_pay14
  simp only [shapeCast_self]
  exact broadcastTo_1b_ab_apply x3 _ r o

/-- The relation channel's features: product plus bias. -/
theorem pay16_apply (v3 : FVec Ideal S2000x256 .bf16) (v9 : FVec Ideal S256x256 .bf16) (v11 : FVec Ideal S1x256 .f32)
    (r : Fin 2000) (o : Fin 256) :
    k0_pay16 (F := Ideal) v3 v9 v11 (ix2 r o) = (∑ k : Fin 256, v3 (ix2 r k) * v9 (ix2 k o)) + v11 (ix2 0 o) :=
  congrArg₂ (· + ·) (mm256_apply v3 v9 r o) (broadcastTo_1b_ab_apply v11 _ r o)

/-- A projection to 64 lanes, weighted and summed over the lanes, plus a scalar: the score of row `r`. -/
theorem score_apply (T : FVec Ideal S2000x256 .bf16) (W : FVec Ideal S256x64 .bf16) (b w : FVec Ideal S1x64 .f32)
    (s : FVec Ideal S1x1 .f32) (hb : S1x64.Broadcasts S2000x64) (hred : S2000x64.Reduces [1] S2000)
    (hsc : S2000.ShapeCasts S2000x1) (hs : S1x1.Broadcasts S2000x1) (r : Fin 2000) :
    addf (shapeCast S2000x1 (multiReduction (F := Ideal) .add [1] S2000
        (mulf (addf (matmul (F := Ideal) dot_S2000x256_S256x64_S2000x64_1_0_0_1_n_n none T W (constant (F := Ideal) S2000x64 .f32 0x00000000#32))
          (broadcastTo S2000x64 b hb)) (broadcastTo S2000x64 w hb)) 0x00000000#32 hred (.inl rfl) rfl) hsc)
        (broadcastTo S2000x1 s hs) (ix2 r 0)
      = score (affine (fun k => T (ix2 r k)) (fun k c => W (ix2 k c)) (fun c => b (ix2 0 c))) (fun c => w (ix2 0 c)) (s (ix2 0 0)) := by
  refine congrArg₂ (· + ·) ?_ (broadcastTo_1b_ab_apply s hs r 0)
  refine (shapeCast_a_a1_apply _ hsc r 0).trans ?_
  refine (Ideal.multiReduction_add_single _ _ hred _ _ (ix1 r)).trans ?_
  refine Finset.sum_congr rfl fun c _ => ?_
  rw [lift_axis1 hred r c]
  exact congrArg₂ (· * ·) (congrArg₂ (· + ·) (mm64_apply T W r c) (broadcastTo_1b_ab_apply b hb r c)) (broadcastTo_1b_ab_apply w hb r c)

/-- The right-hand score of row `r`: the self features projected, weighted, summed over the lanes. -/
theorem pay18_apply (v13 : FVec Ideal S256x64 .bf16) (v15 v25 : FVec Ideal S1x64 .f32) (v27 : FVec Ideal S1x1 .f32)
    (v28 v29 : FVec Ideal S2000x256 .f32) (r : Fin 2000) :
    k0_pay18 (F := Ideal) v13 v15 v25 v27 v28 v29 (ix2 r 0)
      = score (affine (fun k => v28 (ix2 r k) + v29 (ix2 r k)) (fun k c => v13 (ix2 k c)) (fun c => v15 (ix2 0 c)))
          (fun c => v25 (ix2 0 c)) (v27 (ix2 0 0)) :=
  score_apply (k0_pay17 v28 v29) v13 v15 v25 v27 _ _ _ _ r

/-- The self channel's logit of row `r`. -/
theorem pay19_apply (v13 : FVec Ideal S256x64 .bf16) (v15 : FVec Ideal S1x64 .f32) (v17 : FVec Ideal S256x64 .bf16)
    (v19 v21 : FVec Ideal S1x64 .f32) (v23 : FVec Ideal S1x1 .f32) (v25 : FVec Ideal S1x64 .f32) (v27 : FVec Ideal S1x1 .f32)
    (v28 v29 : FVec Ideal S2000x256 .f32) (r : Fin 2000) :
    k0_pay19 (F := Ideal) v13 v15 v17 v19 v21 v23 v25 v27 v28 v29 (ix2 r 0)
      = elu (score (affine (fun k => v28 (ix2 r k) + v29 (ix2 r k)) (fun k c => v17 (ix2 k c)) (fun c => v19 (ix2 0 c)))
              (fun c => v21 (ix2 0 c)) (v23 (ix2 0 0))
            + k0_pay18 (F := Ideal) v13 v15 v25 v27 v28 v29 (ix2 r 0)) := by
  refine (elu_apply _ (ix2 r 0)).trans ?_
  exact congrArg elu (congrArg₂ (· + ·) (score_apply (k0_pay17 v28 v29) v17 v19 v21 v23 _ _ _ _ r) rfl)

/-- The relation channel's logit of row `r`. -/
theorem pay20_apply (v3 : FVec Ideal S2000x256 .bf16) (v9 : FVec Ideal S256x256 .bf16) (v11 : FVec Ideal S1x256 .f32)
    (v13 : FVec Ideal S256x64 .bf16) (v15 : FVec Ideal S1x64 .f32) (v17 : FVec Ideal S256x64 .bf16)
    (v19 v21 : FVec Ideal S1x64 .f32) (v23 : FVec Ideal S1x1 .f32) (v25 : FVec Ideal S1x64 .f32) (v27 : FVec Ideal S1x1 .f32)
    (v28 v29 : FVec Ideal S2000x256 .f32) (r : Fin 2000) :
    k0_pay20 (F := Ideal) v3 v9 v11 v13 v15 v17 v19 v21 v23 v25 v27 v28 v29 (ix2 r 0)
      = elu (score (affine (fun k => k0_pay16 (F := Ideal) v3 v9 v11 (ix2 r k)) (fun k c => v17 (ix2 k c)) (fun c => v19 (ix2 0 c)))
              (fun c => v21 (ix2 0 c)) (v23 (ix2 0 0))
            + k0_pay18 (F := Ideal) v13 v15 v25 v27 v28 v29 (ix2 r 0)) := by
  refine (elu_apply _ (ix2 r 0)).trans ?_
  exact congrArg elu (congrArg₂ (· + ·)
    (score_apply (truncf .bf16 (k0_pay16 (F := Ideal) v3 v9 v11) Facts₀.bitsLt_bf16_f32) v17 v19 v21 v23 _ _ _ _ r) rfl)

/-- The stored block: the two-way softmax of the logits combines the channels, then the exponential linear unit. -/
theorem pay1_apply (v30 v33 : FVec Ideal S2000x256 .f32) (v76 v77 v78 : FVec Ideal S2000x1 .f32) (r : Fin 2000) (o : Fin 256) :
    k0_pay1 (F := Ideal) v30 v33 v76 v77 v78 (ix2 r o)
      = elu (Ideal.div (Ideal.exp (v78 (ix2 r 0))) (Ideal.exp (v78 (ix2 r 0)) + Ideal.exp (v76 (ix2 r 0) - v77 (ix2 r 0))) * v30 (ix2 r o)
          + Ideal.div (Ideal.exp (v76 (ix2 r 0) - v77 (ix2 r 0))) (Ideal.exp (v78 (ix2 r 0)) + Ideal.exp (v76 (ix2 r 0) - v77 (ix2 r 0))) * v33 (ix2 r o)) := by
  refine (elu_apply _ (ix2 r o)).trans ?_
  exact congrArg elu (congrArg₂ (· + ·) (congrArg₂ (· * ·) (broadcastTo_a1_ab_apply _ _ r o) rfl)
    (congrArg₂ (· * ·) (broadcastTo_a1_ab_apply _ _ r o) rfl))

/-! ## The stored block is the layer's row function -/

theorem offsets_zero : (![0, 0] : Fin 2 → Nat) = fun _ => 0 := funext fun a => by fin_cases a <;> rfl

/-- Entry `(r, o)` of the block the body stores is the layer's output row of block row `r`: of the 2000 rows of
    features `x0` and of neighbourhood means `x1` staged at this grid point, with the weights the other windows hold. -/
theorem out0_14_apply (x0 x1 : Vec Ideal S2000x256 .bf16) (x2 : Vec Ideal S256x256 .bf16) (x3 : Vec Ideal S1x256 .f32)
    (x4 : Vec Ideal S256x256 .bf16) (x5 : Vec Ideal S1x256 .f32) (x6 : Vec Ideal S256x64 .bf16) (x7 : Vec Ideal S1x64 .f32)
    (x8 : Vec Ideal S256x64 .bf16) (x9 : Vec Ideal S1x64 .f32) (x10 : Vec Ideal S1x64 .f32) (x11 : Vec Ideal S1x1 .f32)
    (x12 : Vec Ideal S1x64 .f32) (x13 : Vec Ideal S1x1 .f32) (r : Fin 2000) (o : Fin 256) :
    out0_14 (F := Ideal) x0 x1 x2 x3 x4 x5 x6 x7 x8 x9 x10 x11 x12 x13 (ix2 r o)
      = rowOut (paramsOfRows x2 x3 x4 x5 x6 x7 x8 x9 x10 x11 x12 x13) (fun k => x0 (ix2 r k)) (fun k => x1 (ix2 r k)) o := by
  -- one store of the whole block, every load a whole window
  unfold out0_14
  rw [View.canon_unit_zero offsets_zero]
  simp only [View.ld_unit_zero (S := S2000x256) offsets_zero, View.ld_unit_zero (S := S256x256) offsets_zero,
    View.ld_unit_zero (S := S1x256) offsets_zero, View.ld_unit_zero (S := S256x64) offsets_zero,
    View.ld_unit_zero (S := S1x64) offsets_zero, View.ld_unit_zero (S := S1x1) offsets_zero]
  simp only [k0_pay2, k0_pay3, k0_pay4, k0_pay5, k0_pay6, k0_pay7, k0_pay8, k0_pay9, k0_pay10, k0_pay11, k0_pay12, shapeCast_self]
  -- the two channels' feature rows
  have hzr : (fun k => k0_pay13 (F := Ideal) x0 x2 (ix2 r k) + k0_pay14 (F := Ideal) x3 (ix2 r k))
      = zRow (paramsOfRows x2 x3 x4 x5 x6 x7 x8 x9 x10 x11 x12 x13) (fun k => x0 (ix2 r k)) :=
    funext fun k => congrArg₂ (· + ·) (pay13_apply x0 x2 r k) (pay14_apply x3 r k)
  have hcr : (fun k => k0_pay16 (F := Ideal) x1 x4 x5 (ix2 r k))
      = cvRow (paramsOfRows x2 x3 x4 x5 x6 x7 x8 x9 x10 x11 x12 x13) (fun k => x1 (ix2 r k)) :=
    funext fun k => pay16_apply x1 x4 x5 r k
  refine (pay1_apply _ _ _ _ _ r o).trans ?_
  simp only [k0_pay22, k0_pay21, subf_apply, maximumf_apply]
  rw [pay19_apply, pay20_apply, pay18_apply, hzr, hcr,
    show k0_pay15 (F := Ideal) (k0_pay13 (F := Ideal) x0 x2) (k0_pay14 (F := Ideal) x3) (ix2 r o)
      = zRow (paramsOfRows x2 x3 x4 x5 x6 x7 x8 x9 x10 x11 x12 x13) (fun k => x0 (ix2 r k)) o from congrFun hzr o,
    show k0_pay16 (F := Ideal) x1 x4 x5 (ix2 r o)
      = cvRow (paramsOfRows x2 x3 x4 x5 x6 x7 x8 x9 x10 x11 x12 x13) (fun k => x1 (ix2 r k)) o from congrFun hcr o]
  rfl

/-- The second launch's body is the same function of its blocks. -/
theorem out1_14_apply (x0 x1 : Vec Ideal S2000x256 .bf16) (x2 : Vec Ideal S256x256 .bf16) (x3 : Vec Ideal S1x256 .f32)
    (x4 : Vec Ideal S256x256 .bf16) (x5 : Vec Ideal S1x256 .f32) (x6 : Vec Ideal S256x64 .bf16) (x7 : Vec Ideal S1x64 .f32)
    (x8 : Vec Ideal S256x64 .bf16) (x9 : Vec Ideal S1x64 .f32) (x10 : Vec Ideal S1x64 .f32) (x11 : Vec Ideal S1x1 .f32)
    (x12 : Vec Ideal S1x64 .f32) (x13 : Vec Ideal S1x1 .f32) (r : Fin 2000) (o : Fin 256) :
    out1_14 (F := Ideal) x0 x1 x2 x3 x4 x5 x6 x7 x8 x9 x10 x11 x12 x13 (ix2 r o)
      = rowOut (paramsOfRows x2 x3 x4 x5 x6 x7 x8 x9 x10 x11 x12 x13) (fun k => x0 (ix2 r k)) (fun k => x1 (ix2 r k)) o :=
  (congrFun (congrFun (congrFun (congrFun (congrFun (congrFun (congrFun (congrFun (congrFun (congrFun (congrFun (congrFun (congrFun (congrFun (congrFun
    (show @out1_14 Ideal _ = @out0_14 Ideal _ from rfl) x0) x1) x2) x3) x4) x5) x6) x7) x8) x9) x10) x11) x12) x13) (ix2 r o)).trans
    (out0_14_apply x0 x1 x2 x3 x4 x5 x6 x7 x8 x9 x10 x11 x12 x13 r o)

end Cert.KernelIdeal.Block

end
-- ==== Proof.KernelValue.lean ====
import proofs.«161233_j27118423507478_1_alg».proof.Proof.Gen.KernelIdeal.Frame
import proofs.«161233_j27118423507478_1_alg».proof.Proof.KernelBlock
import proofs.«161233_j27118423507478_1_alg».proof.Proof.NodeSpec
import Idealize.ShloMosaic.Lib.ValueIdx
import Idealize.ShloMosaic.Lib.ValueLayout
import Idealize.ShloMosaic.Lib.Pipeline.Value
import Idealize.ShloMosaic.Lib.StableHlo.Run

/-! # The two result arrays of the idealized kernel program, as whole-array functions of the arguments -/

set_option maxRecDepth 16384

noncomputable section

namespace Cert.KernelIdeal.Arrays

open Idealize.ShloMosaic Idealize.ShloMosaic.ValueIdx Idealize.SL.Sem Cert.KernelIdeal Cert.KernelIdeal.Gen Cert.NodeSpec
open Idealize.ShloMosaic.Pipeline (Dat)

/-- One entry of a stored block is the layer's entry of the whole arrays, when the two row blocks hold the rows of
    the arrays at the entry's row and the weight blocks are the weight arrays. -/
theorem entry_of_blocks0 (x0 : Vec Ideal S2000x256 .bf16) (x1 : Vec Ideal S2000x256 .bf16) (x2 : Vec Ideal S256x256 .bf16) (x3 : Vec Ideal S1x256 .f32) (x4 : Vec Ideal S256x256 .bf16) (x5 : Vec Ideal S1x256 .f32) (x6 : Vec Ideal S256x64 .bf16) (x7 : Vec Ideal S1x64 .f32) (x8 : Vec Ideal S256x64 .bf16) (x9 : Vec Ideal S1x64 .f32) (x10 : Vec Ideal S1x64 .f32) (x11 : Vec Ideal S1x1 .f32) (x12 : Vec Ideal S1x64 .f32) (x13 : Vec Ideal S1x1 .f32)
    (a2 : Vec Ideal S256x256 .bf16) (a3 : Vec Ideal S1x256 .f32) (a4 : Vec Ideal S256x256 .bf16) (a5 : Vec Ideal S1x256 .f32) (a6 : Vec Ideal S256x64 .bf16) (a7 : Vec Ideal S1x64 .f32) (a8 : Vec Ideal S256x64 .bf16) (a9 : Vec Ideal S1x64 .f32) (a10 : Vec Ideal S1x64 .f32) (a11 : Vec Ideal S1x1 .f32) (a12 : Vec Ideal S1x64 .f32) (a13 : Vec Ideal S1x1 .f32)
    (h agg : Vec Ideal S40000x256 .bf16) (j : S2000x256.Idx) (i : S40000x256.Idx)
    (e2 : x2 = a2) (e3 : x3 = a3) (e4 : x4 = a4) (e5 : x5 = a5) (e6 : x6 = a6) (e7 : x7 = a7) (e8 : x8 = a8) (e9 : x9 = a9) (e10 : x10 = a10) (e11 : x11 = a11) (e12 : x12 = a12) (e13 : x13 = a13)
    (hi1 : (j 1).val = (i 1).val)
    (h0 : ∀ k : Fin 256, x0 (ix2 (j 0) k) = h (ix2 (i 0) k))
    (h1 : ∀ k : Fin 256, x1 (ix2 (j 0) k) = agg (ix2 (i 0) k)) :
    out0_14 (F := Ideal) x0 x1 x2 x3 x4 x5 x6 x7 x8 x9 x10 x11 x12 x13 j
      = nodeArr (paramsOfRows a2 a3 a4 a5 a6 a7 a8 a9 a10 a11 a12 a13) h agg i := by
  subst e2 e3 e4 e5 e6 e7 e8 e9 e10 e11 e12 e13
  refine (congrArg (out0_14 (F := Ideal) x0 x1 x2 x3 x4 x5 x6 x7 x8 x9 x10 x11 x12 x13) (eq_ix2 j)).trans ?_
  refine (Block.out0_14_apply x0 x1 x2 x3 x4 x5 x6 x7 x8 x9 x10 x11 x12 x13 (j 0) (j 1)).trans ?_
  have f0 : (fun k : Fin 256 => x0 (ix2 (j 0) k)) = fun k => h (ix2 (i 0) k) := funext h0
  have f1 : (fun k : Fin 256 => x1 (ix2 (j 0) k)) = fun k => agg (ix2 (i 0) k) := funext h1
  have f2 : j 1 = i 1 := Fin.ext hi1
  show rowOut _ (fun k : Fin 256 => x0 (ix2 (j 0) k)) (fun k : Fin 256 => x1 (ix2 (j 0) k)) (j 1)
    = rowOut _ (fun k => h (ix2 (i 0) k)) (fun k => agg (ix2 (i 0) k)) (i 1)
  rw [f0, f1, f2]

section Cover0

variable (V : (c : Dev nD) → (b : Ref sig .tc) → Buf (Elt Ideal) ((c.tc : Thread nD τ).loc b))

/-- The layer applied to the arrays the launch finds in its windows: the row arrays of windows 0 and 1, the weights
    of windows 2 to 13. -/
abbrev layer0 (c : Dev nD) : S40000x256.Idx → EReal :=
  nodeArr (paramsOfRows (V c main_v39) (V c main_v43) (V c main_v40) (V c main_v44) (V c main_v41) (V c main_v45) (V c main_v42) (V c main_v46) (V c main_v47) (V c main_v48) (V c main_v49) (V c main_v50)) (V c main_v37) (V c main_v38)

/-- The index maps over the grid: the three row windows sit at block row `t`, column block 0. -/
theorem index_facts0 : ∀ t : Fin cfg0.N,
    win0_14.index t (0 : Fin 2) = t.val ∧ win0_14.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Window 2's block is its whole array at every point. -/
theorem index0_2 : ∀ t : Fin cfg0.N, ∀ a : Fin 2, win0_2.index t a = 0 :=
  (by decide +kernel : ∀ t : Fin grid0.N, _)
theorem block0_2 (c : Dev nD) (t : Fin cfg0.N) : (iblk0 V c 2 t : Vec Ideal S256x256 .bf16) = V c main_v39 := by
  have z := index0_2 t
  funext y
  show V c main_v39 (((cfg0.win 2).blk t).view.emb y) = V c main_v39 y
  refine congrArg (V c main_v39) (funext fun a => Fin.ext ?_)
  match a with
  | ⟨0, _⟩ => show win0_2.index t (0 : Fin 2) * 256 + 1 * (y 0).val = (y 0).val; rw [z 0]; omega
  | ⟨1, _⟩ => show win0_2.index t (1 : Fin 2) * 256 + 1 * (y 1).val = (y 1).val; rw [z 1]; omega

/-- Window 3's block is its whole array at every point. -/
theorem index0_3 : ∀ t : Fin cfg0.N, ∀ a : Fin 2, win0_3.index t a = 0 :=
  (by decide +kernel : ∀ t : Fin grid0.N, _)
theorem block0_3 (c : Dev nD) (t : Fin cfg0.N) : (iblk0 V c 3 t : Vec Ideal S1x256 .f32) = V c main_v43 := by
  have z := index0_3 t
  funext y
  show V c main_v43 (((cfg0.win 3).blk t).view.emb y) = V c main_v43 y
  refine congrArg (V c main_v43) (funext fun a => Fin.ext ?_)
  match a with
  | ⟨0, _⟩ => show win0_3.index t (0 : Fin 2) * 1 + 1 * (y 0).val = (y 0).val; rw [z 0]; omega
  | ⟨1, _⟩ => show win0_3.index t (1 : Fin 2) * 256 + 1 * (y 1).val = (y 1).val; rw [z 1]; omega

/-- Window 4's block is its whole array at every point. -/
theorem index0_4 : ∀ t : Fin cfg0.N, ∀ a : Fin 2, win0_4.index t a = 0 :=
  (by decide +kernel : ∀ t : Fin grid0.N, _)
theorem block0_4 (c : Dev nD) (t : Fin cfg0.N) : (iblk0 V c 4 t : Vec Ideal S256x256 .bf16) = V c main_v40 := by
  have z := index0_4 t
  funext y
  show V c main_v40 (((cfg0.win 4).blk t).view.emb y) = V c main_v40 y
  refine congrArg (V c main_v40) (funext fun a => Fin.ext ?_)
  match a with
  | ⟨0, _⟩ => show win0_4.index t (0 : Fin 2) * 256 + 1 * (y 0).val = (y 0).val; rw [z 0]; omega
  | ⟨1, _⟩ => show win0_4.index t (1 : Fin 2) * 256 + 1 * (y 1).val = (y 1).val; rw [z 1]; omega

/-- Window 5's block is its whole array at every point. -/
theorem index0_5 : ∀ t : Fin cfg0.N, ∀ a : Fin 2, win0_5.index t a = 0 :=
  (by decide +kernel : ∀ t : Fin grid0.N, _)
theorem block0_5 (c : Dev nD) (t : Fin cfg0.N) : (iblk0 V c 5 t : Vec Ideal S1x256 .f32) = V c main_v44 := by
  have z := index0_5 t
  funext y
  show V c main_v44 (((cfg0.win 5).blk t).view.emb y) = V c main_v44 y
  refine congrArg (V c main_v44) (funext fun a => Fin.ext ?_)
  match a with
  | ⟨0, _⟩ => show win0_5.index t (0 : Fin 2) * 1 + 1 * (y 0).val = (y 0).val; rw [z 0]; omega
  | ⟨1, _⟩ => show win0_5.index t (1 : Fin 2) * 256 + 1 * (y 1).val = (y 1).val; rw [z 1]; omega

/-- Window 6's block is its whole array at every point. -/
theorem index0_6 : ∀ t : Fin cfg0.N, ∀ a : Fin 2, win0_6.index t a = 0 :=
  (by decide +kernel : ∀ t : Fin grid0.N, _)
theorem block0_6 (c : Dev nD) (t : Fin cfg0.N) : (iblk0 V c 6 t : Vec Ideal S256x64 .bf16) = V c main_v41 := by
  have z := index0_6 t
  funext y
  show V c main_v41 (((cfg0.win 6).blk t).view.emb y) = V c main_v41 y
  refine congrArg (V c main_v41) (funext fun a => Fin.ext ?_)
  match a with
  | ⟨0, _⟩ => show win0_6.index t (0 : Fin 2) * 256 + 1 * (y 0).val = (y 0).val; rw [z 0]; omega
  | ⟨1, _⟩ => show win0_6.index t (1 : Fin 2) * 64 + 1 * (y 1).val = (y 1).val; rw [z 1]; omega

/-- Window 7's block is its whole array at every point. -/
theorem index0_7 : ∀ t : Fin cfg0.N, ∀ a : Fin 2, win0_7.index t a = 0 :=
  (by decide +kernel : ∀ t : Fin grid0.N, _)
theorem block0_7 (c : Dev nD) (t : Fin cfg0.N) : (iblk0 V c 7 t : Vec Ideal S1x64 .f32) = V c main_v45 := by
  have z := index0_7 t
  funext y
  show V c main_v45 (((cfg0.win 7).blk t).view.emb y) = V c main_v45 y
  refine congrArg (V c main_v45) (funext fun a => Fin.ext ?_)
  match a with
  | ⟨0, _⟩ => show win0_7.index t (0 : Fin 2) * 1 + 1 * (y 0).val = (y 0).val; rw [z 0]; omega
  | ⟨1, _⟩ => show win0_7.index t (1 : Fin 2) * 64 + 1 * (y 1).val = (y 1).val; rw [z 1]; omega

/-- Window 8's block is its whole array at every point. -/
theorem index0_8 : ∀ t : Fin cfg0.N, ∀ a : Fin 2, win0_8.index t a = 0 :=
  (by decide +kernel : ∀ t : Fin grid0.N, _)
theorem block0_8 (c : Dev nD) (t : Fin cfg0.N) : (iblk0 V c 8 t : Vec Ideal S256x64 .bf16) = V c main_v42 := by
  have z := index0_8 t
  funext y
  show V c main_v42 (((cfg0.win 8).blk t).view.emb y) = V c main_v42 y
  refine congrArg (V c main_v42) (funext fun a => Fin.ext ?_)
  match a with
  | ⟨0, _⟩ => show win0_8.index t (0 : Fin 2) * 256 + 1 * (y 0).val = (y 0).val; rw [z 0]; omega
  | ⟨1, _⟩ => show win0_8.index t (1 : Fin 2) * 64 + 1 * (y 1).val = (y 1).val; rw [z 1]; omega

/-- Window 9's block is its whole array at every point. -/
theorem index0_9 : ∀ t : Fin cfg0.N, ∀ a : Fin 2, win0_9.index t a = 0 :=
  (by decide +kernel : ∀ t : Fin grid0.N, _)
theorem block0_9 (c : Dev nD) (t : Fin cfg0.N) : (iblk0 V c 9 t : Vec Ideal S1x64 .f32) = V c main_v46 := by
  have z := index0_9 t
  funext y
  show V c main_v46 (((cfg0.win 9).blk t).view.emb y) = V c main_v46 y
  refine congrArg (V c main_v46) (funext fun a => Fin.ext ?_)
  match a with
  | ⟨0, _⟩ => show win0_9.index t (0 : Fin 2) * 1 + 1 * (y 0).val = (y 0).val; rw [z 0]; omega
  | ⟨1, _⟩ => show win0_9.index t (1 : Fin 2) * 64 + 1 * (y 1).val = (y 1).val; rw [z 1]; omega

/-- Window 10's block is its whole array at every point. -/
theorem index0_10 : ∀ t : Fin cfg0.N, ∀ a : Fin 2, win0_10.index t a = 0 :=
  (by decide +kernel : ∀ t : Fin grid0.N, _)
theorem block0_10 (c : Dev nD) (t : Fin cfg0.N) : (iblk0 V c 10 t : Vec Ideal S1x64 .f32) = V c main_v47 := by
  have z := index0_10 t
  funext y
  show V c main_v47 (((cfg0.win 10).blk t).view.emb y) = V c main_v47 y
  refine congrArg (V c main_v47) (funext fun a => Fin.ext ?_)
  match a with
  | ⟨0, _⟩ => show win0_10.index t (0 : Fin 2) * 1 + 1 * (y 0).val = (y 0).val; rw [z 0]; omega
  | ⟨1, _⟩ => show win0_10.index t (1 : Fin 2) * 64 + 1 * (y 1).val = (y 1).val; rw [z 1]; omega

/-- Window 11's block is its whole array at every point. -/
theorem index0_11 : ∀ t : Fin cfg0.N, ∀ a : Fin 2, win0_11.index t a = 0 :=
  (by decide +kernel : ∀ t : Fin grid0.N, _)
theorem block0_11 (c : Dev nD) (t : Fin cfg0.N) : (iblk0 V c 11 t : Vec Ideal S1x1 .f32) = V c main_v48 := by
  have z := index0_11 t
  funext y
  show V c main_v48 (((cfg0.win 11).blk t).view.emb y) = V c main_v48 y
  refine congrArg (V c main_v48) (funext fun a => Fin.ext ?_)
  match a with
  | ⟨0, _⟩ => show win0_11.index t (0 : Fin 2) * 1 + 1 * (y 0).val = (y 0).val; rw [z 0]; omega
  | ⟨1, _⟩ => show win0_11.index t (1 : Fin 2) * 1 + 1 * (y 1).val = (y 1).val; rw [z 1]; omega

/-- Window 12's block is its whole array at every point. -/
theorem index0_12 : ∀ t : Fin cfg0.N, ∀ a : Fin 2, win0_12.index t a = 0 :=
  (by decide +kernel : ∀ t : Fin grid0.N, _)
theorem block0_12 (c : Dev nD) (t : Fin cfg0.N) : (iblk0 V c 12 t : Vec Ideal S1x64 .f32) = V c main_v49 := by
  have z := index0_12 t
  funext y
  show V c main_v49 (((cfg0.win 12).blk t).view.emb y) = V c main_v49 y
  refine congrArg (V c main_v49) (funext fun a => Fin.ext ?_)
  match a with
  | ⟨0, _⟩ => show win0_12.index t (0 : Fin 2) * 1 + 1 * (y 0).val = (y 0).val; rw [z 0]; omega
  | ⟨1, _⟩ => show win0_12.index t (1 : Fin 2) * 64 + 1 * (y 1).val = (y 1).val; rw [z 1]; omega

/-- Window 13's block is its whole array at every point. -/
theorem index0_13 : ∀ t : Fin cfg0.N, ∀ a : Fin 2, win0_13.index t a = 0 :=
  (by decide +kernel : ∀ t : Fin grid0.N, _)
theorem block0_13 (c : Dev nD) (t : Fin cfg0.N) : (iblk0 V c 13 t : Vec Ideal S1x1 .f32) = V c main_v50 := by
  have z := index0_13 t
  funext y
  show V c main_v50 (((cfg0.win 13).blk t).view.emb y) = V c main_v50 y
  refine congrArg (V c main_v50) (funext fun a => Fin.ext ?_)
  match a with
  | ⟨0, _⟩ => show win0_13.index t (0 : Fin 2) * 1 + 1 * (y 0).val = (y 0).val; rw [z 0]; omega
  | ⟨1, _⟩ => show win0_13.index t (1 : Fin 2) * 1 + 1 * (y 1).val = (y 1).val; rw [z 1]; omega

/-- Row `r` of window 0's block at point `t` is the row of its array under the result's block row `r`. -/
theorem rows0_0 (c : Dev nD) (t : Fin cfg0.N) (j : S2000x256.Idx) (k : Fin 256) :
    (iblk0 V c 0 t : Vec Ideal S2000x256 .bf16) (ix2 (j 0) k) = V c main_v37 (ix2 ((((cfg0.win 14).blk t).view.emb j) 0) k) := by
  obtain ⟨o0, o1, p0, p1, q0, q1⟩ := index_facts0 t
  show V c main_v37 (((cfg0.win 0).blk t).view.emb (ix2 (j 0) k)) = V c main_v37 (ix2 ((((cfg0.win 14).blk t).view.emb j) 0) k)
  refine congrArg (V c main_v37) (funext fun a => Fin.ext ?_)
  match a with
  | ⟨0, _⟩ => show win0_0.index t (0 : Fin 2) * 2000 + 1 * (j 0).val = win0_14.index t (0 : Fin 2) * 2000 + 1 * (j 0).val; rw [p0, o0]
  | ⟨1, _⟩ => show win0_0.index t (1 : Fin 2) * 256 + 1 * k.val = k.val; rw [p1]; omega

/-- Row `r` of window 1's block at point `t` is the row of its array under the result's block row `r`. -/
theorem rows0_1 (c : Dev nD) (t : Fin cfg0.N) (j : S2000x256.Idx) (k : Fin 256) :
    (iblk0 V c 1 t : Vec Ideal S2000x256 .bf16) (ix2 (j 0) k) = V c main_v38 (ix2 ((((cfg0.win 14).blk t).view.emb j) 0) k) := by
  obtain ⟨o0, o1, p0, p1, q0, q1⟩ := index_facts0 t
  show V c main_v38 (((cfg0.win 1).blk t).view.emb (ix2 (j 0) k)) = V c main_v38 (ix2 ((((cfg0.win 14).blk t).view.emb j) 0) k)
  refine congrArg (V c main_v38) (funext fun a => Fin.ext ?_)
  match a with
  | ⟨0, _⟩ => show win0_1.index t (0 : Fin 2) * 2000 + 1 * (j 0).val = win0_14.index t (0 : Fin 2) * 2000 + 1 * (j 0).val; rw [q0, o0]
  | ⟨1, _⟩ => show win0_1.index t (1 : Fin 2) * 256 + 1 * k.val = k.val; rw [q1]; omega

/-- What point `t` writes back is block `t` of the layer's array. -/
theorem flushed0_eq (c : Dev nD) (t : Fin cfg0.N) :
    (dat0 V c).flushed 14 t = ((cfg0.win 14).blk t).view.read (Elt Ideal) (layer0 V c) := by
  show (cfg0.win 14).cut (grid0.coords t) ((dat0 V c).after 14 t) = _
  rw [after0_14]
  funext j
  refine entry_of_blocks0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    (V c main_v39) (V c main_v43) (V c main_v40) (V c main_v44) (V c main_v41) (V c main_v45) (V c main_v42) (V c main_v46) (V c main_v47) (V c main_v48) (V c main_v49) (V c main_v50) (V c main_v37) (V c main_v38)
    j (((cfg0.win 14).blk t).view.emb j)
    (block0_2 V c t) (block0_3 V c t) (block0_4 V c t) (block0_5 V c t) (block0_6 V c t) (block0_7 V c t) (block0_8 V c t) (block0_9 V c t) (block0_10 V c t) (block0_11 V c t) (block0_12 V c t) (block0_13 V c t) ?_ (rows0_0 V c t j) (rows0_1 V c t j)
  show (j 1).val = win0_14.index t (1 : Fin 2) * 256 + 1 * (j 1).val
  rw [(index_facts0 t).2.1]; omega

/-- An index of the result array lies in point `t`'s block iff each coordinate lies in the block's range. -/
theorem mem_block0 (t : Fin cfg0.N) (i : S40000x256.Idx) :
    i ∈ ((cfg0.win 14).blk t).view.set ↔ ∀ a : Fin 2, win0_14.index t a * S2000x256.size a ≤ (i a).val ∧ (i a).val < win0_14.index t a * S2000x256.size a + S2000x256.size a := by
  show i ∈ ((View.whole main_v51).slice (win0_14.rect t)).set ↔ _
  rw [View.set_slice_whole, Rect.mem_set_unit]
  exact Iff.rfl

/-- Row `r` of the result array is covered by point `r / 2000`. -/
theorem covered0 (i : S40000x256.Idx) : ∃ t : Fin cfg0.N, (cfg0.win 14).flush t = true ∧ i ∈ ((cfg0.win 14).blk t).view.set := by
  have hi0 : (i 0).val < 40000 := (i 0).isLt
  have hi1 : (i 1).val < 256 := (i 1).isLt
  have hN : cfg0.N = 20 := N_0
  obtain ⟨t, ht⟩ : ∃ t : Fin cfg0.N, t.val = (i 0).val / 2000 := ⟨⟨(i 0).val / 2000, by rw [hN]; omega⟩, rfl⟩
  obtain ⟨o0, o1, -⟩ := index_facts0 t
  refine ⟨t, flush0_14 t, ?_⟩
  rw [mem_block0]
  intro a
  match a with
  | ⟨0, _⟩ => show win0_14.index t (0 : Fin 2) * 2000 ≤ (i 0).val ∧ (i 0).val < win0_14.index t (0 : Fin 2) * 2000 + 2000; rw [o0, ht]; omega
  | ⟨1, _⟩ => show win0_14.index t (1 : Fin 2) * 256 ≤ (i 1).val ∧ (i 1).val < win0_14.index t (1 : Fin 2) * 256 + 256; rw [o1]; omega

/-- So the launch leaves the layer's array in its result window's array. -/
theorem final0 (c : Dev nD) : (dat0 V c).arrAt 14 cfg0.N = layer0 V c :=
  (dat0 V c).arrAt_eq_of_cover 14 (layer0 V c) (fun t _ => flushed0_eq V c t) covered0

end Cover0
/-- One entry of a stored block is the layer's entry of the whole arrays, when the two row blocks hold the rows of
    the arrays at the entry's row and the weight blocks are the weight arrays. -/
theorem entry_of_blocks1 (x0 : Vec Ideal S2000x256 .bf16) (x1 : Vec Ideal S2000x256 .bf16) (x2 : Vec Ideal S256x256 .bf16) (x3 : Vec Ideal S1x256 .f32) (x4 : Vec Ideal S256x256 .bf16) (x5 : Vec Ideal S1x256 .f32) (x6 : Vec Ideal S256x64 .bf16) (x7 : Vec Ideal S1x64 .f32) (x8 : Vec Ideal S256x64 .bf16) (x9 : Vec Ideal S1x64 .f32) (x10 : Vec Ideal S1x64 .f32) (x11 : Vec Ideal S1x1 .f32) (x12 : Vec Ideal S1x64 .f32) (x13 : Vec Ideal S1x1 .f32)
    (a2 : Vec Ideal S256x256 .bf16) (a3 : Vec Ideal S1x256 .f32) (a4 : Vec Ideal S256x256 .bf16) (a5 : Vec Ideal S1x256 .f32) (a6 : Vec Ideal S256x64 .bf16) (a7 : Vec Ideal S1x64 .f32) (a8 : Vec Ideal S256x64 .bf16) (a9 : Vec Ideal S1x64 .f32) (a10 : Vec Ideal S1x64 .f32) (a11 : Vec Ideal S1x1 .f32) (a12 : Vec Ideal S1x64 .f32) (a13 : Vec Ideal S1x1 .f32)
    (h agg : Vec Ideal S80000x256 .bf16) (j : S2000x256.Idx) (i : S80000x256.Idx)
    (e2 : x2 = a2) (e3 : x3 = a3) (e4 : x4 = a4) (e5 : x5 = a5) (e6 : x6 = a6) (e7 : x7 = a7) (e8 : x8 = a8) (e9 : x9 = a9) (e10 : x10 = a10) (e11 : x11 = a11) (e12 : x12 = a12) (e13 : x13 = a13)
    (hi1 : (j 1).val = (i 1).val)
    (h0 : ∀ k : Fin 256, x0 (ix2 (j 0) k) = h (ix2 (i 0) k))
    (h1 : ∀ k : Fin 256, x1 (ix2 (j 0) k) = agg (ix2 (i 0) k)) :
    out1_14 (F := Ideal) x0 x1 x2 x3 x4 x5 x6 x7 x8 x9 x10 x11 x12 x13 j
      = nodeArr (paramsOfRows a2 a3 a4 a5 a6 a7 a8 a9 a10 a11 a12 a13) h agg i := by
  subst e2 e3 e4 e5 e6 e7 e8 e9 e10 e11 e12 e13
  refine (congrArg (out1_14 (F := Ideal) x0 x1 x2 x3 x4 x5 x6 x7 x8 x9 x10 x11 x12 x13) (eq_ix2 j)).trans ?_
  refine (Block.out1_14_apply x0 x1 x2 x3 x4 x5 x6 x7 x8 x9 x10 x11 x12 x13 (j 0) (j 1)).trans ?_
  have f0 : (fun k : Fin 256 => x0 (ix2 (j 0) k)) = fun k => h (ix2 (i 0) k) := funext h0
  have f1 : (fun k : Fin 256 => x1 (ix2 (j 0) k)) = fun k => agg (ix2 (i 0) k) := funext h1
  have f2 : j 1 = i 1 := Fin.ext hi1
  show rowOut _ (fun k : Fin 256 => x0 (ix2 (j 0) k)) (fun k : Fin 256 => x1 (ix2 (j 0) k)) (j 1)
    = rowOut _ (fun k => h (ix2 (i 0) k)) (fun k => agg (ix2 (i 0) k)) (i 1)
  rw [f0, f1, f2]

section Cover1

variable (V : (c : Dev nD) → (b : Ref sig .tc) → Buf (Elt Ideal) ((c.tc : Thread nD τ).loc b))

/-- The layer applied to the arrays the launch finds in its windows: the row arrays of windows 0 and 1, the weights
    of windows 2 to 13. -/
abbrev layer1 (c : Dev nD) : S80000x256.Idx → EReal :=
  nodeArr (paramsOfRows (V c main_v54) (V c main_v58) (V c main_v55) (V c main_v59) (V c main_v56) (V c main_v60) (V c main_v57) (V c main_v61) (V c main_v62) (V c main_v63) (V c main_v64) (V c main_v65)) (V c main_v52) (V c main_v53)

/-- The index maps over the grid: the three row windows sit at block row `t`, column block 0. -/
theorem index_facts1 : ∀ t : Fin cfg1.N,
    win1_14.index t (0 : Fin 2) = t.val ∧ win1_14.index t (1 : Fin 2) = 0
    ∧ win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Window 2's block is its whole array at every point. -/
theorem index1_2 : ∀ t : Fin cfg1.N, ∀ a : Fin 2, win1_2.index t a = 0 :=
  (by decide +kernel : ∀ t : Fin grid1.N, _)
theorem block1_2 (c : Dev nD) (t : Fin cfg1.N) : (iblk1 V c 2 t : Vec Ideal S256x256 .bf16) = V c main_v54 := by
  have z := index1_2 t
  funext y
  show V c main_v54 (((cfg1.win 2).blk t).view.emb y) = V c main_v54 y
  refine congrArg (V c main_v54) (funext fun a => Fin.ext ?_)
  match a with
  | ⟨0, _⟩ => show win1_2.index t (0 : Fin 2) * 256 + 1 * (y 0).val = (y 0).val; rw [z 0]; omega
  | ⟨1, _⟩ => show win1_2.index t (1 : Fin 2) * 256 + 1 * (y 1).val = (y 1).val; rw [z 1]; omega

/-- Window 3's block is its whole array at every point. -/
theorem index1_3 : ∀ t : Fin cfg1.N, ∀ a : Fin 2, win1_3.index t a = 0 :=
  (by decide +kernel : ∀ t : Fin grid1.N, _)
theorem block1_3 (c : Dev nD) (t : Fin cfg1.N) : (iblk1 V c 3 t : Vec Ideal S1x256 .f32) = V c main_v58 := by
  have z := index1_3 t
  funext y
  show V c main_v58 (((cfg1.win 3).blk t).view.emb y) = V c main_v58 y
  refine congrArg (V c main_v58) (funext fun a => Fin.ext ?_)
  match a with
  | ⟨0, _⟩ => show win1_3.index t (0 : Fin 2) * 1 + 1 * (y 0).val = (y 0).val; rw [z 0]; omega
  | ⟨1, _⟩ => show win1_3.index t (1 : Fin 2) * 256 + 1 * (y 1).val = (y 1).val; rw [z 1]; omega

/-- Window 4's block is its whole array at every point. -/
theorem index1_4 : ∀ t : Fin cfg1.N, ∀ a : Fin 2, win1_4.index t a = 0 :=
  (by decide +kernel : ∀ t : Fin grid1.N, _)
theorem block1_4 (c : Dev nD) (t : Fin cfg1.N) : (iblk1 V c 4 t : Vec Ideal S256x256 .bf16) = V c main_v55 := by
  have z := index1_4 t
  funext y
  show V c main_v55 (((cfg1.win 4).blk t).view.emb y) = V c main_v55 y
  refine congrArg (V c main_v55) (funext fun a => Fin.ext ?_)
  match a with
  | ⟨0, _⟩ => show win1_4.index t (0 : Fin 2) * 256 + 1 * (y 0).val = (y 0).val; rw [z 0]; omega
  | ⟨1, _⟩ => show win1_4.index t (1 : Fin 2) * 256 + 1 * (y 1).val = (y 1).val; rw [z 1]; omega

/-- Window 5's block is its whole array at every point. -/
theorem index1_5 : ∀ t : Fin cfg1.N, ∀ a : Fin 2, win1_5.index t a = 0 :=
  (by decide +kernel : ∀ t : Fin grid1.N, _)
theorem block1_5 (c : Dev nD) (t : Fin cfg1.N) : (iblk1 V c 5 t : Vec Ideal S1x256 .f32) = V c main_v59 := by
  have z := index1_5 t
  funext y
  show V c main_v59 (((cfg1.win 5).blk t).view.emb y) = V c main_v59 y
  refine congrArg (V c main_v59) (funext fun a => Fin.ext ?_)
  match a with
  | ⟨0, _⟩ => show win1_5.index t (0 : Fin 2) * 1 + 1 * (y 0).val = (y 0).val; rw [z 0]; omega
  | ⟨1, _⟩ => show win1_5.index t (1 : Fin 2) * 256 + 1 * (y 1).val = (y 1).val; rw [z 1]; omega

/-- Window 6's block is its whole array at every point. -/
theorem index1_6 : ∀ t : Fin cfg1.N, ∀ a : Fin 2, win1_6.index t a = 0 :=
  (by decide +kernel : ∀ t : Fin grid1.N, _)
theorem block1_6 (c : Dev nD) (t : Fin cfg1.N) : (iblk1 V c 6 t : Vec Ideal S256x64 .bf16) = V c main_v56 := by
  have z := index1_6 t
  funext y
  show V c main_v56 (((cfg1.win 6).blk t).view.emb y) = V c main_v56 y
  refine congrArg (V c main_v56) (funext fun a => Fin.ext ?_)
  match a with
  | ⟨0, _⟩ => show win1_6.index t (0 : Fin 2) * 256 + 1 * (y 0).val = (y 0).val; rw [z 0]; omega
  | ⟨1, _⟩ => show win1_6.index t (1 : Fin 2) * 64 + 1 * (y 1).val = (y 1).val; rw [z 1]; omega

/-- Window 7's block is its whole array at every point. -/
theorem index1_7 : ∀ t : Fin cfg1.N, ∀ a : Fin 2, win1_7.index t a = 0 :=
  (by decide +kernel : ∀ t : Fin grid1.N, _)
theorem block1_7 (c : Dev nD) (t : Fin cfg1.N) : (iblk1 V c 7 t : Vec Ideal S1x64 .f32) = V c main_v60 := by
  have z := index1_7 t
  funext y
  show V c main_v60 (((cfg1.win 7).blk t).view.emb y) = V c main_v60 y
  refine congrArg (V c main_v60) (funext fun a => Fin.ext ?_)
  match a with
  | ⟨0, _⟩ => show win1_7.index t (0 : Fin 2) * 1 + 1 * (y 0).val = (y 0).val; rw [z 0]; omega
  | ⟨1, _⟩ => show win1_7.index t (1 : Fin 2) * 64 + 1 * (y 1).val = (y 1).val; rw [z 1]; omega

/-- Window 8's block is its whole array at every point. -/
theorem index1_8 : ∀ t : Fin cfg1.N, ∀ a : Fin 2, win1_8.index t a = 0 :=
  (by decide +kernel : ∀ t : Fin grid1.N, _)
theorem block1_8 (c : Dev nD) (t : Fin cfg1.N) : (iblk1 V c 8 t : Vec Ideal S256x64 .bf16) = V c main_v57 := by
  have z := index1_8 t
  funext y
  show V c main_v57 (((cfg1.win 8).blk t).view.emb y) = V c main_v57 y
  refine congrArg (V c main_v57) (funext fun a => Fin.ext ?_)
  match a with
  | ⟨0, _⟩ => show win1_8.index t (0 : Fin 2) * 256 + 1 * (y 0).val = (y 0).val; rw [z 0]; omega
  | ⟨1, _⟩ => show win1_8.index t (1 : Fin 2) * 64 + 1 * (y 1).val = (y 1).val; rw [z 1]; omega

/-- Window 9's block is its whole array at every point. -/
theorem index1_9 : ∀ t : Fin cfg1.N, ∀ a : Fin 2, win1_9.index t a = 0 :=
  (by decide +kernel : ∀ t : Fin grid1.N, _)
theorem block1_9 (c : Dev nD) (t : Fin cfg1.N) : (iblk1 V c 9 t : Vec Ideal S1x64 .f32) = V c main_v61 := by
  have z := index1_9 t
  funext y
  show V c main_v61 (((cfg1.win 9).blk t).view.emb y) = V c main_v61 y
  refine congrArg (V c main_v61) (funext fun a => Fin.ext ?_)
  match a with
  | ⟨0, _⟩ => show win1_9.index t (0 : Fin 2) * 1 + 1 * (y 0).val = (y 0).val; rw [z 0]; omega
  | ⟨1, _⟩ => show win1_9.index t (1 : Fin 2) * 64 + 1 * (y 1).val = (y 1).val; rw [z 1]; omega

/-- Window 10's block is its whole array at every point. -/
theorem index1_10 : ∀ t : Fin cfg1.N, ∀ a : Fin 2, win1_10.index t a = 0 :=
  (by decide +kernel : ∀ t : Fin grid1.N, _)
theorem block1_10 (c : Dev nD) (t : Fin cfg1.N) : (iblk1 V c 10 t : Vec Ideal S1x64 .f32) = V c main_v62 := by
  have z := index1_10 t
  funext y
  show V c main_v62 (((cfg1.win 10).blk t).view.emb y) = V c main_v62 y
  refine congrArg (V c main_v62) (funext fun a => Fin.ext ?_)
  match a with
  | ⟨0, _⟩ => show win1_10.index t (0 : Fin 2) * 1 + 1 * (y 0).val = (y 0).val; rw [z 0]; omega
  | ⟨1, _⟩ => show win1_10.index t (1 : Fin 2) * 64 + 1 * (y 1).val = (y 1).val; rw [z 1]; omega

/-- Window 11's block is its whole array at every point. -/
theorem index1_11 : ∀ t : Fin cfg1.N, ∀ a : Fin 2, win1_11.index t a = 0 :=
  (by decide +kernel : ∀ t : Fin grid1.N, _)
theorem block1_11 (c : Dev nD) (t : Fin cfg1.N) : (iblk1 V c 11 t : Vec Ideal S1x1 .f32) = V c main_v63 := by
  have z := index1_11 t
  funext y
  show V c main_v63 (((cfg1.win 11).blk t).view.emb y) = V c main_v63 y
  refine congrArg (V c main_v63) (funext fun a => Fin.ext ?_)
  match a with
  | ⟨0, _⟩ => show win1_11.index t (0 : Fin 2) * 1 + 1 * (y 0).val = (y 0).val; rw [z 0]; omega
  | ⟨1, _⟩ => show win1_11.index t (1 : Fin 2) * 1 + 1 * (y 1).val = (y 1).val; rw [z 1]; omega

/-- Window 12's block is its whole array at every point. -/
theorem index1_12 : ∀ t : Fin cfg1.N, ∀ a : Fin 2, win1_12.index t a = 0 :=
  (by decide +kernel : ∀ t : Fin grid1.N, _)
theorem block1_12 (c : Dev nD) (t : Fin cfg1.N) : (iblk1 V c 12 t : Vec Ideal S1x64 .f32) = V c main_v64 := by
  have z := index1_12 t
  funext y
  show V c main_v64 (((cfg1.win 12).blk t).view.emb y) = V c main_v64 y
  refine congrArg (V c main_v64) (funext fun a => Fin.ext ?_)
  match a with
  | ⟨0, _⟩ => show win1_12.index t (0 : Fin 2) * 1 + 1 * (y 0).val = (y 0).val; rw [z 0]; omega
  | ⟨1, _⟩ => show win1_12.index t (1 : Fin 2) * 64 + 1 * (y 1).val = (y 1).val; rw [z 1]; omega

/-- Window 13's block is its whole array at every point. -/
theorem index1_13 : ∀ t : Fin cfg1.N, ∀ a : Fin 2, win1_13.index t a = 0 :=
  (by decide +kernel : ∀ t : Fin grid1.N, _)
theorem block1_13 (c : Dev nD) (t : Fin cfg1.N) : (iblk1 V c 13 t : Vec Ideal S1x1 .f32) = V c main_v65 := by
  have z := index1_13 t
  funext y
  show V c main_v65 (((cfg1.win 13).blk t).view.emb y) = V c main_v65 y
  refine congrArg (V c main_v65) (funext fun a => Fin.ext ?_)
  match a with
  | ⟨0, _⟩ => show win1_13.index t (0 : Fin 2) * 1 + 1 * (y 0).val = (y 0).val; rw [z 0]; omega
  | ⟨1, _⟩ => show win1_13.index t (1 : Fin 2) * 1 + 1 * (y 1).val = (y 1).val; rw [z 1]; omega

/-- Row `r` of window 0's block at point `t` is the row of its array under the result's block row `r`. -/
theorem rows1_0 (c : Dev nD) (t : Fin cfg1.N) (j : S2000x256.Idx) (k : Fin 256) :
    (iblk1 V c 0 t : Vec Ideal S2000x256 .bf16) (ix2 (j 0) k) = V c main_v52 (ix2 ((((cfg1.win 14).blk t).view.emb j) 0) k) := by
  obtain ⟨o0, o1, p0, p1, q0, q1⟩ := index_facts1 t
  show V c main_v52 (((cfg1.win 0).blk t).view.emb (ix2 (j 0) k)) = V c main_v52 (ix2 ((((cfg1.win 14).blk t).view.emb j) 0) k)
  refine congrArg (V c main_v52) (funext fun a => Fin.ext ?_)
  match a with
  | ⟨0, _⟩ => show win1_0.index t (0 : Fin 2) * 2000 + 1 * (j 0).val = win1_14.index t (0 : Fin 2) * 2000 + 1 * (j 0).val; rw [p0, o0]
  | ⟨1, _⟩ => show win1_0.index t (1 : Fin 2) * 256 + 1 * k.val = k.val; rw [p1]; omega

/-- Row `r` of window 1's block at point `t` is the row of its array under the result's block row `r`. -/
theorem rows1_1 (c : Dev nD) (t : Fin cfg1.N) (j : S2000x256.Idx) (k : Fin 256) :
    (iblk1 V c 1 t : Vec Ideal S2000x256 .bf16) (ix2 (j 0) k) = V c main_v53 (ix2 ((((cfg1.win 14).blk t).view.emb j) 0) k) := by
  obtain ⟨o0, o1, p0, p1, q0, q1⟩ := index_facts1 t
  show V c main_v53 (((cfg1.win 1).blk t).view.emb (ix2 (j 0) k)) = V c main_v53 (ix2 ((((cfg1.win 14).blk t).view.emb j) 0) k)
  refine congrArg (V c main_v53) (funext fun a => Fin.ext ?_)
  match a with
  | ⟨0, _⟩ => show win1_1.index t (0 : Fin 2) * 2000 + 1 * (j 0).val = win1_14.index t (0 : Fin 2) * 2000 + 1 * (j 0).val; rw [q0, o0]
  | ⟨1, _⟩ => show win1_1.index t (1 : Fin 2) * 256 + 1 * k.val = k.val; rw [q1]; omega

/-- What point `t` writes back is block `t` of the layer's array. -/
theorem flushed1_eq (c : Dev nD) (t : Fin cfg1.N) :
    (dat1 V c).flushed 14 t = ((cfg1.win 14).blk t).view.read (Elt Ideal) (layer1 V c) := by
  show (cfg1.win 14).cut (grid1.coords t) ((dat1 V c).after 14 t) = _
  rw [after1_14]
  funext j
  refine entry_of_blocks1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    (V c main_v54) (V c main_v58) (V c main_v55) (V c main_v59) (V c main_v56) (V c main_v60) (V c main_v57) (V c main_v61) (V c main_v62) (V c main_v63) (V c main_v64) (V c main_v65) (V c main_v52) (V c main_v53)
    j (((cfg1.win 14).blk t).view.emb j)
    (block1_2 V c t) (block1_3 V c t) (block1_4 V c t) (block1_5 V c t) (block1_6 V c t) (block1_7 V c t) (block1_8 V c t) (block1_9 V c t) (block1_10 V c t) (block1_11 V c t) (block1_12 V c t) (block1_13 V c t) ?_ (rows1_0 V c t j) (rows1_1 V c t j)
  show (j 1).val = win1_14.index t (1 : Fin 2) * 256 + 1 * (j 1).val
  rw [(index_facts1 t).2.1]; omega

/-- An index of the result array lies in point `t`'s block iff each coordinate lies in the block's range. -/
theorem mem_block1 (t : Fin cfg1.N) (i : S80000x256.Idx) :
    i ∈ ((cfg1.win 14).blk t).view.set ↔ ∀ a : Fin 2, win1_14.index t a * S2000x256.size a ≤ (i a).val ∧ (i a).val < win1_14.index t a * S2000x256.size a + S2000x256.size a := by
  show i ∈ ((View.whole main_v66).slice (win1_14.rect t)).set ↔ _
  rw [View.set_slice_whole, Rect.mem_set_unit]
  exact Iff.rfl

/-- Row `r` of the result array is covered by point `r / 2000`. -/
theorem covered1 (i : S80000x256.Idx) : ∃ t : Fin cfg1.N, (cfg1.win 14).flush t = true ∧ i ∈ ((cfg1.win 14).blk t).view.set := by
  have hi0 : (i 0).val < 80000 := (i 0).isLt
  have hi1 : (i 1).val < 256 := (i 1).isLt
  have hN : cfg1.N = 40 := N_1
  obtain ⟨t, ht⟩ : ∃ t : Fin cfg1.N, t.val = (i 0).val / 2000 := ⟨⟨(i 0).val / 2000, by rw [hN]; omega⟩, rfl⟩
  obtain ⟨o0, o1, -⟩ := index_facts1 t
  refine ⟨t, flush1_14 t, ?_⟩
  rw [mem_block1]
  intro a
  match a with
  | ⟨0, _⟩ => show win1_14.index t (0 : Fin 2) * 2000 ≤ (i 0).val ∧ (i 0).val < win1_14.index t (0 : Fin 2) * 2000 + 2000; rw [o0, ht]; omega
  | ⟨1, _⟩ => show win1_14.index t (1 : Fin 2) * 256 ≤ (i 1).val ∧ (i 1).val < win1_14.index t (1 : Fin 2) * 256 + 256; rw [o1]; omega

/-- So the launch leaves the layer's array in its result window's array. -/
theorem final1 (c : Dev nD) : (dat1 V c).arrAt 14 cfg1.N = layer1 V c :=
  (dat1 V c).arrAt_eq_of_cover 14 (layer1 V c) (fun t _ => flushed1_eq V c t) covered1

end Cover1

/-! ## The weights as the launches keep them are the weights as given -/

/-- Reading the arrays the host operations lay out for the windows (matrices rounded to the narrow format, which on
    the extended reals changes nothing; biases and weight vectors reshaped into rows; scalars into `[1, 1]`) gives
    the same weights as reading the arguments themselves. -/
theorem params_rows_eq_args (A0 : Vec Ideal S256x256 .f32) (A1 : Vec Ideal S256 .f32) (A2 : Vec Ideal S256x256 .f32) (A3 : Vec Ideal S256 .f32)
    (A4 : Vec Ideal S256x64 .f32) (A5 : Vec Ideal S64 .f32) (A6 : Vec Ideal S256x64 .f32) (A7 : Vec Ideal S64 .f32)
    (A8 : Vec Ideal S64x1 .f32) (A9 : Vec Ideal S1 .f32) (A10 : Vec Ideal S64x1 .f32) (A11 : Vec Ideal S1 .f32) :
    paramsOfRows (truncf .bf16 A0 bitsLt_bf16_f32 : FVec Ideal S256x256 .bf16) (shapeCast S1x256 A1 shapeCasts_S256_S1x256)
        (truncf .bf16 A2 bitsLt_bf16_f32 : FVec Ideal S256x256 .bf16) (shapeCast S1x256 A3 shapeCasts_S256_S1x256)
        (truncf .bf16 A4 bitsLt_bf16_f32 : FVec Ideal S256x64 .bf16) (shapeCast S1x64 A5 shapeCasts_S64_S1x64)
        (truncf .bf16 A6 bitsLt_bf16_f32 : FVec Ideal S256x64 .bf16) (shapeCast S1x64 A7 shapeCasts_S64_S1x64)
        (shapeCast S1x64 A8 shapeCasts_S64x1_S1x64) (shapeCast S1x1 A9 shapeCasts_S1_S1x1)
        (shapeCast S1x64 A10 shapeCasts_S64x1_S1x64) (shapeCast S1x1 A11 shapeCasts_S1_S1x1)
      = paramsOfArgs A0 A1 A2 A3 A4 A5 A6 A7 A8 A9 A10 A11 := by
  have row256 : ∀ (A : Vec Ideal S256 .f32) (o : Fin 256), shapeCast S1x256 A shapeCasts_S256_S1x256 (ix2 (0 : Fin 1) o) = A (ix1 o) := fun A o =>
    shapeCast_apply A shapeCasts_S256_S1x256 (ix2 (0 : Fin 1) o) (ix1 o) (by
      rw [Shape.rowMajor_val_two, Shape.rowMajor_val_one]; show o.val = 0 * 256 + o.val; omega)
  have row64 : ∀ (A : Vec Ideal S64 .f32) (o : Fin 64), shapeCast S1x64 A shapeCasts_S64_S1x64 (ix2 (0 : Fin 1) o) = A (ix1 o) := fun A o =>
    shapeCast_apply A shapeCasts_S64_S1x64 (ix2 (0 : Fin 1) o) (ix1 o) (by
      rw [Shape.rowMajor_val_two, Shape.rowMajor_val_one]; show o.val = 0 * 64 + o.val; omega)
  have col64 : ∀ (A : Vec Ideal S64x1 .f32) (k : Fin 64), shapeCast S1x64 A shapeCasts_S64x1_S1x64 (ix2 (0 : Fin 1) k) = A (ix2 k (0 : Fin 1)) := fun A k =>
    shapeCast_apply A shapeCasts_S64x1_S1x64 (ix2 (0 : Fin 1) k) (ix2 k (0 : Fin 1)) (by
      rw [Shape.rowMajor_val_two, Shape.rowMajor_val_two]; show k.val * 1 + 0 = 0 * 64 + k.val; omega)
  have one : ∀ (A : Vec Ideal S1 .f32), shapeCast S1x1 A shapeCasts_S1_S1x1 (ix2 (0 : Fin 1) (0 : Fin 1)) = A (ix1 (0 : Fin 1)) := fun A =>
    shapeCast_apply A shapeCasts_S1_S1x1 (ix2 (0 : Fin 1) (0 : Fin 1)) (ix1 (0 : Fin 1)) (by
      rw [Shape.rowMajor_val_two, Shape.rowMajor_val_one]; show 0 = 0 * 1 + 0; omega)
  unfold paramsOfRows paramsOfArgs
  congr 1
  · funext o; exact row256 A1 o
  · funext o; exact row256 A3 o
  · funext o; exact row64 A5 o
  · funext o; exact row64 A7 o
  · funext k; exact col64 A8 k
  · exact one A9
  · funext k; exact col64 A10 k
  · exact one A11

/-- The layer on the arrays as the launches keep them (rows and weights rounded to the narrow format, which on the
    extended reals changes nothing; biases and weight vectors reshaped) is the layer on the arrays as given. -/
theorem layer_of_entries {N : Nat} (v0 v1 : FVec Ideal ⟨2, ![N, 256]⟩ .bf16)
    (v2 : FVec Ideal S256x256 .bf16) (v3 : FVec Ideal S1x256 .f32) (v4 : FVec Ideal S256x256 .bf16) (v5 : FVec Ideal S1x256 .f32)
    (v6 : FVec Ideal S256x64 .bf16) (v7 : FVec Ideal S1x64 .f32) (v8 : FVec Ideal S256x64 .bf16) (v9 : FVec Ideal S1x64 .f32)
    (v10 : FVec Ideal S1x64 .f32) (v11 : FVec Ideal S1x1 .f32) (v12 : FVec Ideal S1x64 .f32) (v13 : FVec Ideal S1x1 .f32)
    (H G : FVec Ideal ⟨2, ![N, 256]⟩ .f32)
    (A0 : FVec Ideal S256x256 .f32) (A1 : FVec Ideal S256 .f32) (A2 : FVec Ideal S256x256 .f32) (A3 : FVec Ideal S256 .f32)
    (A4 : FVec Ideal S256x64 .f32) (A5 : FVec Ideal S64 .f32) (A6 : FVec Ideal S256x64 .f32) (A7 : FVec Ideal S64 .f32)
    (A8 : FVec Ideal S64x1 .f32) (A9 : FVec Ideal S1 .f32) (A10 : FVec Ideal S64x1 .f32) (A11 : FVec Ideal S1 .f32)
    (e0 : v0 = truncf .bf16 H bitsLt_bf16_f32) (e1 : v1 = truncf .bf16 G bitsLt_bf16_f32)
    (e2 : v2 = truncf .bf16 A0 bitsLt_bf16_f32) (e3 : v3 = shapeCast S1x256 A1 shapeCasts_S256_S1x256)
    (e4 : v4 = truncf .bf16 A2 bitsLt_bf16_f32) (e5 : v5 = shapeCast S1x256 A3 shapeCasts_S256_S1x256)
    (e6 : v6 = truncf .bf16 A4 bitsLt_bf16_f32) (e7 : v7 = shapeCast S1x64 A5 shapeCasts_S64_S1x64)
    (e8 : v8 = truncf .bf16 A6 bitsLt_bf16_f32) (e9 : v9 = shapeCast S1x64 A7 shapeCasts_S64_S1x64)
    (e10 : v10 = shapeCast S1x64 A8 shapeCasts_S64x1_S1x64) (e11 : v11 = shapeCast S1x1 A9 shapeCasts_S1_S1x1)
    (e12 : v12 = shapeCast S1x64 A10 shapeCasts_S64x1_S1x64) (e13 : v13 = shapeCast S1x1 A11 shapeCasts_S1_S1x1) :
    nodeArr (paramsOfRows v2 v3 v4 v5 v6 v7 v8 v9 v10 v11 v12 v13) v0 v1
      = nodeArr (paramsOfArgs A0 A1 A2 A3 A4 A5 A6 A7 A8 A9 A10 A11) H G := by
  subst e0 e1 e2 e3 e4 e5 e6 e7 e8 e9 e10 e11 e12 e13
  rw [params_rows_eq_args]
  rfl

variable (m : (ℓ : Loc nD τ sig) → Buf (Elt Ideal) ℓ) (ρ : Dev nD → PrngReg)

/-- Argument `k` of @main as core `c` is launched with it. -/
abbrev arg (c : Dev nD) (b : Ref sig .tc) : Buf (Elt Ideal) ((c.tc : Thread nD τ).loc b) := m ((c.tc : Thread nD τ).loc b)

/-- The mean of the neighbouring papers' rows for every author, as @main's host operations compute it from the
    arguments (the papers' rows at the wrapped source indices, summed into their destination rows, divided by the
    in-degree clamped below by one): the contents of `main_v18` when the first launch is entered. -/
def aggA (c : Dev nD) : FVec Ideal S40000x256 .f32 :=
  Host.divf
    (Host.scatterAdd scatter_S40000x256_S800000x1_S800000x256_1_0_0_1
      (broadcastInDim S40000x256 ![] bcast_S_S40000x256 (constant S_ .f32 0x00000000#32))
      (broadcastInDim S800000x1 ![0] bcast_S800000_S800000x1_0 (arg m c main_arg5))
      (Host.gather gather_S80000x256_S800000x1_S800000x256_1_0_n_n_0_1_1256 (arg m c main_arg1)
        (broadcastInDim S800000x1 ![0] bcast_S800000_S800000x1_0
          (select (cmpi .slt (arg m c main_arg4) (broadcastInDim S800000 ![] bcast_S_S800000 (constantI S_ 32 0#32)))
            (addi (arg m c main_arg4) (broadcastInDim S800000 ![] bcast_S_S800000 (constantI S_ 32 80000#32))) (arg m c main_arg4)))))
    (broadcastInDim S40000x256 ![0, 1] bcast_S40000x1_S40000x256_0_1
      (broadcastInDim S40000x1 ![0] bcast_S40000_S40000x1_0
        (maximumf
          (Host.scatterAdd scatter_S40000_S800000x1_S800000_n_0_0_1
            (broadcastInDim S40000 ![] bcast_S_S40000 (constant S_ .f32 0x00000000#32))
            (broadcastInDim S800000x1 ![0] bcast_S800000_S800000x1_0 (arg m c main_arg5))
            (broadcastInDim S800000 ![] bcast_S_S800000 (constant S_ .f32 0x3F800000#32)))
          (broadcastInDim S40000 ![] bcast_S_S40000 (constant S_ .f32 0x3F800000#32)))))

/-- The mean of the neighbouring authors' rows for every paper: the contents of `main_v36`. -/
def aggP (c : Dev nD) : FVec Ideal S80000x256 .f32 :=
  Host.divf
    (Host.scatterAdd scatter_S80000x256_S800000x1_S800000x256_1_0_0_1
      (broadcastInDim S80000x256 ![] bcast_S_S80000x256 (constant S_ .f32 0x00000000#32))
      (broadcastInDim S800000x1 ![0] bcast_S800000_S800000x1_0 (arg m c main_arg3))
      (Host.gather gather_S40000x256_S800000x1_S800000x256_1_0_n_n_0_1_1256 (arg m c main_arg0)
        (broadcastInDim S800000x1 ![0] bcast_S800000_S800000x1_0
          (select (cmpi .slt (arg m c main_arg2) (broadcastInDim S800000 ![] bcast_S_S800000 (constantI S_ 32 0#32)))
            (addi (arg m c main_arg2) (broadcastInDim S800000 ![] bcast_S_S800000 (constantI S_ 32 40000#32))) (arg m c main_arg2)))))
    (broadcastInDim S80000x256 ![0, 1] bcast_S80000x1_S80000x256_0_1
      (broadcastInDim S80000x1 ![0] bcast_S80000_S80000x1_0
        (maximumf
          (Host.scatterAdd scatter_S80000_S800000x1_S800000_n_0_0_1
            (broadcastInDim S80000 ![] bcast_S_S80000 (constant S_ .f32 0x00000000#32))
            (broadcastInDim S800000x1 ![0] bcast_S800000_S800000x1_0 (arg m c main_arg3))
            (broadcastInDim S800000 ![] bcast_S_S800000 (constant S_ .f32 0x3F800000#32)))
          (broadcastInDim S80000 ![] bcast_S_S80000 (constant S_ .f32 0x3F800000#32)))))

section Entry0

/-! ## What the first launch finds in its windows' arrays -/

theorem entry0_main_v37 (c : Dev nD) : @Eq (FVec Ideal S40000x256 .bf16) (V1 m ρ c main_v37) (truncf .bf16 (arg m c main_arg0 : FVec Ideal S40000x256 .f32) bitsLt_bf16_f32) := by
  show StableHlo.after hostOps0 (W0 m ρ c) (Proc.devRef .tc main_v37) = _
  after_results_simp
  all_goals rfl

theorem entry0_main_v38 (c : Dev nD) : @Eq (FVec Ideal S40000x256 .bf16) (V1 m ρ c main_v38) (truncf .bf16 (aggA m c) bitsLt_bf16_f32) := by
  show StableHlo.after hostOps0 (W0 m ρ c) (Proc.devRef .tc main_v38) = _
  after_results_simp
  all_goals rfl

theorem entry0_main_v39 (c : Dev nD) : @Eq (FVec Ideal S256x256 .bf16) (V1 m ρ c main_v39) (truncf .bf16 (arg m c main_arg6 : FVec Ideal S256x256 .f32) bitsLt_bf16_f32) := by
  show StableHlo.after hostOps0 (W0 m ρ c) (Proc.devRef .tc main_v39) = _
  after_results_simp
  all_goals rfl

theorem entry0_main_v40 (c : Dev nD) : @Eq (FVec Ideal S256x256 .bf16) (V1 m ρ c main_v40) (truncf .bf16 (arg m c main_arg28 : FVec Ideal S256x256 .f32) bitsLt_bf16_f32) := by
  show StableHlo.after hostOps0 (W0 m ρ c) (Proc.devRef .tc main_v40) = _
  after_results_simp
  all_goals rfl

theorem entry0_main_v41 (c : Dev nD) : @Eq (FVec Ideal S256x64 .bf16) (V1 m ρ c main_v41) (truncf .bf16 (arg m c main_arg10 : FVec Ideal S256x64 .f32) bitsLt_bf16_f32) := by
  show StableHlo.after hostOps0 (W0 m ρ c) (Proc.devRef .tc main_v41) = _
  after_results_simp
  all_goals rfl

theorem entry0_main_v42 (c : Dev nD) : @Eq (FVec Ideal S256x64 .bf16) (V1 m ρ c main_v42) (truncf .bf16 (arg m c main_arg14 : FVec Ideal S256x64 .f32) bitsLt_bf16_f32) := by
  show StableHlo.after hostOps0 (W0 m ρ c) (Proc.devRef .tc main_v42) = _
  after_results_simp
  all_goals rfl

theorem entry0_main_v43 (c : Dev nD) : @Eq (FVec Ideal S1x256 .f32) (V1 m ρ c main_v43) (shapeCast S1x256 (arg m c main_arg7 : FVec Ideal S256 .f32) shapeCasts_S256_S1x256) := by
  show StableHlo.after hostOps0 (W0 m ρ c) (Proc.devRef .tc main_v43) = _
  after_results_simp
  all_goals rfl

theorem entry0_main_v44 (c : Dev nD) : @Eq (FVec Ideal S1x256 .f32) (V1 m ρ c main_v44) (shapeCast S1x256 (arg m c main_arg29 : FVec Ideal S256 .f32) shapeCasts_S256_S1x256) := by
  show StableHlo.after hostOps0 (W0 m ρ c) (Proc.devRef .tc main_v44) = _
  after_results_simp
  all_goals rfl

theorem entry0_main_v45 (c : Dev nD) : @Eq (FVec Ideal S1x64 .f32) (V1 m ρ c main_v45) (shapeCast S1x64 (arg m c main_arg11 : FVec Ideal S64 .f32) shapeCasts_S64_S1x64) := by
  show StableHlo.after hostOps0 (W0 m ρ c) (Proc.devRef .tc main_v45) = _
  after_results_simp
  all_goals rfl

theorem entry0_main_v46 (c : Dev nD) : @Eq (FVec Ideal S1x64 .f32) (V1 m ρ c main_v46) (shapeCast S1x64 (arg m c main_arg15 : FVec Ideal S64 .f32) shapeCasts_S64_S1x64) := by
  show StableHlo.after hostOps0 (W0 m ρ c) (Proc.devRef .tc main_v46) = _
  after_results_simp
  all_goals rfl

theorem entry0_main_v47 (c : Dev nD) : @Eq (FVec Ideal S1x64 .f32) (V1 m ρ c main_v47) (shapeCast S1x64 (arg m c main_arg18 : FVec Ideal S64x1 .f32) shapeCasts_S64x1_S1x64) := by
  show StableHlo.after hostOps0 (W0 m ρ c) (Proc.devRef .tc main_v47) = _
  after_results_simp
  all_goals rfl

theorem entry0_main_v48 (c : Dev nD) : @Eq (FVec Ideal S1x1 .f32) (V1 m ρ c main_v48) (shapeCast S1x1 (arg m c main_arg19 : FVec Ideal S1 .f32) shapeCasts_S1_S1x1) := by
  show StableHlo.after hostOps0 (W0 m ρ c) (Proc.devRef .tc main_v48) = _
  after_results_simp
  all_goals rfl

theorem entry0_main_v49 (c : Dev nD) : @Eq (FVec Ideal S1x64 .f32) (V1 m ρ c main_v49) (shapeCast S1x64 (arg m c main_arg22 : FVec Ideal S64x1 .f32) shapeCasts_S64x1_S1x64) := by
  show StableHlo.after hostOps0 (W0 m ρ c) (Proc.devRef .tc main_v49) = _
  after_results_simp
  all_goals rfl

theorem entry0_main_v50 (c : Dev nD) : @Eq (FVec Ideal S1x1 .f32) (V1 m ρ c main_v50) (shapeCast S1x1 (arg m c main_arg23 : FVec Ideal S1 .f32) shapeCasts_S1_S1x1) := by
  show StableHlo.after hostOps0 (W0 m ρ c) (Proc.devRef .tc main_v50) = _
  after_results_simp
  all_goals rfl

end Entry0

section Entry1

/-! ## What the second launch finds in its windows' arrays

Its host operations read arguments, which nothing before them writes, and the paper rows' neighbour mean, which the
first stretch of host operations wrote and the first launch does not touch. -/

theorem W2_main_arg1 (c : Dev nD) : W2 m ρ c (Proc.devRef .tc main_arg1) = arg m c main_arg1 :=
  (W2_of_ne m ρ c main_arg1 (by decide)).trans ((StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg8 (c : Dev nD) : W2 m ρ c (Proc.devRef .tc main_arg8) = arg m c main_arg8 :=
  (W2_of_ne m ρ c main_arg8 (by decide)).trans ((StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg26 (c : Dev nD) : W2 m ρ c (Proc.devRef .tc main_arg26) = arg m c main_arg26 :=
  (W2_of_ne m ρ c main_arg26 (by decide)).trans ((StableHlo.after_of_forall_not_mem (b := Proc.devRef .tc main_arg26) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg12 (c : Dev nD) : W2 m ρ c (Proc.devRef .tc main_arg12) = arg m c main_arg12 :=
  (W2_of_ne m ρ c main_arg12 (by decide)).trans ((StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg16 (c : Dev nD) : W2 m ρ c (Proc.devRef .tc main_arg16) = arg m c main_arg16 :=
  (W2_of_ne m ρ c main_arg16 (by decide)).trans ((StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg9 (c : Dev nD) : W2 m ρ c (Proc.devRef .tc main_arg9) = arg m c main_arg9 :=
  (W2_of_ne m ρ c main_arg9 (by decide)).trans ((StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg27 (c : Dev nD) : W2 m ρ c (Proc.devRef .tc main_arg27) = arg m c main_arg27 :=
  (W2_of_ne m ρ c main_arg27 (by decide)).trans ((StableHlo.after_of_forall_not_mem (b := Proc.devRef .tc main_arg27) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg13 (c : Dev nD) : W2 m ρ c (Proc.devRef .tc main_arg13) = arg m c main_arg13 :=
  (W2_of_ne m ρ c main_arg13 (by decide)).trans ((StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg17 (c : Dev nD) : W2 m ρ c (Proc.devRef .tc main_arg17) = arg m c main_arg17 :=
  (W2_of_ne m ρ c main_arg17 (by decide)).trans ((StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg20 (c : Dev nD) : W2 m ρ c (Proc.devRef .tc main_arg20) = arg m c main_arg20 :=
  (W2_of_ne m ρ c main_arg20 (by decide)).trans ((StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg21 (c : Dev nD) : W2 m ρ c (Proc.devRef .tc main_arg21) = arg m c main_arg21 :=
  (W2_of_ne m ρ c main_arg21 (by decide)).trans ((StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg24 (c : Dev nD) : W2 m ρ c (Proc.devRef .tc main_arg24) = arg m c main_arg24 :=
  (W2_of_ne m ρ c main_arg24 (by decide)).trans ((StableHlo.after_of_forall_not_mem (b := Proc.devRef .tc main_arg24) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_arg25 (c : Dev nD) : W2 m ρ c (Proc.devRef .tc main_arg25) = arg m c main_arg25 :=
  (W2_of_ne m ρ c main_arg25 (by decide)).trans ((StableHlo.after_of_forall_not_mem (b := Proc.devRef .tc main_arg25) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_main_v36 (c : Dev nD) : @Eq (FVec Ideal S80000x256 .f32) (W2 m ρ c (Proc.devRef .tc main_v36)) (aggP m c) :=
  (W2_of_ne m ρ c main_v36 (by decide)).trans (by
    show StableHlo.after hostOps0 (W0 m ρ c) (Proc.devRef .tc main_v36) = _
    after_results_simp
    all_goals rfl)

theorem entry1_main_v52 (c : Dev nD) : @Eq (FVec Ideal S80000x256 .bf16) (V3 m ρ c main_v52) (truncf .bf16 (arg m c main_arg1 : FVec Ideal S80000x256 .f32) bitsLt_bf16_f32) := by
  show StableHlo.after hostOps1 (W2 m ρ c) (Proc.devRef .tc main_v52) = _
  after_results
  rw [W2_main_arg1 m ρ c]
  all_goals rfl

theorem entry1_main_v53 (c : Dev nD) : @Eq (FVec Ideal S80000x256 .bf16) (V3 m ρ c main_v53) (truncf .bf16 (aggP m c) bitsLt_bf16_f32) := by
  show StableHlo.after hostOps1 (W2 m ρ c) (Proc.devRef .tc main_v53) = _
  after_results
  rw [W2_main_v36 m ρ c]
  all_goals rfl

theorem entry1_main_v54 (c : Dev nD) : @Eq (FVec Ideal S256x256 .bf16) (V3 m ρ c main_v54) (truncf .bf16 (arg m c main_arg8 : FVec Ideal S256x256 .f32) bitsLt_bf16_f32) := by
  show StableHlo.after hostOps1 (W2 m ρ c) (Proc.devRef .tc main_v54) = _
  after_results
  rw [W2_main_arg8 m ρ c]
  all_goals rfl

theorem entry1_main_v55 (c : Dev nD) : @Eq (FVec Ideal S256x256 .bf16) (V3 m ρ c main_v55) (truncf .bf16 (arg m c main_arg26 : FVec Ideal S256x256 .f32) bitsLt_bf16_f32) := by
  show StableHlo.after hostOps1 (W2 m ρ c) (Proc.devRef .tc main_v55) = _
  after_results
  rw [W2_main_arg26 m ρ c]
  all_goals rfl

theorem entry1_main_v56 (c : Dev nD) : @Eq (FVec Ideal S256x64 .bf16) (V3 m ρ c main_v56) (truncf .bf16 (arg m c main_arg12 : FVec Ideal S256x64 .f32) bitsLt_bf16_f32) := by
  show StableHlo.after hostOps1 (W2 m ρ c) (Proc.devRef .tc main_v56) = _
  after_results
  rw [W2_main_arg12 m ρ c]
  all_goals rfl

theorem entry1_main_v57 (c : Dev nD) : @Eq (FVec Ideal S256x64 .bf16) (V3 m ρ c main_v57) (truncf .bf16 (arg m c main_arg16 : FVec Ideal S256x64 .f32) bitsLt_bf16_f32) := by
  show StableHlo.after hostOps1 (W2 m ρ c) (Proc.devRef .tc main_v57) = _
  after_results
  rw [W2_main_arg16 m ρ c]
  all_goals rfl

theorem entry1_main_v58 (c : Dev nD) : @Eq (FVec Ideal S1x256 .f32) (V3 m ρ c main_v58) (shapeCast S1x256 (arg m c main_arg9 : FVec Ideal S256 .f32) shapeCasts_S256_S1x256) := by
  show StableHlo.after hostOps1 (W2 m ρ c) (Proc.devRef .tc main_v58) = _
  after_results
  rw [W2_main_arg9 m ρ c]
  all_goals rfl

theorem entry1_main_v59 (c : Dev nD) : @Eq (FVec Ideal S1x256 .f32) (V3 m ρ c main_v59) (shapeCast S1x256 (arg m c main_arg27 : FVec Ideal S256 .f32) shapeCasts_S256_S1x256) := by
  show StableHlo.after hostOps1 (W2 m ρ c) (Proc.devRef .tc main_v59) = _
  after_results
  rw [W2_main_arg27 m ρ c]
  all_goals rfl

theorem entry1_main_v60 (c : Dev nD) : @Eq (FVec Ideal S1x64 .f32) (V3 m ρ c main_v60) (shapeCast S1x64 (arg m c main_arg13 : FVec Ideal S64 .f32) shapeCasts_S64_S1x64) := by
  show StableHlo.after hostOps1 (W2 m ρ c) (Proc.devRef .tc main_v60) = _
  after_results
  rw [W2_main_arg13 m ρ c]
  all_goals rfl

theorem entry1_main_v61 (c : Dev nD) : @Eq (FVec Ideal S1x64 .f32) (V3 m ρ c main_v61) (shapeCast S1x64 (arg m c main_arg17 : FVec Ideal S64 .f32) shapeCasts_S64_S1x64) := by
  show StableHlo.after hostOps1 (W2 m ρ c) (Proc.devRef .tc main_v61) = _
  after_results
  rw [W2_main_arg17 m ρ c]
  all_goals rfl

theorem entry1_main_v62 (c : Dev nD) : @Eq (FVec Ideal S1x64 .f32) (V3 m ρ c main_v62) (shapeCast S1x64 (arg m c main_arg20 : FVec Ideal S64x1 .f32) shapeCasts_S64x1_S1x64) := by
  show StableHlo.after hostOps1 (W2 m ρ c) (Proc.devRef .tc main_v62) = _
  after_results
  rw [W2_main_arg20 m ρ c]
  all_goals rfl

theorem entry1_main_v63 (c : Dev nD) : @Eq (FVec Ideal S1x1 .f32) (V3 m ρ c main_v63) (shapeCast S1x1 (arg m c main_arg21 : FVec Ideal S1 .f32) shapeCasts_S1_S1x1) := by
  show StableHlo.after hostOps1 (W2 m ρ c) (Proc.devRef .tc main_v63) = _
  after_results
  rw [W2_main_arg21 m ρ c]
  all_goals rfl

theorem entry1_main_v64 (c : Dev nD) : @Eq (FVec Ideal S1x64 .f32) (V3 m ρ c main_v64) (shapeCast S1x64 (arg m c main_arg24 : FVec Ideal S64x1 .f32) shapeCasts_S64x1_S1x64) := by
  show StableHlo.after hostOps1 (W2 m ρ c) (Proc.devRef .tc main_v64) = _
  after_results
  rw [W2_main_arg24 m ρ c]
  all_goals rfl

theorem entry1_main_v65 (c : Dev nD) : @Eq (FVec Ideal S1x1 .f32) (V3 m ρ c main_v65) (shapeCast S1x1 (arg m c main_arg25 : FVec Ideal S1 .f32) shapeCasts_S1_S1x1) := by
  show StableHlo.after hostOps1 (W2 m ρ c) (Proc.devRef .tc main_v65) = _
  after_results
  rw [W2_main_arg25 m ρ c]
  all_goals rfl

end Entry1

/-! ## The two result arrays -/

/-- The first launch's result array is the layer on the author rows. -/
theorem result_a (c : Dev nD) :
    W4 m ρ c (Proc.devRef .tc main_v51)
      = nodeArr (paramsOfArgs (arg m c main_arg6) (arg m c main_arg7) (arg m c main_arg28) (arg m c main_arg29)
          (arg m c main_arg10) (arg m c main_arg11) (arg m c main_arg14) (arg m c main_arg15)
          (arg m c main_arg18) (arg m c main_arg19) (arg m c main_arg22) (arg m c main_arg23))
          (arg m c main_arg0) (aggA m c) := by
  have s1 : W4 m ρ c (Proc.devRef .tc main_v51) = W3 m ρ c (Proc.devRef .tc main_v51) := W4_of_ne m ρ c main_v51 (by decide)
  have s2 : W3 m ρ c (Proc.devRef .tc main_v51) = W2 m ρ c (Proc.devRef .tc main_v51) :=
    StableHlo.after_of_forall_not_mem (b := Proc.devRef .tc main_v51) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have s3 : W2 m ρ c (Proc.devRef .tc main_v51) = (dat0 (V1 m ρ) c).arrAt 14 cfg0.N := W2_arr m ρ c 14
  exact s1.trans (s2.trans (s3.trans ((final0 (V1 m ρ) c).trans
    (layer_of_entries (N := 40000) (V1 m ρ c main_v37) (V1 m ρ c main_v38) (V1 m ρ c main_v39) (V1 m ρ c main_v43) (V1 m ρ c main_v40) (V1 m ρ c main_v44) (V1 m ρ c main_v41) (V1 m ρ c main_v45) (V1 m ρ c main_v42) (V1 m ρ c main_v46) (V1 m ρ c main_v47) (V1 m ρ c main_v48) (V1 m ρ c main_v49) (V1 m ρ c main_v50)
      (arg m c main_arg0) (aggA m c) (arg m c main_arg6) (arg m c main_arg7) (arg m c main_arg28) (arg m c main_arg29) (arg m c main_arg10) (arg m c main_arg11) (arg m c main_arg14) (arg m c main_arg15) (arg m c main_arg18) (arg m c main_arg19) (arg m c main_arg22) (arg m c main_arg23)
      (entry0_main_v37 m ρ c) (entry0_main_v38 m ρ c) (entry0_main_v39 m ρ c) (entry0_main_v43 m ρ c) (entry0_main_v40 m ρ c) (entry0_main_v44 m ρ c) (entry0_main_v41 m ρ c) (entry0_main_v45 m ρ c) (entry0_main_v42 m ρ c) (entry0_main_v46 m ρ c) (entry0_main_v47 m ρ c) (entry0_main_v48 m ρ c) (entry0_main_v49 m ρ c) (entry0_main_v50 m ρ c)))))

/-- The second launch's result array is the layer on the paper rows. -/
theorem result_p (c : Dev nD) :
    W4 m ρ c (Proc.devRef .tc main_v66)
      = nodeArr (paramsOfArgs (arg m c main_arg8) (arg m c main_arg9) (arg m c main_arg26) (arg m c main_arg27)
          (arg m c main_arg12) (arg m c main_arg13) (arg m c main_arg16) (arg m c main_arg17)
          (arg m c main_arg20) (arg m c main_arg21) (arg m c main_arg24) (arg m c main_arg25))
          (arg m c main_arg1) (aggP m c) := by
  have s1 : W4 m ρ c (Proc.devRef .tc main_v66) = (dat1 (V3 m ρ) c).arrAt 14 cfg1.N := W4_arr m ρ c 14
  exact s1.trans ((final1 (V3 m ρ) c).trans
    (layer_of_entries (N := 80000) (V3 m ρ c main_v52) (V3 m ρ c main_v53) (V3 m ρ c main_v54) (V3 m ρ c main_v58) (V3 m ρ c main_v55) (V3 m ρ c main_v59) (V3 m ρ c main_v56) (V3 m ρ c main_v60) (V3 m ρ c main_v57) (V3 m ρ c main_v61) (V3 m ρ c main_v62) (V3 m ρ c main_v63) (V3 m ρ c main_v64) (V3 m ρ c main_v65)
      (arg m c main_arg1) (aggP m c) (arg m c main_arg8) (arg m c main_arg9) (arg m c main_arg26) (arg m c main_arg27) (arg m c main_arg12) (arg m c main_arg13) (arg m c main_arg16) (arg m c main_arg17) (arg m c main_arg20) (arg m c main_arg21) (arg m c main_arg24) (arg m c main_arg25)
      (entry1_main_v52 m ρ c) (entry1_main_v53 m ρ c) (entry1_main_v54 m ρ c) (entry1_main_v58 m ρ c) (entry1_main_v55 m ρ c) (entry1_main_v59 m ρ c) (entry1_main_v56 m ρ c) (entry1_main_v60 m ρ c) (entry1_main_v57 m ρ c) (entry1_main_v61 m ρ c) (entry1_main_v62 m ρ c) (entry1_main_v63 m ρ c) (entry1_main_v64 m ρ c) (entry1_main_v65 m ρ c)))

end Cert.KernelIdeal.Arrays

end
-- ==== Proof.RefOps.lean ====
import proofs.«161233_j27118423507478_1_alg».proof.Proof.Gen.ReferenceIdeal
import Idealize.ShloMosaic.Lib.StableHlo.Run

/-! The reference program's host operations, in program order, cut into windows of consecutive statements (a call
    replaced by the operations of the function it calls, at the call's own buffers), each window with the list of
    the buffers it writes; and @main as the run of the windows one after the other. -/

noncomputable section

namespace Cert.ReferenceIdeal.Ops

open Idealize.ShloMosaic Idealize.ShloMosaic.TcCoe Idealize.ShloMosaic.StableHlo Idealize.SL.Sem Cert.ReferenceIdeal Cert.ReferenceIdeal.Gen

variable {F : FTy → Type} [FloatOps F]

/-- Window A: 4 operations. -/
abbrev opsA : List (HloOp τ sig (Elt F)) :=
  [ StableHlo.binary main_arg0 main_arg6 main_v0 ((fun l r => Host.dotGeneral dot_S40000x256_S256x256_S40000x256_1_0_0_1_n_n none l r) : (⟨S40000x256, .f32⟩ : BufTy).Contents (Elt F) → (⟨S256x256, .f32⟩ : BufTy).Contents (Elt F) → (⟨S40000x256, .f32⟩ : BufTy).Contents (Elt F)),
    StableHlo.unary main_arg7 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S40000x256 ![0, 1] bcast_S1x256_S40000x256_0_1 : (⟨S1x256, .f32⟩ : BufTy).Contents (Elt F) → (⟨S40000x256, .f32⟩ : BufTy).Contents (Elt F)),
    StableHlo.binary main_v0 main_v2 main_v3 (addf : (⟨S40000x256, .f32⟩ : BufTy).Contents (Elt F) → (⟨S40000x256, .f32⟩ : BufTy).Contents (Elt F) → (⟨S40000x256, .f32⟩ : BufTy).Contents (Elt F)) ]
/-- The buffers window A writes. -/
abbrev opsA_W : List (Ref sig .tc) := [main_v0, main_v1, main_v2, main_v3]
set_option maxRecDepth 8192 in
theorem opsA_sub : (opsA : List (HloOp τ sig (Elt F))).Forall fun op => op.bufs ⊆ tcRefs τ sig :=
  ⟨binary_bufs_sub .., unary_bufs_sub .., unary_bufs_sub .., binary_bufs_sub ..⟩
set_option maxRecDepth 8192 in
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsA_fresh : (opsA : List (HloOp τ sig (Elt F))).Forall fun op => op.fresh = ∅ := by
  simp only [List.Forall]; repeat' constructor

/-- Window B: 4 operations. -/
abbrev opsB : List (HloOp τ sig (Elt F)) :=
  [ StableHlo.binary main_arg1 main_arg8 main_v4 ((fun l r => Host.dotGeneral dot_S80000x256_S256x256_S80000x256_1_0_0_1_n_n none l r) : (⟨S80000x256, .f32⟩ : BufTy).Contents (Elt F) → (⟨S256x256, .f32⟩ : BufTy).Contents (Elt F) → (⟨S80000x256, .f32⟩ : BufTy).Contents (Elt F)),
    StableHlo.unary main_arg9 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S80000x256 ![0, 1] bcast_S1x256_S80000x256_0_1 : (⟨S1x256, .f32⟩ : BufTy).Contents (Elt F) → (⟨S80000x256, .f32⟩ : BufTy).Contents (Elt F)),
    StableHlo.binary main_v4 main_v6 main_v7 (addf : (⟨S80000x256, .f32⟩ : BufTy).Contents (Elt F) → (⟨S80000x256, .f32⟩ : BufTy).Contents (Elt F) → (⟨S80000x256, .f32⟩ : BufTy).Contents (Elt F)) ]
/-- The buffers window B writes. -/
abbrev opsB_W : List (Ref sig .tc) := [main_v4, main_v5, main_v6, main_v7]
set_option maxRecDepth 8192 in
theorem opsB_sub : (opsB : List (HloOp τ sig (Elt F))).Forall fun op => op.bufs ⊆ tcRefs τ sig :=
  ⟨binary_bufs_sub .., unary_bufs_sub .., unary_bufs_sub .., binary_bufs_sub ..⟩
set_option maxRecDepth 8192 in
theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsB_fresh : (opsB : List (HloOp τ sig (Elt F))).Forall fun op => op.fresh = ∅ := by
  simp only [List.Forall]; repeat' constructor

/-- Window C: 29 operations. -/
abbrev opsC : List (HloOp τ sig (Elt F)) :=
  [ StableHlo.nullary main_cst (constant S_ .f32 0x3F800000#32),
    StableHlo.unary main_cst main_v8 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v9 (broadcastInDim S40000 ![] bcast_S_S40000 : (⟨S_, .f32⟩ : BufTy).Contents (Elt F) → (⟨S40000, .f32⟩ : BufTy).Contents (Elt F)),
    StableHlo.unary main_arg5 main_v10 (broadcastInDim S800000x1 ![0] bcast_S800000_S800000x1_0 : (⟨S800000, .i32⟩ : BufTy).Contents (Elt F) → (⟨S800000x1, .i32⟩ : BufTy).Contents (Elt F)),
    StableHlo.ternary main_v9 main_v10 main_v8 main_v11 ((fun x i u => Host.scatterAdd scatter_S40000_S800000x1_S800000_n_0_0_1 x i u) : (⟨S40000, .f32⟩ : BufTy).Contents (Elt F) → (⟨S800000x1, .i32⟩ : BufTy).Contents (Elt F) → (⟨S800000, .f32⟩ : BufTy).Contents (Elt F) → (⟨S40000, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_arg4 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 80000#32),
    StableHlo.unary main_c_1 main_v14 (broadcastInDim S800000 ![] bcast_S_S800000 : (⟨S_, .i32⟩ : BufTy).Contents (Elt F) → (⟨S800000, .i32⟩ : BufTy).Contents (Elt F)),
    StableHlo.binary main_arg4 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_arg4 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg1 main_v17 main_v18 ((fun x i => Host.gather gather_S80000x256_S800000x1_S800000x256_1_0_n_n_0_1_1256 x i) : (⟨S80000x256, .f32⟩ : BufTy).Contents (Elt F) → (⟨S800000x1, .i32⟩ : BufTy).Contents (Elt F) → (⟨S800000x256, .f32⟩ : BufTy).Contents (Elt F)),
    StableHlo.nullary main_cst_2 (constant S_ .f32 0x00000000#32),
    StableHlo.unary main_cst_2 main_v19 (broadcastInDim S40000x256 ![] bcast_S_S40000x256 : (⟨S_, .f32⟩ : BufTy).Contents (Elt F) → (⟨S40000x256, .f32⟩ : BufTy).Contents (Elt F)),
    StableHlo.unary main_arg5 main_v20 (broadcastInDim S800000x1 ![0] bcast_S800000_S800000x1_0 : (⟨S800000, .i32⟩ : BufTy).Contents (Elt F) → (⟨S800000x1, .i32⟩ : BufTy).Contents (Elt F)),
    StableHlo.ternary main_v19 main_v20 main_v18 main_v21 ((fun x i u => Host.scatterAdd scatter_S40000x256_S800000x1_S800000x256_1_0_0_1 x i u) : (⟨S40000x256, .f32⟩ : BufTy).Contents (Elt F) → (⟨S800000x1, .i32⟩ : BufTy).Contents (Elt F) → (⟨S800000x256, .f32⟩ : BufTy).Contents (Elt F) → (⟨S40000x256, .f32⟩ : BufTy).Contents (Elt F)),
    StableHlo.nullary main_cst_3 (constant S_ .f32 0x3F800000#32),
    StableHlo.unary main_cst_3 main_v22 (broadcastInDim S40000 ![] bcast_S_S40000 : (⟨S_, .f32⟩ : BufTy).Contents (Elt F) → (⟨S40000, .f32⟩ : BufTy).Contents (Elt F)),
    StableHlo.binary main_v11 main_v22 main_v23 (maximumf : (⟨S40000, .f32⟩ : BufTy).Contents (Elt F) → (⟨S40000, .f32⟩ : BufTy).Contents (Elt F) → (⟨S40000, .f32⟩ : BufTy).Contents (Elt F)),
    StableHlo.unary main_v23 main_v24 (broadcastInDim S40000x1 ![0] bcast_S40000_S40000x1_0 : (⟨S40000, .f32⟩ : BufTy).Contents (Elt F) → (⟨S40000x1, .f32⟩ : BufTy).Contents (Elt F)),
    StableHlo.unary main_v24 main_v25 (broadcastInDim S40000x256 ![0, 1] bcast_S40000x1_S40000x256_0_1 : (⟨S40000x1, .f32⟩ : BufTy).Contents (Elt F) → (⟨S40000x256, .f32⟩ : BufTy).Contents (Elt F)),
    StableHlo.binary main_v21 main_v25 main_v26 (Host.divf : (⟨S40000x256, .f32⟩ : BufTy).Contents (Elt F) → (⟨S40000x256, .f32⟩ : BufTy).Contents (Elt F) → (⟨S40000x256, .f32⟩ : BufTy).Contents (Elt F)),
    StableHlo.binary main_v26 main_arg28 main_v27 ((fun l r => Host.dotGeneral dot_S40000x256_S256x256_S40000x256_1_0_0_1_n_n none l r) : (⟨S40000x256, .f32⟩ : BufTy).Contents (Elt F) → (⟨S256x256, .f32⟩ : BufTy).Contents (Elt F) → (⟨S40000x256, .f32⟩ : BufTy).Contents (Elt F)),
    StableHlo.unary main_arg29 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S40000x256 ![0, 1] bcast_S1x256_S40000x256_0_1 : (⟨S1x256, .f32⟩ : BufTy).Contents (Elt F) → (⟨S40000x256, .f32⟩ : BufTy).Contents (Elt F)),
    StableHlo.binary main_v27 main_v29 main_v30 (addf : (⟨S40000x256, .f32⟩ : BufTy).Contents (Elt F) → (⟨S40000x256, .f32⟩ : BufTy).Contents (Elt F) → (⟨S40000x256, .f32⟩ : BufTy).Contents (Elt F)) ]
/-- The buffers window C writes. -/
abbrev opsC_W : List (Ref sig .tc) := [main_cst, main_v8, main_cst_0, main_v9, main_v10, main_v11, main_c, main_v12, main_v13, main_c_1, main_v14, main_v15, main_v16, main_v17, main_v18, main_cst_2, main_v19, main_v20, main_v21, main_cst_3, main_v22, main_v23, main_v24, main_v25, main_v26, main_v27, main_v28, main_v29, main_v30]
set_option maxRecDepth 8192 in
theorem opsC_sub : (opsC : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩
set_option maxRecDepth 8192 in
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsC_fresh : (opsC : List (HloOp τ sig (Elt F))).Forall fun op => op.fresh = ∅ := by
  simp only [List.Forall]; repeat' constructor

/-- Window D0: 23 operations. -/
abbrev opsD0 : List (HloOp τ sig (Elt F)) :=
  [ StableHlo.nullary main_cst_4 (constant S_ .f32 0x3F800000#32),
    StableHlo.unary main_cst_4 main_v31 (broadcastInDim S800000 ![] bcast_S_S800000 : (⟨S_, .f32⟩ : BufTy).Contents (Elt F) → (⟨S800000, .f32⟩ : BufTy).Contents (Elt F)),
    StableHlo.nullary main_cst_5 (constant S_ .f32 0x00000000#32),
    StableHlo.unary main_cst_5 main_v32 (broadcastInDim S80000 ![] bcast_S_S80000 : (⟨S_, .f32⟩ : BufTy).Contents (Elt F) → (⟨S80000, .f32⟩ : BufTy).Contents (Elt F)),
    StableHlo.unary main_arg3 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S80000_S800000x1_S800000_n_0_0_1 x i u) : (⟨S80000, .f32⟩ : BufTy).Contents (Elt F) → (⟨S800000x1, .i32⟩ : BufTy).Contents (Elt F) → (⟨S800000, .f32⟩ : BufTy).Contents (Elt F) → (⟨S80000, .f32⟩ : BufTy).Contents (Elt F)),
    StableHlo.nullary main_c_6 (constantI S_ 32 0#32),
    StableHlo.unary main_c_6 main_v35 (broadcastInDim S800000 ![] bcast_S_S800000 : (⟨S_, .i32⟩ : BufTy).Contents (Elt F) → (⟨S800000, .i32⟩ : BufTy).Contents (Elt F)),
    StableHlo.binary main_arg2 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 40000#32),
    StableHlo.unary main_c_7 main_v37 (broadcastInDim S800000 ![] bcast_S_S800000 : (⟨S_, .i32⟩ : BufTy).Contents (Elt F) → (⟨S800000, .i32⟩ : BufTy).Contents (Elt F)),
    StableHlo.binary main_arg2 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_arg2 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_arg0 main_v40 main_v41 ((fun x i => Host.gather gather_S40000x256_S800000x1_S800000x256_1_0_n_n_0_1_1256 x i) : (⟨S40000x256, .f32⟩ : BufTy).Contents (Elt F) → (⟨S800000x1, .i32⟩ : BufTy).Contents (Elt F) → (⟨S800000x256, .f32⟩ : BufTy).Contents (Elt F)),
    StableHlo.nullary main_cst_8 (constant S_ .f32 0x00000000#32),
    StableHlo.unary main_cst_8 main_v42 (broadcastInDim S80000x256 ![] bcast_S_S80000x256 : (⟨S_, .f32⟩ : BufTy).Contents (Elt F) → (⟨S80000x256, .f32⟩ : BufTy).Contents (Elt F)),
    StableHlo.unary main_arg3 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v41 main_v44 ((fun x i u => Host.scatterAdd scatter_S80000x256_S800000x1_S800000x256_1_0_0_1 x i u) : (⟨S80000x256, .f32⟩ : BufTy).Contents (Elt F) → (⟨S800000x1, .i32⟩ : BufTy).Contents (Elt F) → (⟨S800000x256, .f32⟩ : BufTy).Contents (Elt F) → (⟨S80000x256, .f32⟩ : BufTy).Contents (Elt F)),
    StableHlo.nullary main_cst_9 (constant S_ .f32 0x3F800000#32),
    StableHlo.unary main_cst_9 main_v45 (broadcastInDim S80000 ![] bcast_S_S80000 : (⟨S_, .f32⟩ : BufTy).Contents (Elt F) → (⟨S80000, .f32⟩ : BufTy).Contents (Elt F)),
    StableHlo.binary main_v34 main_v45 main_v46 (maximumf : (⟨S80000, .f32⟩ : BufTy).Contents (Elt F) → (⟨S80000, .f32⟩ : BufTy).Contents (Elt F) → (⟨S80000, .f32⟩ : BufTy).Contents (Elt F)),
    StableHlo.unary main_v46 main_v47 (broadcastInDim S80000x1 ![0] bcast_S80000_S80000x1_0 : (⟨S80000, .f32⟩ : BufTy).Contents (Elt F) → (⟨S80000x1, .f32⟩ : BufTy).Contents (Elt F)) ]
/-- The buffers window D0 writes. -/
abbrev opsD0_W : List (Ref sig .tc) := [main_cst_4, main_v31, main_cst_5, main_v32, main_v33, main_v34, main_c_6, main_v35, main_v36, main_c_7, main_v37, main_v38, main_v39, main_v40, main_v41, main_cst_8, main_v42, main_v43, main_v44, main_cst_9, main_v45, main_v46, main_v47]
set_option maxRecDepth 8192 in
theorem opsD0_sub : (opsD0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub ..⟩
set_option maxRecDepth 8192 in
theorem opsD0_writes : (opsD0 : List (HloOp τ sig (Elt F))).Forall fun op => op.writes ⊆ (opsD0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsD0_fresh : (opsD0 : List (HloOp τ sig (Elt F))).Forall fun op => op.fresh = ∅ := by
  simp only [List.Forall]; repeat' constructor

/-- Window D1: 6 operations. -/
abbrev opsD1 : List (HloOp τ sig (Elt F)) :=
  [ StableHlo.unary main_v47 main_v48 (broadcastInDim S80000x256 ![0, 1] bcast_S80000x1_S80000x256_0_1 : (⟨S80000x1, .f32⟩ : BufTy).Contents (Elt F) → (⟨S80000x256, .f32⟩ : BufTy).Contents (Elt F)),
    StableHlo.binary main_v44 main_v48 main_v49 (Host.divf : (⟨S80000x256, .f32⟩ : BufTy).Contents (Elt F) → (⟨S80000x256, .f32⟩ : BufTy).Contents (Elt F) → (⟨S80000x256, .f32⟩ : BufTy).Contents (Elt F)),
    StableHlo.binary main_v49 main_arg26 main_v50 ((fun l r => Host.dotGeneral dot_S80000x256_S256x256_S80000x256_1_0_0_1_n_n none l r) : (⟨S80000x256, .f32⟩ : BufTy).Contents (Elt F) → (⟨S256x256, .f32⟩ : BufTy).Contents (Elt F) → (⟨S80000x256, .f32⟩ : BufTy).Contents (Elt F)),
    StableHlo.unary main_arg27 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S80000x256 ![0, 1] bcast_S1x256_S80000x256_0_1 : (⟨S1x256, .f32⟩ : BufTy).Contents (Elt F) → (⟨S80000x256, .f32⟩ : BufTy).Contents (Elt F)),
    StableHlo.binary main_v50 main_v52 main_v53 (addf : (⟨S80000x256, .f32⟩ : BufTy).Contents (Elt F) → (⟨S80000x256, .f32⟩ : BufTy).Contents (Elt F) → (⟨S80000x256, .f32⟩ : BufTy).Contents (Elt F)) ]
/-- The buffers window D1 writes. -/
abbrev opsD1_W : List (Ref sig .tc) := [main_v48, main_v49, main_v50, main_v51, main_v52, main_v53]
set_option maxRecDepth 8192 in
theorem opsD1_sub : (opsD1 : List (HloOp τ sig (Elt F))).Forall fun op => op.bufs ⊆ tcRefs τ sig :=
  ⟨unary_bufs_sub .., binary_bufs_sub .., binary_bufs_sub .., unary_bufs_sub .., unary_bufs_sub .., binary_bufs_sub ..⟩
set_option maxRecDepth 8192 in
theorem opsD1_writes : (opsD1 : List (HloOp τ sig (Elt F))).Forall fun op => op.writes ⊆ (opsD1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsD1_fresh : (opsD1 : List (HloOp τ sig (Elt F))).Forall fun op => op.fresh = ∅ := by
  simp only [List.Forall]; repeat' constructor

/-- Window E1: 8 operations. -/
abbrev opsE1 : List (HloOp τ sig (Elt F)) :=
  [ StableHlo.binary main_v3 main_arg10 main_v54 ((fun l r => Host.dotGeneral dot_S40000x256_S256x64_S40000x64_1_0_0_1_n_n none l r) : (⟨S40000x256, .f32⟩ : BufTy).Contents (Elt F) → (⟨S256x64, .f32⟩ : BufTy).Contents (Elt F) → (⟨S40000x64, .f32⟩ : BufTy).Contents (Elt F)),
    StableHlo.unary main_arg11 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S40000x64 ![0, 1] bcast_S1x64_S40000x64_0_1 : (⟨S1x64, .f32⟩ : BufTy).Contents (Elt F) → (⟨S40000x64, .f32⟩ : BufTy).Contents (Elt F)),
    StableHlo.binary main_v54 main_v56 main_v57 (addf : (⟨S40000x64, .f32⟩ : BufTy).Contents (Elt F) → (⟨S40000x64, .f32⟩ : BufTy).Contents (Elt F) → (⟨S40000x64, .f32⟩ : BufTy).Contents (Elt F)),
    StableHlo.binary main_v57 main_arg22 main_v58 ((fun l r => Host.dotGeneral dot_S40000x64_S64x1_S40000x1_1_0_0_1_n_n none l r) : (⟨S40000x64, .f32⟩ : BufTy).Contents (Elt F) → (⟨S64x1, .f32⟩ : BufTy).Contents (Elt F) → (⟨S40000x1, .f32⟩ : BufTy).Contents (Elt F)),
    StableHlo.unary main_arg23 main_v59 (broadcastInDim S1x1 ![1] bcast_S1_S1x1_1 : (⟨S1, .f32⟩ : BufTy).Contents (Elt F) → (⟨S1x1, .f32⟩ : BufTy).Contents (Elt F)),
    StableHlo.unary main_v59 main_v60 (broadcastInDim S40000x1 ![0, 1] bcast_S1x1_S40000x1_0_1 : (⟨S1x1, .f32⟩ : BufTy).Contents (Elt F) → (⟨S40000x1, .f32⟩ : BufTy).Contents (Elt F)),
    StableHlo.binary main_v58 main_v60 main_v61 (addf : (⟨S40000x1, .f32⟩ : BufTy).Contents (Elt F) → (⟨S40000x1, .f32⟩ : BufTy).Contents (Elt F) → (⟨S40000x1, .f32⟩ : BufTy).Contents (Elt F)) ]
/-- The buffers window E1 writes. -/
abbrev opsE1_W : List (Ref sig .tc) := [main_v54, main_v55, main_v56, main_v57, main_v58, main_v59, main_v60, main_v61]
set_option maxRecDepth 8192 in
theorem opsE1_sub : (opsE1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
set_option maxRecDepth 8192 in
theorem opsE1_writes : (opsE1 : List (HloOp τ sig (Elt F))).Forall fun op => op.writes ⊆ (opsE1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsE1_fresh : (opsE1 : List (HloOp τ sig (Elt F))).Forall fun op => op.fresh = ∅ := by
  simp only [List.Forall]; repeat' constructor

/-- Window E2: 24 operations. -/
abbrev opsE2 : List (HloOp τ sig (Elt F)) :=
  [ StableHlo.binary main_v3 main_arg14 main_v62 ((fun l r => Host.dotGeneral dot_S40000x256_S256x64_S40000x64_1_0_0_1_n_n none l r) : (⟨S40000x256, .f32⟩ : BufTy).Contents (Elt F) → (⟨S256x64, .f32⟩ : BufTy).Contents (Elt F) → (⟨S40000x64, .f32⟩ : BufTy).Contents (Elt F)),
    StableHlo.unary main_arg15 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S40000x64 ![0, 1] bcast_S1x64_S40000x64_0_1 : (⟨S1x64, .f32⟩ : BufTy).Contents (Elt F) → (⟨S40000x64, .f32⟩ : BufTy).Contents (Elt F)),
    StableHlo.binary main_v62 main_v64 main_v65 (addf : (⟨S40000x64, .f32⟩ : BufTy).Contents (Elt F) → (⟨S40000x64, .f32⟩ : BufTy).Contents (Elt F) → (⟨S40000x64, .f32⟩ : BufTy).Contents (Elt F)),
    StableHlo.binary main_v65 main_arg18 main_v66 ((fun l r => Host.dotGeneral dot_S40000x64_S64x1_S40000x1_1_0_0_1_n_n none l r) : (⟨S40000x64, .f32⟩ : BufTy).Contents (Elt F) → (⟨S64x1, .f32⟩ : BufTy).Contents (Elt F) → (⟨S40000x1, .f32⟩ : BufTy).Contents (Elt F)),
    StableHlo.unary main_arg19 main_v67 (broadcastInDim S1x1 ![1] bcast_S1_S1x1_1 : (⟨S1, .f32⟩ : BufTy).Contents (Elt F) → (⟨S1x1, .f32⟩ : BufTy).Contents (Elt F)),
    StableHlo.unary main_v67 main_v68 (broadcastInDim S40000x1 ![0, 1] bcast_S1x1_S40000x1_0_1 : (⟨S1x1, .f32⟩ : BufTy).Contents (Elt F) → (⟨S40000x1, .f32⟩ : BufTy).Contents (Elt F)),
    StableHlo.binary main_v66 main_v68 main_v69 (addf : (⟨S40000x1, .f32⟩ : BufTy).Contents (Elt F) → (⟨S40000x1, .f32⟩ : BufTy).Contents (Elt F) → (⟨S40000x1, .f32⟩ : BufTy).Contents (Elt F)),
    StableHlo.binary main_v69 main_v61 main_v70 (addf : (⟨S40000x1, .f32⟩ : BufTy).Contents (Elt F) → (⟨S40000x1, .f32⟩ : BufTy).Contents (Elt F) → (⟨S40000x1, .f32⟩ : BufTy).Contents (Elt F)),
    StableHlo.TRef.nullary main_call0.cst (constant S_ .f32 0x00000000#32),
    StableHlo.TRef.unary main_call0.cst main_call0.v0 (broadcastInDim S40000x1 ![] bcast_S_S40000x1),
    StableHlo.TRef.binary (.of main_v70) main_call0.v0 main_call0.v1 (cmpf .ogt),
    StableHlo.TRef.nullary main_call0.cst_0 (constant S_ .f32 0x00000000#32),
    StableHlo.TRef.unary main_call0.cst_0 main_call0.v2 (broadcastInDim S40000x1 ![] bcast_S_S40000x1),
    StableHlo.TRef.binary (.of main_v70) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S40000x1 ![] bcast_S_S40000x1),
    StableHlo.TRef.ternary main_call0.v3 main_call0.call0.v1 (.of main_v70) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S40000x1 ![] bcast_S_S40000x1),
    StableHlo.TRef.binary main_call0.v6 main_call0.v5 main_call0.v7 mulf,
    StableHlo.TRef.ternary main_call0.v1 (.of main_v70) main_call0.v7 main_call0.call1.v0 select ]
/-- The buffers window E2 writes. -/
abbrev opsE2_W : List (Ref sig .tc) := [main_v62, main_v63, main_v64, main_v65, main_v66, main_v67, main_v68, main_v69, main_v70, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v71]
set_option maxRecDepth 8192 in
theorem opsE2_sub : (opsE2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsE2_writes : (opsE2 : List (HloOp τ sig (Elt F))).Forall fun op => op.writes ⊆ (opsE2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsE2_fresh : (opsE2 : List (HloOp τ sig (Elt F))).Forall fun op => op.fresh = ∅ := by
  simp only [List.Forall]; repeat' constructor

/-- Window E3: 24 operations. -/
abbrev opsE3 : List (HloOp τ sig (Elt F)) :=
  [ StableHlo.binary main_v30 main_arg14 main_v72 ((fun l r => Host.dotGeneral dot_S40000x256_S256x64_S40000x64_1_0_0_1_n_n none l r) : (⟨S40000x256, .f32⟩ : BufTy).Contents (Elt F) → (⟨S256x64, .f32⟩ : BufTy).Contents (Elt F) → (⟨S40000x64, .f32⟩ : BufTy).Contents (Elt F)),
    StableHlo.unary main_arg15 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S40000x64 ![0, 1] bcast_S1x64_S40000x64_0_1 : (⟨S1x64, .f32⟩ : BufTy).Contents (Elt F) → (⟨S40000x64, .f32⟩ : BufTy).Contents (Elt F)),
    StableHlo.binary main_v72 main_v74 main_v75 (addf : (⟨S40000x64, .f32⟩ : BufTy).Contents (Elt F) → (⟨S40000x64, .f32⟩ : BufTy).Contents (Elt F) → (⟨S40000x64, .f32⟩ : BufTy).Contents (Elt F)),
    StableHlo.binary main_v75 main_arg18 main_v76 ((fun l r => Host.dotGeneral dot_S40000x64_S64x1_S40000x1_1_0_0_1_n_n none l r) : (⟨S40000x64, .f32⟩ : BufTy).Contents (Elt F) → (⟨S64x1, .f32⟩ : BufTy).Contents (Elt F) → (⟨S40000x1, .f32⟩ : BufTy).Contents (Elt F)),
    StableHlo.unary main_arg19 main_v77 (broadcastInDim S1x1 ![1] bcast_S1_S1x1_1 : (⟨S1, .f32⟩ : BufTy).Contents (Elt F) → (⟨S1x1, .f32⟩ : BufTy).Contents (Elt F)),
    StableHlo.unary main_v77 main_v78 (broadcastInDim S40000x1 ![0, 1] bcast_S1x1_S40000x1_0_1 : (⟨S1x1, .f32⟩ : BufTy).Contents (Elt F) → (⟨S40000x1, .f32⟩ : BufTy).Contents (Elt F)),
    StableHlo.binary main_v76 main_v78 main_v79 (addf : (⟨S40000x1, .f32⟩ : BufTy).Contents (Elt F) → (⟨S40000x1, .f32⟩ : BufTy).Contents (Elt F) → (⟨S40000x1, .f32⟩ : BufTy).Contents (Elt F)),
    StableHlo.binary main_v79 main_v61 main_v80 (addf : (⟨S40000x1, .f32⟩ : BufTy).Contents (Elt F) → (⟨S40000x1, .f32⟩ : BufTy).Contents (Elt F) → (⟨S40000x1, .f32⟩ : BufTy).Contents (Elt F)),
    StableHlo.TRef.nullary main_call1.cst (constant S_ .f32 0x00000000#32),
    StableHlo.TRef.unary main_call1.cst main_call1.v0 (broadcastInDim S40000x1 ![] bcast_S_S40000x1),
    StableHlo.TRef.binary (.of main_v80) main_call1.v0 main_call1.v1 (cmpf .ogt),
    StableHlo.TRef.nullary main_call1.cst_0 (constant S_ .f32 0x00000000#32),
    StableHlo.TRef.unary main_call1.cst_0 main_call1.v2 (broadcastInDim S40000x1 ![] bcast_S_S40000x1),
    StableHlo.TRef.binary (.of main_v80) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S40000x1 ![] bcast_S_S40000x1),
    StableHlo.TRef.ternary main_call1.v3 main_call1.call0.v1 (.of main_v80) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S40000x1 ![] bcast_S_S40000x1),
    StableHlo.TRef.binary main_call1.v6 main_call1.v5 main_call1.v7 mulf,
    StableHlo.TRef.ternary main_call1.v1 (.of main_v80) main_call1.v7 main_call1.call1.v0 select ]
/-- The buffers window E3 writes. -/
abbrev opsE3_W : List (Ref sig .tc) := [main_v72, main_v73, main_v74, main_v75, main_v76, main_v77, main_v78, main_v79, main_v80, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v81]
set_option maxRecDepth 8192 in
theorem opsE3_sub : (opsE3 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsE3_writes : (opsE3 : List (HloOp τ sig (Elt F))).Forall fun op => op.writes ⊆ (opsE3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsE3_fresh : (opsE3 : List (HloOp τ sig (Elt F))).Forall fun op => op.fresh = ∅ := by
  simp only [List.Forall]; repeat' constructor

/-- Window E4: 26 operations. -/
abbrev opsE4 : List (HloOp τ sig (Elt F)) :=
  [ StableHlo.unary main_v71 main_v82 (broadcastInDim S1x40000x1 ![1, 2] bcast_S40000x1_S1x40000x1_1_2 : (⟨S40000x1, .f32⟩ : BufTy).Contents (Elt F) → (⟨S1x40000x1, .f32⟩ : BufTy).Contents (Elt F)),
    StableHlo.unary main_v81 main_v83 (broadcastInDim S1x40000x1 ![1, 2] bcast_S40000x1_S1x40000x1_1_2 : (⟨S40000x1, .f32⟩ : BufTy).Contents (Elt F) → (⟨S1x40000x1, .f32⟩ : BufTy).Contents (Elt F)),
    StableHlo.binary main_v82 main_v83 main_v84 ((fun a b => concatenate S2x40000x1 0 [⟨S1x40000x1, a⟩, ⟨S1x40000x1, b⟩] concatenates_S1x40000x1_S1x40000x1_S2x40000x1_d0) : (⟨S1x40000x1, .f32⟩ : BufTy).Contents (Elt F) → (⟨S1x40000x1, .f32⟩ : BufTy).Contents (Elt F) → (⟨S2x40000x1, .f32⟩ : BufTy).Contents (Elt F)),
    StableHlo.nullary main_cst_10 (constant S_ .f32 0xFF800000#32),
    StableHlo.binary main_v84 main_cst_10 main_v85 ((fun x v => Host.reduce FloatOps.maximumf x v reducesTo_S2x40000x1_S40000x1_d0 h_S_) : (⟨S2x40000x1, .f32⟩ : BufTy).Contents (Elt F) → (⟨S_, .f32⟩ : BufTy).Contents (Elt F) → (⟨S40000x1, .f32⟩ : BufTy).Contents (Elt F)),
    StableHlo.nullary main_cst_11 (constant S_ .f32 0xFF800000#32),
    StableHlo.unary main_cst_11 main_v86 (broadcastInDim S40000x1 ![] bcast_S_S40000x1 : (⟨S_, .f32⟩ : BufTy).Contents (Elt F) → (⟨S40000x1, .f32⟩ : BufTy).Contents (Elt F)),
    StableHlo.binary main_v86 main_v85 main_v87 (maximumf : (⟨S40000x1, .f32⟩ : BufTy).Contents (Elt F) → (⟨S40000x1, .f32⟩ : BufTy).Contents (Elt F) → (⟨S40000x1, .f32⟩ : BufTy).Contents (Elt F)),
    StableHlo.unary main_v87 main_v88 (broadcastInDim S1x40000x1 ![1, 2] bcast_S40000x1_S1x40000x1_1_2 : (⟨S40000x1, .f32⟩ : BufTy).Contents (Elt F) → (⟨S1x40000x1, .f32⟩ : BufTy).Contents (Elt F)),
    StableHlo.unary main_v88 main_v89 (broadcastInDim S2x40000x1 ![0, 1, 2] bcast_S1x40000x1_S2x40000x1_0_1_2 : (⟨S1x40000x1, .f32⟩ : BufTy).Contents (Elt F) → (⟨S2x40000x1, .f32⟩ : BufTy).Contents (Elt F)),
    StableHlo.binary main_v84 main_v89 main_v90 (subf : (⟨S2x40000x1, .f32⟩ : BufTy).Contents (Elt F) → (⟨S2x40000x1, .f32⟩ : BufTy).Contents (Elt F) → (⟨S2x40000x1, .f32⟩ : BufTy).Contents (Elt F)),
    StableHlo.unary main_v90 main_v91 (Host.exp : (⟨S2x40000x1, .f32⟩ : BufTy).Contents (Elt F) → (⟨S2x40000x1, .f32⟩ : BufTy).Contents (Elt F)),
    StableHlo.nullary main_cst_12 (constant S_ .f32 0x00000000#32),
    StableHlo.binary main_v91 main_cst_12 main_v92 ((fun x v => Host.reduceAdd x v reducesTo_S2x40000x1_S40000x1_d0 h_S_) : (⟨S2x40000x1, .f32⟩ : BufTy).Contents (Elt F) → (⟨S_, .f32⟩ : BufTy).Contents (Elt F) → (⟨S40000x1, .f32⟩ : BufTy).Contents (Elt F)),
    StableHlo.unary main_v92 main_v93 (broadcastInDim S1x40000x1 ![1, 2] bcast_S40000x1_S1x40000x1_1_2 : (⟨S40000x1, .f32⟩ : BufTy).Contents (Elt F) → (⟨S1x40000x1, .f32⟩ : BufTy).Contents (Elt F)),
    StableHlo.unary main_v93 main_v94 (broadcastInDim S2x40000x1 ![0, 1, 2] bcast_S1x40000x1_S2x40000x1_0_1_2 : (⟨S1x40000x1, .f32⟩ : BufTy).Contents (Elt F) → (⟨S2x40000x1, .f32⟩ : BufTy).Contents (Elt F)),
    StableHlo.binary main_v91 main_v94 main_v95 (Host.divf : (⟨S2x40000x1, .f32⟩ : BufTy).Contents (Elt F) → (⟨S2x40000x1, .f32⟩ : BufTy).Contents (Elt F) → (⟨S2x40000x1, .f32⟩ : BufTy).Contents (Elt F)),
    StableHlo.unary main_v95 main_v96 ((extractStridedSlice S1x40000x1 ![0, 0, 0] · slices_S2x40000x1_S1x40000x1_0_0_0) : (⟨S2x40000x1, .f32⟩ : BufTy).Contents (Elt F) → (⟨S1x40000x1, .f32⟩ : BufTy).Contents (Elt F)),
    StableHlo.reshape main_v96 main_v97 rfl shapeCasts_S1x40000x1_S40000x1,
    StableHlo.unary main_v97 main_v98 (broadcastInDim S40000x256 ![0, 1] bcast_S40000x1_S40000x256_0_1 : (⟨S40000x1, .f32⟩ : BufTy).Contents (Elt F) → (⟨S40000x256, .f32⟩ : BufTy).Contents (Elt F)),
    StableHlo.binary main_v98 main_v3 main_v99 (mulf : (⟨S40000x256, .f32⟩ : BufTy).Contents (Elt F) → (⟨S40000x256, .f32⟩ : BufTy).Contents (Elt F) → (⟨S40000x256, .f32⟩ : BufTy).Contents (Elt F)),
    StableHlo.unary main_v95 main_v100 ((extractStridedSlice S1x40000x1 ![1, 0, 0] · slices_S2x40000x1_S1x40000x1_1_0_0) : (⟨S2x40000x1, .f32⟩ : BufTy).Contents (Elt F) → (⟨S1x40000x1, .f32⟩ : BufTy).Contents (Elt F)),
    StableHlo.reshape main_v100 main_v101 rfl shapeCasts_S1x40000x1_S40000x1,
    StableHlo.unary main_v101 main_v102 (broadcastInDim S40000x256 ![0, 1] bcast_S40000x1_S40000x256_0_1 : (⟨S40000x1, .f32⟩ : BufTy).Contents (Elt F) → (⟨S40000x256, .f32⟩ : BufTy).Contents (Elt F)),
    StableHlo.binary main_v102 main_v30 main_v103 (mulf : (⟨S40000x256, .f32⟩ : BufTy).Contents (Elt F) → (⟨S40000x256, .f32⟩ : BufTy).Contents (Elt F) → (⟨S40000x256, .f32⟩ : BufTy).Contents (Elt F)),
    StableHlo.binary main_v99 main_v103 main_v104 (addf : (⟨S40000x256, .f32⟩ : BufTy).Contents (Elt F) → (⟨S40000x256, .f32⟩ : BufTy).Contents (Elt F) → (⟨S40000x256, .f32⟩ : BufTy).Contents (Elt F)) ]
/-- The buffers window E4 writes. -/
abbrev opsE4_W : List (Ref sig .tc) := [main_v82, main_v83, main_v84, main_cst_10, main_v85, main_cst_11, main_v86, main_v87, main_v88, main_v89, main_v90, main_v91, main_cst_12, main_v92, main_v93, main_v94, main_v95, main_v96, main_v97, main_v98, main_v99, main_v100, main_v101, main_v102, main_v103, main_v104]
set_option maxRecDepth 8192 in
theorem opsE4_sub : (opsE4 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub ..⟩
set_option maxRecDepth 8192 in
theorem opsE4_writes : (opsE4 : List (HloOp τ sig (Elt F))).Forall fun op => op.writes ⊆ (opsE4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsE4_fresh : (opsE4 : List (HloOp τ sig (Elt F))).Forall fun op => op.fresh = ∅ := by
  simp only [List.Forall]; repeat' constructor

/-- Window E5: 15 operations. -/
abbrev opsE5 : List (HloOp τ sig (Elt F)) :=
  [ StableHlo.TRef.nullary main_call2.cst (constant S_ .f32 0x00000000#32),
    StableHlo.TRef.unary main_call2.cst main_call2.v0 (broadcastInDim S40000x256 ![] bcast_S_S40000x256),
    StableHlo.TRef.binary (.of main_v104) main_call2.v0 main_call2.v1 (cmpf .ogt),
    StableHlo.TRef.nullary main_call2.cst_0 (constant S_ .f32 0x00000000#32),
    StableHlo.TRef.unary main_call2.cst_0 main_call2.v2 (broadcastInDim S40000x256 ![] bcast_S_S40000x256),
    StableHlo.TRef.binary (.of main_v104) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S40000x256 ![] bcast_S_S40000x256),
    StableHlo.TRef.ternary main_call2.v3 main_call2.call0.v1 (.of main_v104) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S40000x256 ![] bcast_S_S40000x256),
    StableHlo.TRef.binary main_call2.v6 main_call2.v5 main_call2.v7 mulf,
    StableHlo.TRef.ternary main_call2.v1 (.of main_v104) main_call2.v7 main_call2.call1.v0 select ]
/-- The buffers window E5 writes. -/
abbrev opsE5_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v105]
set_option maxRecDepth 8192 in
theorem opsE5_sub : (opsE5 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsE5_writes : (opsE5 : List (HloOp τ sig (Elt F))).Forall fun op => op.writes ⊆ (opsE5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsE5_fresh : (opsE5 : List (HloOp τ sig (Elt F))).Forall fun op => op.fresh = ∅ := by
  simp only [List.Forall]; repeat' constructor

/-- Window F1: 8 operations. -/
abbrev opsF1 : List (HloOp τ sig (Elt F)) :=
  [ StableHlo.binary main_v7 main_arg12 main_v106 ((fun l r => Host.dotGeneral dot_S80000x256_S256x64_S80000x64_1_0_0_1_n_n none l r) : (⟨S80000x256, .f32⟩ : BufTy).Contents (Elt F) → (⟨S256x64, .f32⟩ : BufTy).Contents (Elt F) → (⟨S80000x64, .f32⟩ : BufTy).Contents (Elt F)),
    StableHlo.unary main_arg13 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S80000x64 ![0, 1] bcast_S1x64_S80000x64_0_1 : (⟨S1x64, .f32⟩ : BufTy).Contents (Elt F) → (⟨S80000x64, .f32⟩ : BufTy).Contents (Elt F)),
    StableHlo.binary main_v106 main_v108 main_v109 (addf : (⟨S80000x64, .f32⟩ : BufTy).Contents (Elt F) → (⟨S80000x64, .f32⟩ : BufTy).Contents (Elt F) → (⟨S80000x64, .f32⟩ : BufTy).Contents (Elt F)),
    StableHlo.binary main_v109 main_arg24 main_v110 ((fun l r => Host.dotGeneral dot_S80000x64_S64x1_S80000x1_1_0_0_1_n_n none l r) : (⟨S80000x64, .f32⟩ : BufTy).Contents (Elt F) → (⟨S64x1, .f32⟩ : BufTy).Contents (Elt F) → (⟨S80000x1, .f32⟩ : BufTy).Contents (Elt F)),
    StableHlo.unary main_arg25 main_v111 (broadcastInDim S1x1 ![1] bcast_S1_S1x1_1 : (⟨S1, .f32⟩ : BufTy).Contents (Elt F) → (⟨S1x1, .f32⟩ : BufTy).Contents (Elt F)),
    StableHlo.unary main_v111 main_v112 (broadcastInDim S80000x1 ![0, 1] bcast_S1x1_S80000x1_0_1 : (⟨S1x1, .f32⟩ : BufTy).Contents (Elt F) → (⟨S80000x1, .f32⟩ : BufTy).Contents (Elt F)),
    StableHlo.binary main_v110 main_v112 main_v113 (addf : (⟨S80000x1, .f32⟩ : BufTy).Contents (Elt F) → (⟨S80000x1, .f32⟩ : BufTy).Contents (Elt F) → (⟨S80000x1, .f32⟩ : BufTy).Contents (Elt F)) ]
/-- The buffers window F1 writes. -/
abbrev opsF1_W : List (Ref sig .tc) := [main_v106, main_v107, main_v108, main_v109, main_v110, main_v111, main_v112, main_v113]
set_option maxRecDepth 8192 in
theorem opsF1_sub : (opsF1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
set_option maxRecDepth 8192 in
theorem opsF1_writes : (opsF1 : List (HloOp τ sig (Elt F))).Forall fun op => op.writes ⊆ (opsF1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsF1_fresh : (opsF1 : List (HloOp τ sig (Elt F))).Forall fun op => op.fresh = ∅ := by
  simp only [List.Forall]; repeat' constructor

/-- Window F2: 24 operations. -/
abbrev opsF2 : List (HloOp τ sig (Elt F)) :=
  [ StableHlo.binary main_v7 main_arg16 main_v114 ((fun l r => Host.dotGeneral dot_S80000x256_S256x64_S80000x64_1_0_0_1_n_n none l r) : (⟨S80000x256, .f32⟩ : BufTy).Contents (Elt F) → (⟨S256x64, .f32⟩ : BufTy).Contents (Elt F) → (⟨S80000x64, .f32⟩ : BufTy).Contents (Elt F)),
    StableHlo.unary main_arg17 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S80000x64 ![0, 1] bcast_S1x64_S80000x64_0_1 : (⟨S1x64, .f32⟩ : BufTy).Contents (Elt F) → (⟨S80000x64, .f32⟩ : BufTy).Contents (Elt F)),
    StableHlo.binary main_v114 main_v116 main_v117 (addf : (⟨S80000x64, .f32⟩ : BufTy).Contents (Elt F) → (⟨S80000x64, .f32⟩ : BufTy).Contents (Elt F) → (⟨S80000x64, .f32⟩ : BufTy).Contents (Elt F)),
    StableHlo.binary main_v117 main_arg20 main_v118 ((fun l r => Host.dotGeneral dot_S80000x64_S64x1_S80000x1_1_0_0_1_n_n none l r) : (⟨S80000x64, .f32⟩ : BufTy).Contents (Elt F) → (⟨S64x1, .f32⟩ : BufTy).Contents (Elt F) → (⟨S80000x1, .f32⟩ : BufTy).Contents (Elt F)),
    StableHlo.unary main_arg21 main_v119 (broadcastInDim S1x1 ![1] bcast_S1_S1x1_1 : (⟨S1, .f32⟩ : BufTy).Contents (Elt F) → (⟨S1x1, .f32⟩ : BufTy).Contents (Elt F)),
    StableHlo.unary main_v119 main_v120 (broadcastInDim S80000x1 ![0, 1] bcast_S1x1_S80000x1_0_1 : (⟨S1x1, .f32⟩ : BufTy).Contents (Elt F) → (⟨S80000x1, .f32⟩ : BufTy).Contents (Elt F)),
    StableHlo.binary main_v118 main_v120 main_v121 (addf : (⟨S80000x1, .f32⟩ : BufTy).Contents (Elt F) → (⟨S80000x1, .f32⟩ : BufTy).Contents (Elt F) → (⟨S80000x1, .f32⟩ : BufTy).Contents (Elt F)),
    StableHlo.binary main_v121 main_v113 main_v122 (addf : (⟨S80000x1, .f32⟩ : BufTy).Contents (Elt F) → (⟨S80000x1, .f32⟩ : BufTy).Contents (Elt F) → (⟨S80000x1, .f32⟩ : BufTy).Contents (Elt F)),
    StableHlo.TRef.nullary main_call3.cst (constant S_ .f32 0x00000000#32),
    StableHlo.TRef.unary main_call3.cst main_call3.v0 (broadcastInDim S80000x1 ![] bcast_S_S80000x1),
    StableHlo.TRef.binary (.of main_v122) main_call3.v0 main_call3.v1 (cmpf .ogt),
    StableHlo.TRef.nullary main_call3.cst_0 (constant S_ .f32 0x00000000#32),
    StableHlo.TRef.unary main_call3.cst_0 main_call3.v2 (broadcastInDim S80000x1 ![] bcast_S_S80000x1),
    StableHlo.TRef.binary (.of main_v122) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S80000x1 ![] bcast_S_S80000x1),
    StableHlo.TRef.ternary main_call3.v3 main_call3.call0.v1 (.of main_v122) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S80000x1 ![] bcast_S_S80000x1),
    StableHlo.TRef.binary main_call3.v6 main_call3.v5 main_call3.v7 mulf,
    StableHlo.TRef.ternary main_call3.v1 (.of main_v122) main_call3.v7 main_call3.call1.v0 select ]
/-- The buffers window F2 writes. -/
abbrev opsF2_W : List (Ref sig .tc) := [main_v114, main_v115, main_v116, main_v117, main_v118, main_v119, main_v120, main_v121, main_v122, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v123]
set_option maxRecDepth 8192 in
theorem opsF2_sub : (opsF2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsF2_writes : (opsF2 : List (HloOp τ sig (Elt F))).Forall fun op => op.writes ⊆ (opsF2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsF2_fresh : (opsF2 : List (HloOp τ sig (Elt F))).Forall fun op => op.fresh = ∅ := by
  simp only [List.Forall]; repeat' constructor

/-- Window F3: 24 operations. -/
abbrev opsF3 : List (HloOp τ sig (Elt F)) :=
  [ StableHlo.binary main_v53 main_arg16 main_v124 ((fun l r => Host.dotGeneral dot_S80000x256_S256x64_S80000x64_1_0_0_1_n_n none l r) : (⟨S80000x256, .f32⟩ : BufTy).Contents (Elt F) → (⟨S256x64, .f32⟩ : BufTy).Contents (Elt F) → (⟨S80000x64, .f32⟩ : BufTy).Contents (Elt F)),
    StableHlo.unary main_arg17 main_v125 (broadcastInDim S1x64 ![1] bcast_S64_S1x64_1 : (⟨S64, .f32⟩ : BufTy).Contents (Elt F) → (⟨S1x64, .f32⟩ : BufTy).Contents (Elt F)),
    StableHlo.unary main_v125 main_v126 (broadcastInDim S80000x64 ![0, 1] bcast_S1x64_S80000x64_0_1 : (⟨S1x64, .f32⟩ : BufTy).Contents (Elt F) → (⟨S80000x64, .f32⟩ : BufTy).Contents (Elt F)),
    StableHlo.binary main_v124 main_v126 main_v127 (addf : (⟨S80000x64, .f32⟩ : BufTy).Contents (Elt F) → (⟨S80000x64, .f32⟩ : BufTy).Contents (Elt F) → (⟨S80000x64, .f32⟩ : BufTy).Contents (Elt F)),
    StableHlo.binary main_v127 main_arg20 main_v128 ((fun l r => Host.dotGeneral dot_S80000x64_S64x1_S80000x1_1_0_0_1_n_n none l r) : (⟨S80000x64, .f32⟩ : BufTy).Contents (Elt F) → (⟨S64x1, .f32⟩ : BufTy).Contents (Elt F) → (⟨S80000x1, .f32⟩ : BufTy).Contents (Elt F)),
    StableHlo.unary main_arg21 main_v129 (broadcastInDim S1x1 ![1] bcast_S1_S1x1_1 : (⟨S1, .f32⟩ : BufTy).Contents (Elt F) → (⟨S1x1, .f32⟩ : BufTy).Contents (Elt F)),
    StableHlo.unary main_v129 main_v130 (broadcastInDim S80000x1 ![0, 1] bcast_S1x1_S80000x1_0_1 : (⟨S1x1, .f32⟩ : BufTy).Contents (Elt F) → (⟨S80000x1, .f32⟩ : BufTy).Contents (Elt F)),
    StableHlo.binary main_v128 main_v130 main_v131 (addf : (⟨S80000x1, .f32⟩ : BufTy).Contents (Elt F) → (⟨S80000x1, .f32⟩ : BufTy).Contents (Elt F) → (⟨S80000x1, .f32⟩ : BufTy).Contents (Elt F)),
    StableHlo.binary main_v131 main_v113 main_v132 (addf : (⟨S80000x1, .f32⟩ : BufTy).Contents (Elt F) → (⟨S80000x1, .f32⟩ : BufTy).Contents (Elt F) → (⟨S80000x1, .f32⟩ : BufTy).Contents (Elt F)),
    StableHlo.TRef.nullary main_call4.cst (constant S_ .f32 0x00000000#32),
    StableHlo.TRef.unary main_call4.cst main_call4.v0 (broadcastInDim S80000x1 ![] bcast_S_S80000x1),
    StableHlo.TRef.binary (.of main_v132) main_call4.v0 main_call4.v1 (cmpf .ogt),
    StableHlo.TRef.nullary main_call4.cst_0 (constant S_ .f32 0x00000000#32),
    StableHlo.TRef.unary main_call4.cst_0 main_call4.v2 (broadcastInDim S80000x1 ![] bcast_S_S80000x1),
    StableHlo.TRef.binary (.of main_v132) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S80000x1 ![] bcast_S_S80000x1),
    StableHlo.TRef.ternary main_call4.v3 main_call4.call0.v1 (.of main_v132) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S80000x1 ![] bcast_S_S80000x1),
    StableHlo.TRef.binary main_call4.v6 main_call4.v5 main_call4.v7 mulf,
    StableHlo.TRef.ternary main_call4.v1 (.of main_v132) main_call4.v7 main_call4.call1.v0 select ]
/-- The buffers window F3 writes. -/
abbrev opsF3_W : List (Ref sig .tc) := [main_v124, main_v125, main_v126, main_v127, main_v128, main_v129, main_v130, main_v131, main_v132, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v133]
set_option maxRecDepth 8192 in
theorem opsF3_sub : (opsF3 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsF3_writes : (opsF3 : List (HloOp τ sig (Elt F))).Forall fun op => op.writes ⊆ (opsF3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsF3_fresh : (opsF3 : List (HloOp τ sig (Elt F))).Forall fun op => op.fresh = ∅ := by
  simp only [List.Forall]; repeat' constructor

/-- Window F4: 26 operations. -/
abbrev opsF4 : List (HloOp τ sig (Elt F)) :=
  [ StableHlo.unary main_v123 main_v134 (broadcastInDim S1x80000x1 ![1, 2] bcast_S80000x1_S1x80000x1_1_2 : (⟨S80000x1, .f32⟩ : BufTy).Contents (Elt F) → (⟨S1x80000x1, .f32⟩ : BufTy).Contents (Elt F)),
    StableHlo.unary main_v133 main_v135 (broadcastInDim S1x80000x1 ![1, 2] bcast_S80000x1_S1x80000x1_1_2 : (⟨S80000x1, .f32⟩ : BufTy).Contents (Elt F) → (⟨S1x80000x1, .f32⟩ : BufTy).Contents (Elt F)),
    StableHlo.binary main_v134 main_v135 main_v136 ((fun a b => concatenate S2x80000x1 0 [⟨S1x80000x1, a⟩, ⟨S1x80000x1, b⟩] concatenates_S1x80000x1_S1x80000x1_S2x80000x1_d0) : (⟨S1x80000x1, .f32⟩ : BufTy).Contents (Elt F) → (⟨S1x80000x1, .f32⟩ : BufTy).Contents (Elt F) → (⟨S2x80000x1, .f32⟩ : BufTy).Contents (Elt F)),
    StableHlo.nullary main_cst_13 (constant S_ .f32 0xFF800000#32),
    StableHlo.binary main_v136 main_cst_13 main_v137 ((fun x v => Host.reduce FloatOps.maximumf x v reducesTo_S2x80000x1_S80000x1_d0 h_S_) : (⟨S2x80000x1, .f32⟩ : BufTy).Contents (Elt F) → (⟨S_, .f32⟩ : BufTy).Contents (Elt F) → (⟨S80000x1, .f32⟩ : BufTy).Contents (Elt F)),
    StableHlo.nullary main_cst_14 (constant S_ .f32 0xFF800000#32),
    StableHlo.unary main_cst_14 main_v138 (broadcastInDim S80000x1 ![] bcast_S_S80000x1 : (⟨S_, .f32⟩ : BufTy).Contents (Elt F) → (⟨S80000x1, .f32⟩ : BufTy).Contents (Elt F)),
    StableHlo.binary main_v138 main_v137 main_v139 (maximumf : (⟨S80000x1, .f32⟩ : BufTy).Contents (Elt F) → (⟨S80000x1, .f32⟩ : BufTy).Contents (Elt F) → (⟨S80000x1, .f32⟩ : BufTy).Contents (Elt F)),
    StableHlo.unary main_v139 main_v140 (broadcastInDim S1x80000x1 ![1, 2] bcast_S80000x1_S1x80000x1_1_2 : (⟨S80000x1, .f32⟩ : BufTy).Contents (Elt F) → (⟨S1x80000x1, .f32⟩ : BufTy).Contents (Elt F)),
    StableHlo.unary main_v140 main_v141 (broadcastInDim S2x80000x1 ![0, 1, 2] bcast_S1x80000x1_S2x80000x1_0_1_2 : (⟨S1x80000x1, .f32⟩ : BufTy).Contents (Elt F) → (⟨S2x80000x1, .f32⟩ : BufTy).Contents (Elt F)),
    StableHlo.binary main_v136 main_v141 main_v142 (subf : (⟨S2x80000x1, .f32⟩ : BufTy).Contents (Elt F) → (⟨S2x80000x1, .f32⟩ : BufTy).Contents (Elt F) → (⟨S2x80000x1, .f32⟩ : BufTy).Contents (Elt F)),
    StableHlo.unary main_v142 main_v143 (Host.exp : (⟨S2x80000x1, .f32⟩ : BufTy).Contents (Elt F) → (⟨S2x80000x1, .f32⟩ : BufTy).Contents (Elt F)),
    StableHlo.nullary main_cst_15 (constant S_ .f32 0x00000000#32),
    StableHlo.binary main_v143 main_cst_15 main_v144 ((fun x v => Host.reduceAdd x v reducesTo_S2x80000x1_S80000x1_d0 h_S_) : (⟨S2x80000x1, .f32⟩ : BufTy).Contents (Elt F) → (⟨S_, .f32⟩ : BufTy).Contents (Elt F) → (⟨S80000x1, .f32⟩ : BufTy).Contents (Elt F)),
    StableHlo.unary main_v144 main_v145 (broadcastInDim S1x80000x1 ![1, 2] bcast_S80000x1_S1x80000x1_1_2 : (⟨S80000x1, .f32⟩ : BufTy).Contents (Elt F) → (⟨S1x80000x1, .f32⟩ : BufTy).Contents (Elt F)),
    StableHlo.unary main_v145 main_v146 (broadcastInDim S2x80000x1 ![0, 1, 2] bcast_S1x80000x1_S2x80000x1_0_1_2 : (⟨S1x80000x1, .f32⟩ : BufTy).Contents (Elt F) → (⟨S2x80000x1, .f32⟩ : BufTy).Contents (Elt F)),
    StableHlo.binary main_v143 main_v146 main_v147 (Host.divf : (⟨S2x80000x1, .f32⟩ : BufTy).Contents (Elt F) → (⟨S2x80000x1, .f32⟩ : BufTy).Contents (Elt F) → (⟨S2x80000x1, .f32⟩ : BufTy).Contents (Elt F)),
    StableHlo.unary main_v147 main_v148 ((extractStridedSlice S1x80000x1 ![0, 0, 0] · slices_S2x80000x1_S1x80000x1_0_0_0) : (⟨S2x80000x1, .f32⟩ : BufTy).Contents (Elt F) → (⟨S1x80000x1, .f32⟩ : BufTy).Contents (Elt F)),
    StableHlo.reshape main_v148 main_v149 rfl shapeCasts_S1x80000x1_S80000x1,
    StableHlo.unary main_v149 main_v150 (broadcastInDim S80000x256 ![0, 1] bcast_S80000x1_S80000x256_0_1 : (⟨S80000x1, .f32⟩ : BufTy).Contents (Elt F) → (⟨S80000x256, .f32⟩ : BufTy).Contents (Elt F)),
    StableHlo.binary main_v150 main_v7 main_v151 (mulf : (⟨S80000x256, .f32⟩ : BufTy).Contents (Elt F) → (⟨S80000x256, .f32⟩ : BufTy).Contents (Elt F) → (⟨S80000x256, .f32⟩ : BufTy).Contents (Elt F)),
    StableHlo.unary main_v147 main_v152 ((extractStridedSlice S1x80000x1 ![1, 0, 0] · slices_S2x80000x1_S1x80000x1_1_0_0) : (⟨S2x80000x1, .f32⟩ : BufTy).Contents (Elt F) → (⟨S1x80000x1, .f32⟩ : BufTy).Contents (Elt F)),
    StableHlo.reshape main_v152 main_v153 rfl shapeCasts_S1x80000x1_S80000x1,
    StableHlo.unary main_v153 main_v154 (broadcastInDim S80000x256 ![0, 1] bcast_S80000x1_S80000x256_0_1 : (⟨S80000x1, .f32⟩ : BufTy).Contents (Elt F) → (⟨S80000x256, .f32⟩ : BufTy).Contents (Elt F)),
    StableHlo.binary main_v154 main_v53 main_v155 (mulf : (⟨S80000x256, .f32⟩ : BufTy).Contents (Elt F) → (⟨S80000x256, .f32⟩ : BufTy).Contents (Elt F) → (⟨S80000x256, .f32⟩ : BufTy).Contents (Elt F)),
    StableHlo.binary main_v151 main_v155 main_v156 (addf : (⟨S80000x256, .f32⟩ : BufTy).Contents (Elt F) → (⟨S80000x256, .f32⟩ : BufTy).Contents (Elt F) → (⟨S80000x256, .f32⟩ : BufTy).Contents (Elt F)) ]
/-- The buffers window F4 writes. -/
abbrev opsF4_W : List (Ref sig .tc) := [main_v134, main_v135, main_v136, main_cst_13, main_v137, main_cst_14, main_v138, main_v139, main_v140, main_v141, main_v142, main_v143, main_cst_15, main_v144, main_v145, main_v146, main_v147, main_v148, main_v149, main_v150, main_v151, main_v152, main_v153, main_v154, main_v155, main_v156]
set_option maxRecDepth 8192 in
theorem opsF4_sub : (opsF4 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub ..⟩
set_option maxRecDepth 8192 in
theorem opsF4_writes : (opsF4 : List (HloOp τ sig (Elt F))).Forall fun op => op.writes ⊆ (opsF4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsF4_fresh : (opsF4 : List (HloOp τ sig (Elt F))).Forall fun op => op.fresh = ∅ := by
  simp only [List.Forall]; repeat' constructor

/-- Window F5: 15 operations. -/
abbrev opsF5 : List (HloOp τ sig (Elt F)) :=
  [ StableHlo.TRef.nullary main_call5.cst (constant S_ .f32 0x00000000#32),
    StableHlo.TRef.unary main_call5.cst main_call5.v0 (broadcastInDim S80000x256 ![] bcast_S_S80000x256),
    StableHlo.TRef.binary (.of main_v156) main_call5.v0 main_call5.v1 (cmpf .ogt),
    StableHlo.TRef.nullary main_call5.cst_0 (constant S_ .f32 0x00000000#32),
    StableHlo.TRef.unary main_call5.cst_0 main_call5.v2 (broadcastInDim S80000x256 ![] bcast_S_S80000x256),
    StableHlo.TRef.binary (.of main_v156) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S80000x256 ![] bcast_S_S80000x256),
    StableHlo.TRef.ternary main_call5.v3 main_call5.call0.v1 (.of main_v156) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S80000x256 ![] bcast_S_S80000x256),
    StableHlo.TRef.binary main_call5.v6 main_call5.v5 main_call5.v7 mulf,
    StableHlo.TRef.ternary main_call5.v1 (.of main_v156) main_call5.v7 main_call5.call1.v0 select ]
/-- The buffers window F5 writes. -/
abbrev opsF5_W : List (Ref sig .tc) := [main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v157]
set_option maxRecDepth 8192 in
theorem opsF5_sub : (opsF5 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsF5_writes : (opsF5 : List (HloOp τ sig (Elt F))).Forall fun op => op.writes ⊆ (opsF5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
theorem opsF5_fresh : (opsF5 : List (HloOp τ sig (Elt F))).Forall fun op => op.fresh = ∅ := by
  simp only [List.Forall]; repeat' constructor

/-- A property of every element of two lists holds of every element of their concatenation. -/
theorem forall_app {α : Type _} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

/-- The operations of @main's statements in `main_part0`: its windows in order. -/
abbrev part0 : List (HloOp τ sig (Elt F)) := opsA ++ opsB ++ opsC ++ opsD0
/-- The operations of @main's statements in `main_part1`: its windows in order. -/
abbrev part1 : List (HloOp τ sig (Elt F)) := opsD1 ++ opsE1 ++ opsE2 ++ opsE3 ++ opsE4
/-- The operations of @main's statements in `main_part2`: its windows in order. -/
abbrev part2 : List (HloOp τ sig (Elt F)) := opsE5 ++ opsF1 ++ opsF2 ++ opsF3 ++ opsF4 ++ opsF5
/-- @main's operations. -/
abbrev ops : List (HloOp τ sig (Elt F)) := part0 ++ (part1 ++ part2)
/-- Every buffer @main writes, window by window. -/
abbrev ops_W : List (Ref sig .tc) := opsA_W ++ opsB_W ++ opsC_W ++ opsD0_W ++ opsD1_W ++ opsE1_W ++ opsE2_W ++ opsE3_W ++ opsE4_W ++ opsE5_W ++ opsF1_W ++ opsF2_W ++ opsF3_W ++ opsF4_W ++ opsF5_W

theorem part0_sub : (part0 : List (HloOp τ sig (Elt F))).Forall fun op => op.bufs ⊆ tcRefs τ sig :=
  forall_app (forall_app (forall_app (opsA_sub) opsB_sub) opsC_sub) opsD0_sub
theorem part1_sub : (part1 : List (HloOp τ sig (Elt F))).Forall fun op => op.bufs ⊆ tcRefs τ sig :=
  forall_app (forall_app (forall_app (forall_app (opsD1_sub) opsE1_sub) opsE2_sub) opsE3_sub) opsE4_sub
theorem part2_sub : (part2 : List (HloOp τ sig (Elt F))).Forall fun op => op.bufs ⊆ tcRefs τ sig :=
  forall_app (forall_app (forall_app (forall_app (forall_app (opsE5_sub) opsF1_sub) opsF2_sub) opsF3_sub) opsF4_sub) opsF5_sub
theorem ops_sub : (ops : List (HloOp τ sig (Elt F))).Forall fun op => op.bufs ⊆ tcRefs τ sig :=
  forall_app part0_sub (forall_app part1_sub part2_sub)
theorem part0_fresh : (part0 : List (HloOp τ sig (Elt F))).Forall fun op => op.fresh = ∅ :=
  forall_app (forall_app (forall_app (opsA_fresh) opsB_fresh) opsC_fresh) opsD0_fresh
theorem part1_fresh : (part1 : List (HloOp τ sig (Elt F))).Forall fun op => op.fresh = ∅ :=
  forall_app (forall_app (forall_app (forall_app (opsD1_fresh) opsE1_fresh) opsE2_fresh) opsE3_fresh) opsE4_fresh
theorem part2_fresh : (part2 : List (HloOp τ sig (Elt F))).Forall fun op => op.fresh = ∅ :=
  forall_app (forall_app (forall_app (forall_app (forall_app (opsE5_fresh) opsF1_fresh) opsF2_fresh) opsF3_fresh) opsF4_fresh) opsF5_fresh
theorem ops_fresh : (ops : List (HloOp τ sig (Elt F))).Forall fun op => op.fresh = ∅ :=
  forall_app part0_fresh (forall_app part1_fresh part2_fresh)

/-- Membership of a window's written buffers in the list of all written buffers. -/
theorem opsA_W_sub : ∀ x ∈ opsA_W, x ∈ ops_W := fun x hx => (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ hx))))))))))))))
theorem opsB_W_sub : ∀ x ∈ opsB_W, x ∈ ops_W := fun x hx => (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_right _ hx))))))))))))))
theorem opsC_W_sub : ∀ x ∈ opsC_W, x ∈ ops_W := fun x hx => (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_right _ hx)))))))))))))
theorem opsD0_W_sub : ∀ x ∈ opsD0_W, x ∈ ops_W := fun x hx => (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_right _ hx))))))))))))
theorem opsD1_W_sub : ∀ x ∈ opsD1_W, x ∈ ops_W := fun x hx => (List.mem_append_left _ (List.mem_append_left _ (List.mem_append_left _ (List.mem_append_left _ (List.mem_append_left _ (List.mem_append_left _ (List.mem_append_left _ (List.mem_append_left _ (List.mem_append_left _ (List.mem_append_left _ (List.mem_append_right _ hx)))))))))))
theorem opsE1_W_sub : ∀ x ∈ opsE1_W, x ∈ ops_W := fun x hx => (List.mem_append_left _ (List.mem_append_left _ (List.mem_append_left _ (List.mem_append_left _ (List.mem_append_left _ (List.mem_append_left _ (List.mem_append_left _ (List.mem_append_left _ (List.mem_append_left _ (List.mem_append_right _ hx))))))))))
theorem opsE2_W_sub : ∀ x ∈ opsE2_W, x ∈ ops_W := fun x hx => (List.mem_append_left _ (List.mem_append_left _ (List.mem_append_left _ (List.mem_append_left _ (List.mem_append_left _ (List.mem_append_left _ (List.mem_append_left _ (List.mem_append_left _ (List.mem_append_right _ hx)))))))))
theorem opsE3_W_sub : ∀ x ∈ opsE3_W, x ∈ ops_W := fun x hx => (List.mem_append_left _ (List.mem_append_left _ (List.mem_append_left _ (List.mem_append_left _ (List.mem_append_left _ (List.mem_append_left _ (List.mem_append_left _ (List.mem_append_right _ hx))))))))
theorem opsE4_W_sub : ∀ x ∈ opsE4_W, x ∈ ops_W := fun x hx => (List.mem_append_left _ (List.mem_append_left _ (List.mem_append_left _ (List.mem_append_left _ (List.mem_append_left _ (List.mem_append_left _ (List.mem_append_right _ hx)))))))
theorem opsE5_W_sub : ∀ x ∈ opsE5_W, x ∈ ops_W := fun x hx => (List.mem_append_left _ (List.mem_append_left _ (List.mem_append_left _ (List.mem_append_left _ (List.mem_append_left _ (List.mem_append_right _ hx))))))
theorem opsF1_W_sub : ∀ x ∈ opsF1_W, x ∈ ops_W := fun x hx => (List.mem_append_left _ (List.mem_append_left _ (List.mem_append_left _ (List.mem_append_left _ (List.mem_append_right _ hx)))))
theorem opsF2_W_sub : ∀ x ∈ opsF2_W, x ∈ ops_W := fun x hx => (List.mem_append_left _ (List.mem_append_left _ (List.mem_append_left _ (List.mem_append_right _ hx))))
theorem opsF3_W_sub : ∀ x ∈ opsF3_W, x ∈ ops_W := fun x hx => (List.mem_append_left _ (List.mem_append_left _ (List.mem_append_right _ hx)))
theorem opsF4_W_sub : ∀ x ∈ opsF4_W, x ∈ ops_W := fun x hx => (List.mem_append_left _ (List.mem_append_right _ hx))
theorem opsF5_W_sub : ∀ x ∈ opsF5_W, x ∈ ops_W := fun x hx => (List.mem_append_right _ hx)

set_option maxRecDepth 16384 in
set_option maxHeartbeats 4000000 in
theorem main_part0_eq (c : Dev nD) : main_part0 (F := F) c = seq part0 := rfl
set_option maxRecDepth 16384 in
set_option maxHeartbeats 4000000 in
theorem main_part1_eq (c : Dev nD) : main_part1 (F := F) c = seq part1 := rfl
set_option maxRecDepth 16384 in
set_option maxHeartbeats 4000000 in
theorem main_part2_eq (c : Dev nD) : main_part2 (F := F) c = seq part2 := rfl

/-- @main is the run of its operations in order. -/
theorem main_eq (c : Dev nD) : main (F := F) c = seq ops := by
  rw [seq_append part0 (part1 ++ part2), seq_append part1 part2, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and in every final state each TensorCore buffer holds the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

end Cert.ReferenceIdeal.Ops

end
-- ==== Proof.RefFnsA.lean ====
import proofs.«161233_j27118423507478_1_alg».proof.Proof.Gen.ReferenceIdeal

/-! # The reference's author half as whole-array functions

Each definition is a stretch of the reference program's host operations composed into one function of the arrays the
stretch reads: the affine maps, the degree-normalised neighbour sum, the exponential linear unit as the called function
spells it, the attention logits, the two-way softmax over the stacked logits, and the combination of the two channels. -/

noncomputable section

namespace Cert.ReferenceIdeal.FnsA

open Idealize.ShloMosaic Idealize.ShloMosaic.TcCoe Cert.ReferenceIdeal Cert.ReferenceIdeal.Gen

variable {F : FTy → Type} [FloatOps F]

/-- `x · W + b` on every row, 256 features to 256. -/
def lin256 (x : FVec F S40000x256 .f32) (W : FVec F S256x256 .f32) (b : FVec F S256 .f32) : FVec F S40000x256 .f32 :=
  addf (Host.dotGeneral dot_S40000x256_S256x256_S40000x256_1_0_0_1_n_n none x W)
    (broadcastInDim S40000x256 ![0, 1] bcast_S1x256_S40000x256_0_1 (broadcastInDim S1x256 ![1] bcast_S256_S1x256_1 b))

/-- `x · W + b` on every row, 256 features to 64. -/
def lin64 (x : FVec F S40000x256 .f32) (W : FVec F S256x64 .f32) (b : FVec F S64 .f32) : FVec F S40000x64 .f32 :=
  addf (Host.dotGeneral dot_S40000x256_S256x64_S40000x64_1_0_0_1_n_n none x W)
    (broadcastInDim S40000x64 ![0, 1] bcast_S1x64_S40000x64_0_1 (broadcastInDim S1x64 ![1] bcast_S64_S1x64_1 b))

/-- `y · w + b` on every row, 64 features to one column. -/
def lin1 (y : FVec F S40000x64 .f32) (w : FVec F S64x1 .f32) (b : FVec F S1 .f32) : FVec F S40000x1 .f32 :=
  addf (Host.dotGeneral dot_S40000x64_S64x1_S40000x1_1_0_0_1_n_n none y w)
    (broadcastInDim S40000x1 ![0, 1] bcast_S1x1_S40000x1_0_1 (broadcastInDim S1x1 ![1] bcast_S1_S1x1_1 b))

/-- The mean of the neighbours' rows: the rows of `hsrc` at the (wrapped) source indices, summed into their destination
    rows, divided by the destination's in-degree clamped below by one. -/
def agg (hsrc : FVec F S80000x256 .f32) (src dst : IVec S800000 32) : FVec F S40000x256 .f32 :=
  Host.divf
    (Host.scatterAdd scatter_S40000x256_S800000x1_S800000x256_1_0_0_1
      (broadcastInDim S40000x256 ![] bcast_S_S40000x256 (constant S_ .f32 0x00000000#32))
      (broadcastInDim S800000x1 ![0] bcast_S800000_S800000x1_0 dst)
      (Host.gather gather_S80000x256_S800000x1_S800000x256_1_0_n_n_0_1_1256 hsrc
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 80000#32))) src))))
    (broadcastInDim S40000x256 ![0, 1] bcast_S40000x1_S40000x256_0_1
      (broadcastInDim S40000x1 ![0] bcast_S40000_S40000x1_0
        (maximumf
          (Host.scatterAdd scatter_S40000_S800000x1_S800000_n_0_0_1
            (broadcastInDim S40000 ![] bcast_S_S40000 (constant S_ .f32 0x00000000#32))
            (broadcastInDim S800000x1 ![0] bcast_S800000_S800000x1_0 dst)
            (broadcastInDim S800000 ![] bcast_S_S800000 (constant S_ .f32 0x3F800000#32)))
          (broadcastInDim S40000 ![] bcast_S_S40000 (constant S_ .f32 0x3F800000#32)))))

/-- The exponential linear unit on a column: `x` where `x > 0`, else `1 · expm1 x'` with `x'` the value made safe
    (zero where `x > 0`). -/
def elu1 (x : FVec F S40000x1 .f32) : FVec F S40000x1 .f32 :=
  select (cmpf .ogt x (broadcastInDim S40000x1 ![] bcast_S_S40000x1 (constant S_ .f32 0x00000000#32))) x
    (mulf (broadcastInDim S40000x1 ![] bcast_S_S40000x1 (constant S_ .f32 0x3F800000#32))
      (Host.expm1
        (select (cmpf .ogt x (broadcastInDim S40000x1 ![] bcast_S_S40000x1 (constant S_ .f32 0x00000000#32)))
          (broadcastInDim S40000x1 ![] bcast_S_S40000x1 (constant S_ .f32 0x00000000#32)) x)))

/-- The same on a whole 256-column array. -/
def elu256 (x : FVec F S40000x256 .f32) : FVec F S40000x256 .f32 :=
  select (cmpf .ogt x (broadcastInDim S40000x256 ![] bcast_S_S40000x256 (constant S_ .f32 0x00000000#32))) x
    (mulf (broadcastInDim S40000x256 ![] bcast_S_S40000x256 (constant S_ .f32 0x3F800000#32))
      (Host.expm1
        (select (cmpf .ogt x (broadcastInDim S40000x256 ![] bcast_S_S40000x256 (constant S_ .f32 0x00000000#32)))
          (broadcastInDim S40000x256 ![] bcast_S_S40000x256 (constant S_ .f32 0x00000000#32)) x)))

/-- The right-hand attention score of the self features, a column. -/
def hr (z : FVec F S40000x256 .f32) (Wq : FVec F S256x64 .f32) (bq : FVec F S64 .f32) (war : FVec F S64x1 .f32)
    (bar : FVec F S1 .f32) : FVec F S40000x1 .f32 :=
  lin1 (lin64 z Wq bq) war bar

/-- A channel's attention logit, a column. -/
def logit (x : FVec F S40000x256 .f32) (Wk : FVec F S256x64 .f32) (bk : FVec F S64 .f32) (wal : FVec F S64x1 .f32)
    (bal : FVec F S1 .f32) (hrv : FVec F S40000x1 .f32) : FVec F S40000x1 .f32 :=
  elu1 (addf (lin1 (lin64 x Wk bk) wal bal) hrv)

/-- The two logit columns stacked along a new leading axis. -/
def stack (l0 l1 : FVec F S40000x1 .f32) : FVec F S2x40000x1 .f32 :=
  concatenate S2x40000x1 0
    [⟨S1x40000x1, broadcastInDim S1x40000x1 ![1, 2] bcast_S40000x1_S1x40000x1_1_2 l0⟩,
     ⟨S1x40000x1, broadcastInDim S1x40000x1 ![1, 2] bcast_S40000x1_S1x40000x1_1_2 l1⟩]
    concatenates_S1x40000x1_S1x40000x1_S2x40000x1_d0

/-- A column repeated along the leading axis of the stack. -/
def spread (v : FVec F S40000x1 .f32) : FVec F S2x40000x1 .f32 :=
  broadcastInDim S2x40000x1 ![0, 1, 2] bcast_S1x40000x1_S2x40000x1_0_1_2
    (broadcastInDim S1x40000x1 ![1, 2] bcast_S40000x1_S1x40000x1_1_2 v)

/-- The stack's exponentials after the maximum over the leading axis is taken off. -/
def expd (s : FVec F S2x40000x1 .f32) : FVec F S2x40000x1 .f32 :=
  Host.exp (subf s (spread (maximumf (broadcastInDim S40000x1 ![] bcast_S_S40000x1 (constant S_ .f32 0xFF800000#32))
    (Host.reduce FloatOps.maximumf s (constant S_ .f32 0xFF800000#32) reducesTo_S2x40000x1_S40000x1_d0 h_S_))))

/-- The softmax over the leading axis. -/
def att (s : FVec F S2x40000x1 .f32) : FVec F S2x40000x1 .f32 :=
  Host.divf (expd s) (spread (Host.reduceAdd (expd s) (constant S_ .f32 0x00000000#32) reducesTo_S2x40000x1_S40000x1_d0 h_S_))

/-- Channel 0's weight column laid over the 256 features. -/
def w0 (a : FVec F S2x40000x1 .f32) : FVec F S40000x256 .f32 :=
  broadcastInDim S40000x256 ![0, 1] bcast_S40000x1_S40000x256_0_1
    (shapeCast S40000x1 (extractStridedSlice S1x40000x1 ![0, 0, 0] a slices_S2x40000x1_S1x40000x1_0_0_0) shapeCasts_S1x40000x1_S40000x1)

/-- Channel 1's weight column laid over the 256 features. -/
def w1 (a : FVec F S2x40000x1 .f32) : FVec F S40000x256 .f32 :=
  broadcastInDim S40000x256 ![0, 1] bcast_S40000x1_S40000x256_0_1
    (shapeCast S40000x1 (extractStridedSlice S1x40000x1 ![1, 0, 0] a slices_S2x40000x1_S1x40000x1_1_0_0) shapeCasts_S1x40000x1_S40000x1)

/-- The attention-weighted sum of the two channels, before the last unit. -/
def comb (l0 l1 : FVec F S40000x1 .f32) (z cv : FVec F S40000x256 .f32) : FVec F S40000x256 .f32 :=
  addf (mulf (w0 (att (stack l0 l1))) z) (mulf (w1 (att (stack l0 l1))) cv)

/-- The author half of the layer, from the self features `z` and the relation features `cv`. -/
def node (z cv : FVec F S40000x256 .f32) (Wq : FVec F S256x64 .f32) (bq : FVec F S64 .f32) (Wk : FVec F S256x64 .f32)
    (bk : FVec F S64 .f32) (wal : FVec F S64x1 .f32) (bal : FVec F S1 .f32) (war : FVec F S64x1 .f32) (bar : FVec F S1 .f32) :
    FVec F S40000x256 .f32 :=
  elu256 (comb (logit z Wk bk wal bal (hr z Wq bq war bar)) (logit cv Wk bk wal bal (hr z Wq bq war bar)) z cv)

end Cert.ReferenceIdeal.FnsA

end
-- ==== Proof.RefFnsP.lean ====
import proofs.«161233_j27118423507478_1_alg».proof.Proof.Gen.ReferenceIdeal

/-! # The reference's paper half as whole-array functions

Each definition is a stretch of the reference program's host operations composed into one function of the arrays the
stretch reads: the affine maps, the degree-normalised neighbour sum, the exponential linear unit as the called function
spells it, the attention logits, the two-way softmax over the stacked logits, and the combination of the two channels. -/

noncomputable section

namespace Cert.ReferenceIdeal.FnsP

open Idealize.ShloMosaic Idealize.ShloMosaic.TcCoe Cert.ReferenceIdeal Cert.ReferenceIdeal.Gen

variable {F : FTy → Type} [FloatOps F]

/-- `x · W + b` on every row, 256 features to 256. -/
def lin256 (x : FVec F S80000x256 .f32) (W : FVec F S256x256 .f32) (b : FVec F S256 .f32) : FVec F S80000x256 .f32 :=
  addf (Host.dotGeneral dot_S80000x256_S256x256_S80000x256_1_0_0_1_n_n none x W)
    (broadcastInDim S80000x256 ![0, 1] bcast_S1x256_S80000x256_0_1 (broadcastInDim S1x256 ![1] bcast_S256_S1x256_1 b))

/-- `x · W + b` on every row, 256 features to 64. -/
def lin64 (x : FVec F S80000x256 .f32) (W : FVec F S256x64 .f32) (b : FVec F S64 .f32) : FVec F S80000x64 .f32 :=
  addf (Host.dotGeneral dot_S80000x256_S256x64_S80000x64_1_0_0_1_n_n none x W)
    (broadcastInDim S80000x64 ![0, 1] bcast_S1x64_S80000x64_0_1 (broadcastInDim S1x64 ![1] bcast_S64_S1x64_1 b))

/-- `y · w + b` on every row, 64 features to one column. -/
def lin1 (y : FVec F S80000x64 .f32) (w : FVec F S64x1 .f32) (b : FVec F S1 .f32) : FVec F S80000x1 .f32 :=
  addf (Host.dotGeneral dot_S80000x64_S64x1_S80000x1_1_0_0_1_n_n none y w)
    (broadcastInDim S80000x1 ![0, 1] bcast_S1x1_S80000x1_0_1 (broadcastInDim S1x1 ![1] bcast_S1_S1x1_1 b))

/-- The mean of the neighbours' rows: the rows of `hsrc` at the (wrapped) source indices, summed into their destination
    rows, divided by the destination's in-degree clamped below by one. -/
def agg (hsrc : FVec F S40000x256 .f32) (src dst : IVec S800000 32) : FVec F S80000x256 .f32 :=
  Host.divf
    (Host.scatterAdd scatter_S80000x256_S800000x1_S800000x256_1_0_0_1
      (broadcastInDim S80000x256 ![] bcast_S_S80000x256 (constant S_ .f32 0x00000000#32))
      (broadcastInDim S800000x1 ![0] bcast_S800000_S800000x1_0 dst)
      (Host.gather gather_S40000x256_S800000x1_S800000x256_1_0_n_n_0_1_1256 hsrc
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 40000#32))) src))))
    (broadcastInDim S80000x256 ![0, 1] bcast_S80000x1_S80000x256_0_1
      (broadcastInDim S80000x1 ![0] bcast_S80000_S80000x1_0
        (maximumf
          (Host.scatterAdd scatter_S80000_S800000x1_S800000_n_0_0_1
            (broadcastInDim S80000 ![] bcast_S_S80000 (constant S_ .f32 0x00000000#32))
            (broadcastInDim S800000x1 ![0] bcast_S800000_S800000x1_0 dst)
            (broadcastInDim S800000 ![] bcast_S_S800000 (constant S_ .f32 0x3F800000#32)))
          (broadcastInDim S80000 ![] bcast_S_S80000 (constant S_ .f32 0x3F800000#32)))))

/-- The exponential linear unit on a column: `x` where `x > 0`, else `1 · expm1 x'` with `x'` the value made safe
    (zero where `x > 0`). -/
def elu1 (x : FVec F S80000x1 .f32) : FVec F S80000x1 .f32 :=
  select (cmpf .ogt x (broadcastInDim S80000x1 ![] bcast_S_S80000x1 (constant S_ .f32 0x00000000#32))) x
    (mulf (broadcastInDim S80000x1 ![] bcast_S_S80000x1 (constant S_ .f32 0x3F800000#32))
      (Host.expm1
        (select (cmpf .ogt x (broadcastInDim S80000x1 ![] bcast_S_S80000x1 (constant S_ .f32 0x00000000#32)))
          (broadcastInDim S80000x1 ![] bcast_S_S80000x1 (constant S_ .f32 0x00000000#32)) x)))

/-- The same on a whole 256-column array. -/
def elu256 (x : FVec F S80000x256 .f32) : FVec F S80000x256 .f32 :=
  select (cmpf .ogt x (broadcastInDim S80000x256 ![] bcast_S_S80000x256 (constant S_ .f32 0x00000000#32))) x
    (mulf (broadcastInDim S80000x256 ![] bcast_S_S80000x256 (constant S_ .f32 0x3F800000#32))
      (Host.expm1
        (select (cmpf .ogt x (broadcastInDim S80000x256 ![] bcast_S_S80000x256 (constant S_ .f32 0x00000000#32)))
          (broadcastInDim S80000x256 ![] bcast_S_S80000x256 (constant S_ .f32 0x00000000#32)) x)))

/-- The right-hand attention score of the self features, a column. -/
def hr (z : FVec F S80000x256 .f32) (Wq : FVec F S256x64 .f32) (bq : FVec F S64 .f32) (war : FVec F S64x1 .f32)
    (bar : FVec F S1 .f32) : FVec F S80000x1 .f32 :=
  lin1 (lin64 z Wq bq) war bar

/-- A channel's attention logit, a column. -/
def logit (x : FVec F S80000x256 .f32) (Wk : FVec F S256x64 .f32) (bk : FVec F S64 .f32) (wal : FVec F S64x1 .f32)
    (bal : FVec F S1 .f32) (hrv : FVec F S80000x1 .f32) : FVec F S80000x1 .f32 :=
  elu1 (addf (lin1 (lin64 x Wk bk) wal bal) hrv)

/-- The two logit columns stacked along a new leading axis. -/
def stack (l0 l1 : FVec F S80000x1 .f32) : FVec F S2x80000x1 .f32 :=
  concatenate S2x80000x1 0
    [⟨S1x80000x1, broadcastInDim S1x80000x1 ![1, 2] bcast_S80000x1_S1x80000x1_1_2 l0⟩,
     ⟨S1x80000x1, broadcastInDim S1x80000x1 ![1, 2] bcast_S80000x1_S1x80000x1_1_2 l1⟩]
    concatenates_S1x80000x1_S1x80000x1_S2x80000x1_d0

/-- A column repeated along the leading axis of the stack. -/
def spread (v : FVec F S80000x1 .f32) : FVec F S2x80000x1 .f32 :=
  broadcastInDim S2x80000x1 ![0, 1, 2] bcast_S1x80000x1_S2x80000x1_0_1_2
    (broadcastInDim S1x80000x1 ![1, 2] bcast_S80000x1_S1x80000x1_1_2 v)

/-- The stack's exponentials after the maximum over the leading axis is taken off. -/
def expd (s : FVec F S2x80000x1 .f32) : FVec F S2x80000x1 .f32 :=
  Host.exp (subf s (spread (maximumf (broadcastInDim S80000x1 ![] bcast_S_S80000x1 (constant S_ .f32 0xFF800000#32))
    (Host.reduce FloatOps.maximumf s (constant S_ .f32 0xFF800000#32) reducesTo_S2x80000x1_S80000x1_d0 h_S_))))

/-- The softmax over the leading axis. -/
def att (s : FVec F S2x80000x1 .f32) : FVec F S2x80000x1 .f32 :=
  Host.divf (expd s) (spread (Host.reduceAdd (expd s) (constant S_ .f32 0x00000000#32) reducesTo_S2x80000x1_S80000x1_d0 h_S_))

/-- Channel 0's weight column laid over the 256 features. -/
def w0 (a : FVec F S2x80000x1 .f32) : FVec F S80000x256 .f32 :=
  broadcastInDim S80000x256 ![0, 1] bcast_S80000x1_S80000x256_0_1
    (shapeCast S80000x1 (extractStridedSlice S1x80000x1 ![0, 0, 0] a slices_S2x80000x1_S1x80000x1_0_0_0) shapeCasts_S1x80000x1_S80000x1)

/-- Channel 1's weight column laid over the 256 features. -/
def w1 (a : FVec F S2x80000x1 .f32) : FVec F S80000x256 .f32 :=
  broadcastInDim S80000x256 ![0, 1] bcast_S80000x1_S80000x256_0_1
    (shapeCast S80000x1 (extractStridedSlice S1x80000x1 ![1, 0, 0] a slices_S2x80000x1_S1x80000x1_1_0_0) shapeCasts_S1x80000x1_S80000x1)

/-- The attention-weighted sum of the two channels, before the last unit. -/
def comb (l0 l1 : FVec F S80000x1 .f32) (z cv : FVec F S80000x256 .f32) : FVec F S80000x256 .f32 :=
  addf (mulf (w0 (att (stack l0 l1))) z) (mulf (w1 (att (stack l0 l1))) cv)

/-- The paper half of the layer, from the self features `z` and the relation features `cv`. -/
def node (z cv : FVec F S80000x256 .f32) (Wq : FVec F S256x64 .f32) (bq : FVec F S64 .f32) (Wk : FVec F S256x64 .f32)
    (bk : FVec F S64 .f32) (wal : FVec F S64x1 .f32) (bal : FVec F S1 .f32) (war : FVec F S64x1 .f32) (bar : FVec F S1 .f32) :
    FVec F S80000x256 .f32 :=
  elu256 (comb (logit z Wk bk wal bal (hr z Wq bq war bar)) (logit cv Wk bk wal bal (hr z Wq bq war bar)) z cv)

end Cert.ReferenceIdeal.FnsP

end
-- ==== Proof.RefValuesA.lean ====
import proofs.«161233_j27118423507478_1_alg».proof.Proof.RefOps
import proofs.«161233_j27118423507478_1_alg».proof.Proof.RefFnsA
import proofs.«161233_j27118423507478_1_alg».proof.Proof.RefFnsP
import Idealize.ShloMosaic.Lib.StableHlo.Run

/-! # The reference's buffers after its first ten windows of operations (the author half and both neighbour means)

Window by window: a buffer a window does not write keeps what the window before left in it; a buffer a window writes holds
the window's operations composed, read at what the window before left in the buffers it reads. Every composition is one
of the whole-array functions, so each step closes by unfolding the fold of the operations. -/

noncomputable section

namespace Cert.ReferenceIdeal.Vals

open Idealize.ShloMosaic Idealize.ShloMosaic.TcCoe Idealize.ShloMosaic.StableHlo Idealize.SL.Sem
open Cert.ReferenceIdeal Cert.ReferenceIdeal.Gen Cert.ReferenceIdeal.Ops

variable {F : FTy → Type} [FloatOps F] (V0 : Valuation τ sig (Elt F))

/-- The buffer contents before the first window. -/
def val0 : Valuation τ sig (Elt F) := V0
/-- The buffer contents after window A. -/
def val1 : Valuation τ sig (Elt F) := after opsA (val0 V0)
/-- The buffer contents after window B. -/
def val2 : Valuation τ sig (Elt F) := after opsB (val1 V0)
/-- The buffer contents after window C. -/
def val3 : Valuation τ sig (Elt F) := after opsC (val2 V0)
/-- The buffer contents after window D0. -/
def val4 : Valuation τ sig (Elt F) := after opsD0 (val3 V0)
/-- The buffer contents after window D1. -/
def val5 : Valuation τ sig (Elt F) := after opsD1 (val4 V0)
/-- The buffer contents after window E1. -/
def val6 : Valuation τ sig (Elt F) := after opsE1 (val5 V0)
/-- The buffer contents after window E2. -/
def val7 : Valuation τ sig (Elt F) := after opsE2 (val6 V0)
/-- The buffer contents after window E3. -/
def val8 : Valuation τ sig (Elt F) := after opsE3 (val7 V0)
/-- The buffer contents after window E4. -/
def val9 : Valuation τ sig (Elt F) := after opsE4 (val8 V0)
/-- The buffer contents after window E5. -/
def val10 : Valuation τ sig (Elt F) := after opsE5 (val9 V0)

/-! ## What a window does not write it keeps -/

/-- Window A leaves alone every buffer it does not write. -/
theorem val1_step (r : Ref sig .tc) (h : r ∉ opsA_W) : val1 V0 (Proc.devRef .tc r) = val0 V0 (Proc.devRef .tc r) :=
  after_of_writes_sub opsA _ opsA_writes h
/-- Window B leaves alone every buffer it does not write. -/
theorem val2_step (r : Ref sig .tc) (h : r ∉ opsB_W) : val2 V0 (Proc.devRef .tc r) = val1 V0 (Proc.devRef .tc r) :=
  after_of_writes_sub opsB _ opsB_writes h
/-- Window C leaves alone every buffer it does not write. -/
theorem val3_step (r : Ref sig .tc) (h : r ∉ opsC_W) : val3 V0 (Proc.devRef .tc r) = val2 V0 (Proc.devRef .tc r) :=
  after_of_writes_sub opsC _ opsC_writes h
/-- Window D0 leaves alone every buffer it does not write. -/
theorem val4_step (r : Ref sig .tc) (h : r ∉ opsD0_W) : val4 V0 (Proc.devRef .tc r) = val3 V0 (Proc.devRef .tc r) :=
  after_of_writes_sub opsD0 _ opsD0_writes h
/-- Window D1 leaves alone every buffer it does not write. -/
theorem val5_step (r : Ref sig .tc) (h : r ∉ opsD1_W) : val5 V0 (Proc.devRef .tc r) = val4 V0 (Proc.devRef .tc r) :=
  after_of_writes_sub opsD1 _ opsD1_writes h
/-- Window E1 leaves alone every buffer it does not write. -/
theorem val6_step (r : Ref sig .tc) (h : r ∉ opsE1_W) : val6 V0 (Proc.devRef .tc r) = val5 V0 (Proc.devRef .tc r) :=
  after_of_writes_sub opsE1 _ opsE1_writes h
/-- Window E2 leaves alone every buffer it does not write. -/
theorem val7_step (r : Ref sig .tc) (h : r ∉ opsE2_W) : val7 V0 (Proc.devRef .tc r) = val6 V0 (Proc.devRef .tc r) :=
  after_of_writes_sub opsE2 _ opsE2_writes h
/-- Window E3 leaves alone every buffer it does not write. -/
theorem val8_step (r : Ref sig .tc) (h : r ∉ opsE3_W) : val8 V0 (Proc.devRef .tc r) = val7 V0 (Proc.devRef .tc r) :=
  after_of_writes_sub opsE3 _ opsE3_writes h
/-- Window E4 leaves alone every buffer it does not write. -/
theorem val9_step (r : Ref sig .tc) (h : r ∉ opsE4_W) : val9 V0 (Proc.devRef .tc r) = val8 V0 (Proc.devRef .tc r) :=
  after_of_writes_sub opsE4 _ opsE4_writes h
/-- Window E5 leaves alone every buffer it does not write. -/
theorem val10_step (r : Ref sig .tc) (h : r ∉ opsE5_W) : val10 V0 (Proc.devRef .tc r) = val9 V0 (Proc.devRef .tc r) :=
  after_of_writes_sub opsE5 _ opsE5_writes h

/-! ## A buffer no operation writes holds its launch contents throughout -/

theorem val0_arg (r : Ref sig .tc) (h : r ∉ ops_W) : val0 V0 (Proc.devRef .tc r) = V0 (Proc.devRef .tc r) := rfl
theorem val1_arg (r : Ref sig .tc) (h : r ∉ ops_W) : val1 V0 (Proc.devRef .tc r) = V0 (Proc.devRef .tc r) :=
  (val1_step V0 r (fun hm => h (opsA_W_sub r hm))).trans (val0_arg V0 r h)
theorem val2_arg (r : Ref sig .tc) (h : r ∉ ops_W) : val2 V0 (Proc.devRef .tc r) = V0 (Proc.devRef .tc r) :=
  (val2_step V0 r (fun hm => h (opsB_W_sub r hm))).trans (val1_arg V0 r h)
theorem val3_arg (r : Ref sig .tc) (h : r ∉ ops_W) : val3 V0 (Proc.devRef .tc r) = V0 (Proc.devRef .tc r) :=
  (val3_step V0 r (fun hm => h (opsC_W_sub r hm))).trans (val2_arg V0 r h)
theorem val4_arg (r : Ref sig .tc) (h : r ∉ ops_W) : val4 V0 (Proc.devRef .tc r) = V0 (Proc.devRef .tc r) :=
  (val4_step V0 r (fun hm => h (opsD0_W_sub r hm))).trans (val3_arg V0 r h)
theorem val5_arg (r : Ref sig .tc) (h : r ∉ ops_W) : val5 V0 (Proc.devRef .tc r) = V0 (Proc.devRef .tc r) :=
  (val5_step V0 r (fun hm => h (opsD1_W_sub r hm))).trans (val4_arg V0 r h)
theorem val6_arg (r : Ref sig .tc) (h : r ∉ ops_W) : val6 V0 (Proc.devRef .tc r) = V0 (Proc.devRef .tc r) :=
  (val6_step V0 r (fun hm => h (opsE1_W_sub r hm))).trans (val5_arg V0 r h)
theorem val7_arg (r : Ref sig .tc) (h : r ∉ ops_W) : val7 V0 (Proc.devRef .tc r) = V0 (Proc.devRef .tc r) :=
  (val7_step V0 r (fun hm => h (opsE2_W_sub r hm))).trans (val6_arg V0 r h)
theorem val8_arg (r : Ref sig .tc) (h : r ∉ ops_W) : val8 V0 (Proc.devRef .tc r) = V0 (Proc.devRef .tc r) :=
  (val8_step V0 r (fun hm => h (opsE3_W_sub r hm))).trans (val7_arg V0 r h)
theorem val9_arg (r : Ref sig .tc) (h : r ∉ ops_W) : val9 V0 (Proc.devRef .tc r) = V0 (Proc.devRef .tc r) :=
  (val9_step V0 r (fun hm => h (opsE4_W_sub r hm))).trans (val8_arg V0 r h)
theorem val10_arg (r : Ref sig .tc) (h : r ∉ ops_W) : val10 V0 (Proc.devRef .tc r) = V0 (Proc.devRef .tc r) :=
  (val10_step V0 r (fun hm => h (opsE5_W_sub r hm))).trans (val9_arg V0 r h)

/-! ## Window A -/

/-- After window A: the authors' self features. -/
theorem val1_main_v3 : val1 V0 (Proc.devRef .tc main_v3) = FnsA.lin256 (V0 (Proc.devRef .tc main_arg0)) (V0 (Proc.devRef .tc main_arg6)) (V0 (Proc.devRef .tc main_arg7)) := by
  unfold val1 val0
  simp only [opsA]
  after_results_simp
  rfl

/-! ## Window B -/

theorem val2_main_v3 : val2 V0 (Proc.devRef .tc main_v3) = FnsA.lin256 (V0 (Proc.devRef .tc main_arg0)) (V0 (Proc.devRef .tc main_arg6)) (V0 (Proc.devRef .tc main_arg7)) :=
  (val2_step V0 main_v3 (by decide)).trans (val1_main_v3 V0)
/-- After window B: the papers' self features. -/
theorem val2_main_v7 : val2 V0 (Proc.devRef .tc main_v7) = FnsP.lin256 (V0 (Proc.devRef .tc main_arg1)) (V0 (Proc.devRef .tc main_arg8)) (V0 (Proc.devRef .tc main_arg9)) := by
  unfold val2
  simp only [opsB]
  after_results_simp
  simp only [val1_arg V0 main_arg1 (by decide), val1_arg V0 main_arg8 (by decide), val1_arg V0 main_arg9 (by decide)]
  rfl

/-! ## Window C -/

theorem val3_main_v3 : val3 V0 (Proc.devRef .tc main_v3) = FnsA.lin256 (V0 (Proc.devRef .tc main_arg0)) (V0 (Proc.devRef .tc main_arg6)) (V0 (Proc.devRef .tc main_arg7)) :=
  (val3_step V0 main_v3 (by decide)).trans (val2_main_v3 V0)
theorem val3_main_v7 : val3 V0 (Proc.devRef .tc main_v7) = FnsP.lin256 (V0 (Proc.devRef .tc main_arg1)) (V0 (Proc.devRef .tc main_arg8)) (V0 (Proc.devRef .tc main_arg9)) :=
  (val3_step V0 main_v7 (by decide)).trans (val2_main_v7 V0)
set_option maxHeartbeats 2000000 in
set_option maxRecDepth 8192 in
/-- After window C: the authors' relation features. -/
theorem val3_main_v30 : val3 V0 (Proc.devRef .tc main_v30) = FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)) := by
  unfold val3
  simp only [opsC]
  after_results_simp
  simp only [val2_arg V0 main_arg5 (by decide), val2_arg V0 main_arg4 (by decide), val2_arg V0 main_arg1 (by decide), val2_arg V0 main_arg28 (by decide), val2_arg V0 main_arg29 (by decide)]
  rfl

/-! ## Window D0 -/

theorem val4_main_v3 : val4 V0 (Proc.devRef .tc main_v3) = FnsA.lin256 (V0 (Proc.devRef .tc main_arg0)) (V0 (Proc.devRef .tc main_arg6)) (V0 (Proc.devRef .tc main_arg7)) :=
  (val4_step V0 main_v3 (by decide)).trans (val3_main_v3 V0)
theorem val4_main_v7 : val4 V0 (Proc.devRef .tc main_v7) = FnsP.lin256 (V0 (Proc.devRef .tc main_arg1)) (V0 (Proc.devRef .tc main_arg8)) (V0 (Proc.devRef .tc main_arg9)) :=
  (val4_step V0 main_v7 (by decide)).trans (val3_main_v7 V0)
theorem val4_main_v30 : val4 V0 (Proc.devRef .tc main_v30) = FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)) :=
  (val4_step V0 main_v30 (by decide)).trans (val3_main_v30 V0)

/-! ## Window D1 -/

theorem val5_main_v3 : val5 V0 (Proc.devRef .tc main_v3) = FnsA.lin256 (V0 (Proc.devRef .tc main_arg0)) (V0 (Proc.devRef .tc main_arg6)) (V0 (Proc.devRef .tc main_arg7)) :=
  (val5_step V0 main_v3 (by decide)).trans (val4_main_v3 V0)
theorem val5_main_v7 : val5 V0 (Proc.devRef .tc main_v7) = FnsP.lin256 (V0 (Proc.devRef .tc main_arg1)) (V0 (Proc.devRef .tc main_arg8)) (V0 (Proc.devRef .tc main_arg9)) :=
  (val5_step V0 main_v7 (by decide)).trans (val4_main_v7 V0)
theorem val5_main_v30 : val5 V0 (Proc.devRef .tc main_v30) = FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)) :=
  (val5_step V0 main_v30 (by decide)).trans (val4_main_v30 V0)
set_option maxHeartbeats 2000000 in
set_option maxRecDepth 8192 in
/-- After window D1: the papers' relation features. -/
theorem val5_main_v53 : val5 V0 (Proc.devRef .tc main_v53) = FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)) := by
  unfold val5 val4
  simp only [opsD0, opsD1]
  after_results_simp
  simp only [val3_arg V0 main_arg3 (by decide), val3_arg V0 main_arg2 (by decide), val3_arg V0 main_arg0 (by decide), val3_arg V0 main_arg26 (by decide), val3_arg V0 main_arg27 (by decide)]
  rfl

/-! ## Window E1 -/

theorem val6_main_v3 : val6 V0 (Proc.devRef .tc main_v3) = FnsA.lin256 (V0 (Proc.devRef .tc main_arg0)) (V0 (Proc.devRef .tc main_arg6)) (V0 (Proc.devRef .tc main_arg7)) :=
  (val6_step V0 main_v3 (by decide)).trans (val5_main_v3 V0)
theorem val6_main_v7 : val6 V0 (Proc.devRef .tc main_v7) = FnsP.lin256 (V0 (Proc.devRef .tc main_arg1)) (V0 (Proc.devRef .tc main_arg8)) (V0 (Proc.devRef .tc main_arg9)) :=
  (val6_step V0 main_v7 (by decide)).trans (val5_main_v7 V0)
theorem val6_main_v30 : val6 V0 (Proc.devRef .tc main_v30) = FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)) :=
  (val6_step V0 main_v30 (by decide)).trans (val5_main_v30 V0)
theorem val6_main_v53 : val6 V0 (Proc.devRef .tc main_v53) = FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)) :=
  (val6_step V0 main_v53 (by decide)).trans (val5_main_v53 V0)
/-- After window E1: the authors' right-hand score column. -/
theorem val6_main_v61 : val6 V0 (Proc.devRef .tc main_v61) = FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23)) := by
  unfold val6
  simp only [opsE1]
  after_results_simp
  simp only [val5_main_v3 V0, val5_arg V0 main_arg10 (by decide), val5_arg V0 main_arg11 (by decide), val5_arg V0 main_arg22 (by decide), val5_arg V0 main_arg23 (by decide)]
  rfl

/-! ## Window E2 -/

theorem val7_main_v3 : val7 V0 (Proc.devRef .tc main_v3) = FnsA.lin256 (V0 (Proc.devRef .tc main_arg0)) (V0 (Proc.devRef .tc main_arg6)) (V0 (Proc.devRef .tc main_arg7)) :=
  (val7_step V0 main_v3 (by decide)).trans (val6_main_v3 V0)
theorem val7_main_v7 : val7 V0 (Proc.devRef .tc main_v7) = FnsP.lin256 (V0 (Proc.devRef .tc main_arg1)) (V0 (Proc.devRef .tc main_arg8)) (V0 (Proc.devRef .tc main_arg9)) :=
  (val7_step V0 main_v7 (by decide)).trans (val6_main_v7 V0)
theorem val7_main_v30 : val7 V0 (Proc.devRef .tc main_v30) = FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)) :=
  (val7_step V0 main_v30 (by decide)).trans (val6_main_v30 V0)
theorem val7_main_v53 : val7 V0 (Proc.devRef .tc main_v53) = FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)) :=
  (val7_step V0 main_v53 (by decide)).trans (val6_main_v53 V0)
theorem val7_main_v61 : val7 V0 (Proc.devRef .tc main_v61) = FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23)) :=
  (val7_step V0 main_v61 (by decide)).trans (val6_main_v61 V0)
set_option maxHeartbeats 2000000 in
set_option maxRecDepth 8192 in
/-- After window E2: the self channel's logit column. -/
theorem val7_main_v71 : val7 V0 (Proc.devRef .tc main_v71) = FnsA.logit (FnsA.lin256 (V0 (Proc.devRef .tc main_arg0)) (V0 (Proc.devRef .tc main_arg6)) (V0 (Proc.devRef .tc main_arg7))) (V0 (Proc.devRef .tc main_arg14)) (V0 (Proc.devRef .tc main_arg15)) (V0 (Proc.devRef .tc main_arg18)) (V0 (Proc.devRef .tc main_arg19)) (FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23))) := by
  unfold val7
  simp only [opsE2]
  after_results_simp
  simp only [val6_main_v3 V0, val6_main_v61 V0, val6_arg V0 main_arg14 (by decide), val6_arg V0 main_arg15 (by decide), val6_arg V0 main_arg18 (by decide), val6_arg V0 main_arg19 (by decide)]
  rfl

/-! ## Window E3 -/

theorem val8_main_v3 : val8 V0 (Proc.devRef .tc main_v3) = FnsA.lin256 (V0 (Proc.devRef .tc main_arg0)) (V0 (Proc.devRef .tc main_arg6)) (V0 (Proc.devRef .tc main_arg7)) :=
  (val8_step V0 main_v3 (by decide)).trans (val7_main_v3 V0)
theorem val8_main_v7 : val8 V0 (Proc.devRef .tc main_v7) = FnsP.lin256 (V0 (Proc.devRef .tc main_arg1)) (V0 (Proc.devRef .tc main_arg8)) (V0 (Proc.devRef .tc main_arg9)) :=
  (val8_step V0 main_v7 (by decide)).trans (val7_main_v7 V0)
theorem val8_main_v30 : val8 V0 (Proc.devRef .tc main_v30) = FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)) :=
  (val8_step V0 main_v30 (by decide)).trans (val7_main_v30 V0)
theorem val8_main_v53 : val8 V0 (Proc.devRef .tc main_v53) = FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)) :=
  (val8_step V0 main_v53 (by decide)).trans (val7_main_v53 V0)
theorem val8_main_v71 : val8 V0 (Proc.devRef .tc main_v71) = FnsA.logit (FnsA.lin256 (V0 (Proc.devRef .tc main_arg0)) (V0 (Proc.devRef .tc main_arg6)) (V0 (Proc.devRef .tc main_arg7))) (V0 (Proc.devRef .tc main_arg14)) (V0 (Proc.devRef .tc main_arg15)) (V0 (Proc.devRef .tc main_arg18)) (V0 (Proc.devRef .tc main_arg19)) (FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23))) :=
  (val8_step V0 main_v71 (by decide)).trans (val7_main_v71 V0)
set_option maxHeartbeats 2000000 in
set_option maxRecDepth 8192 in
/-- After window E3: the relation channel's logit column. -/
theorem val8_main_v81 : val8 V0 (Proc.devRef .tc main_v81) = FnsA.logit (FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29))) (V0 (Proc.devRef .tc main_arg14)) (V0 (Proc.devRef .tc main_arg15)) (V0 (Proc.devRef .tc main_arg18)) (V0 (Proc.devRef .tc main_arg19)) (FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23))) := by
  unfold val8
  simp only [opsE3]
  after_results_simp
  simp only [val7_main_v30 V0, val7_main_v61 V0, val7_arg V0 main_arg14 (by decide), val7_arg V0 main_arg15 (by decide), val7_arg V0 main_arg18 (by decide), val7_arg V0 main_arg19 (by decide)]
  rfl

/-! ## Window E4 -/

theorem val9_main_v7 : val9 V0 (Proc.devRef .tc main_v7) = FnsP.lin256 (V0 (Proc.devRef .tc main_arg1)) (V0 (Proc.devRef .tc main_arg8)) (V0 (Proc.devRef .tc main_arg9)) :=
  (val9_step V0 main_v7 (by decide)).trans (val8_main_v7 V0)
theorem val9_main_v53 : val9 V0 (Proc.devRef .tc main_v53) = FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)) :=
  (val9_step V0 main_v53 (by decide)).trans (val8_main_v53 V0)
set_option maxHeartbeats 2000000 in
set_option maxRecDepth 8192 in
/-- After window E4: the attention-weighted sum of the two channels. -/
theorem val9_main_v104 : val9 V0 (Proc.devRef .tc main_v104) = FnsA.comb (FnsA.logit (FnsA.lin256 (V0 (Proc.devRef .tc main_arg0)) (V0 (Proc.devRef .tc main_arg6)) (V0 (Proc.devRef .tc main_arg7))) (V0 (Proc.devRef .tc main_arg14)) (V0 (Proc.devRef .tc main_arg15)) (V0 (Proc.devRef .tc main_arg18)) (V0 (Proc.devRef .tc main_arg19)) (FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23)))) (FnsA.logit (FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29))) (V0 (Proc.devRef .tc main_arg14)) (V0 (Proc.devRef .tc main_arg15)) (V0 (Proc.devRef .tc main_arg18)) (V0 (Proc.devRef .tc main_arg19)) (FnsA.hr (FnsA.lin256 (V0 (Proc.devRef .tc main_arg0)) (V0 (Proc.devRef .tc main_arg6)) (V0 (Proc.devRef .tc main_arg7))) (V0 (Proc.devRef .tc main_arg10)) (V0 (Proc.devRef .tc main_arg11)) (V0 (Proc.devRef .tc main_arg22)) (V0 (Proc.devRef .tc main_arg23)))) (FnsA.lin256 (V0 (Proc.devRef .tc main_arg0)) (V0 (Proc.devRef .tc main_arg6)) (V0 (Proc.devRef .tc main_arg7))) (FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29))) := by
  unfold val9
  simp only [opsE4]
  after_results_simp
  simp only [val8_main_v71 V0, val8_main_v81 V0, val8_main_v3 V0, val8_main_v30 V0]
  rfl

/-! ## Window E5 -/

/-- … the papers' self features are still there … -/
theorem val10_main_v7 : val10 V0 (Proc.devRef .tc main_v7) = FnsP.lin256 (V0 (Proc.devRef .tc main_arg1)) (V0 (Proc.devRef .tc main_arg8)) (V0 (Proc.devRef .tc main_arg9)) :=
  (val10_step V0 main_v7 (by decide)).trans (val9_main_v7 V0)
/-- … and so are the papers' relation features. -/
theorem val10_main_v53 : val10 V0 (Proc.devRef .tc main_v53) = FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)) :=
  (val10_step V0 main_v53 (by decide)).trans (val9_main_v53 V0)
set_option maxHeartbeats 2000000 in
set_option maxRecDepth 8192 in
/-- After the tenth window the first result holds the author half of the layer. -/
theorem val10_main_v105 : val10 V0 (Proc.devRef .tc main_v105) = FnsA.node (FnsA.lin256 (V0 (Proc.devRef .tc main_arg0)) (V0 (Proc.devRef .tc main_arg6)) (V0 (Proc.devRef .tc main_arg7))) (FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29))) (V0 (Proc.devRef .tc main_arg10)) (V0 (Proc.devRef .tc main_arg11)) (V0 (Proc.devRef .tc main_arg14)) (V0 (Proc.devRef .tc main_arg15)) (V0 (Proc.devRef .tc main_arg18)) (V0 (Proc.devRef .tc main_arg19)) (V0 (Proc.devRef .tc main_arg22)) (V0 (Proc.devRef .tc main_arg23)) := by
  unfold val10
  simp only [opsE5]
  after_results_simp
  simp only [val9_main_v104 V0]
  rfl

/-! ## After the tenth window -/

/-- A buffer none of the program's operations writes still holds its launch contents after the tenth window. -/
theorem val10_keep (r : Ref sig .tc) (h : r ∉ ops_W) : val10 V0 (Proc.devRef .tc r) = V0 (Proc.devRef .tc r) :=
  val10_arg V0 r h

end Cert.ReferenceIdeal.Vals

end
-- ==== Proof.RefValuesP.lean ====
import proofs.«161233_j27118423507478_1_alg».proof.Proof.RefValuesA

/-! # The reference's buffers after its last five windows (the paper half), and the whole program's results -/

noncomputable section

namespace Cert.ReferenceIdeal.Vals

open Idealize.ShloMosaic Idealize.ShloMosaic.TcCoe Idealize.ShloMosaic.StableHlo Idealize.SL.Sem
open Cert.ReferenceIdeal Cert.ReferenceIdeal.Gen Cert.ReferenceIdeal.Ops

variable {F : FTy → Type} [FloatOps F] (V0 : Valuation τ sig (Elt F))
/-- The buffer contents after window F1. -/
def val11 : Valuation τ sig (Elt F) := after opsF1 (val10 V0)
/-- The buffer contents after window F2. -/
def val12 : Valuation τ sig (Elt F) := after opsF2 (val11 V0)
/-- The buffer contents after window F3. -/
def val13 : Valuation τ sig (Elt F) := after opsF3 (val12 V0)
/-- The buffer contents after window F4. -/
def val14 : Valuation τ sig (Elt F) := after opsF4 (val13 V0)
/-- The buffer contents after window F5. -/
def val15 : Valuation τ sig (Elt F) := after opsF5 (val14 V0)

set_option quotPrecheck false in
/-- The papers' self features, of the launch contents. -/
local notation "zP" => (FnsP.lin256 (V0 (Proc.devRef .tc main_arg1)) (V0 (Proc.devRef .tc main_arg8)) (V0 (Proc.devRef .tc main_arg9)))
set_option quotPrecheck false in
/-- The papers' relation features: the affine map of the mean of the neighbouring authors' rows. -/
local notation "cvP" => (FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)))
set_option quotPrecheck false in
/-- The author half of the layer, of the launch contents. -/
local notation "nodeA" => (FnsA.node (FnsA.lin256 (V0 (Proc.devRef .tc main_arg0)) (V0 (Proc.devRef .tc main_arg6)) (V0 (Proc.devRef .tc main_arg7)))
        (FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)))
        (V0 (Proc.devRef .tc main_arg10)) (V0 (Proc.devRef .tc main_arg11)) (V0 (Proc.devRef .tc main_arg14)) (V0 (Proc.devRef .tc main_arg15)) (V0 (Proc.devRef .tc main_arg18)) (V0 (Proc.devRef .tc main_arg19)) (V0 (Proc.devRef .tc main_arg22)) (V0 (Proc.devRef .tc main_arg23)))
set_option quotPrecheck false in
/-- The right-hand attention score of the papers' self features. -/
local notation "hrP" => (FnsP.hr zP (V0 (Proc.devRef .tc main_arg12)) (V0 (Proc.devRef .tc main_arg13)) (V0 (Proc.devRef .tc main_arg24)) (V0 (Proc.devRef .tc main_arg25)))
set_option quotPrecheck false in
/-- The self channel's attention logit. -/
local notation "l0P" => (FnsP.logit zP (V0 (Proc.devRef .tc main_arg16)) (V0 (Proc.devRef .tc main_arg17)) (V0 (Proc.devRef .tc main_arg20)) (V0 (Proc.devRef .tc main_arg21)) hrP)
set_option quotPrecheck false in
/-- The relation channel's attention logit. -/
local notation "l1P" => (FnsP.logit cvP (V0 (Proc.devRef .tc main_arg16)) (V0 (Proc.devRef .tc main_arg17)) (V0 (Proc.devRef .tc main_arg20)) (V0 (Proc.devRef .tc main_arg21)) hrP)

/-! ## The five windows, each over arbitrary contents -/

section Windows
variable (V : Valuation τ sig (Elt F))

/-- Window F1 composes the two affine maps of the right-hand attention score. -/
theorem opsF1_hr : after opsF1 V (Proc.devRef .tc main_v113) = FnsP.hr (V (Proc.devRef .tc main_v7)) (V (Proc.devRef .tc main_arg12)) (V (Proc.devRef .tc main_arg13)) (V (Proc.devRef .tc main_arg24)) (V (Proc.devRef .tc main_arg25)) := by
  simp only [opsF1]
  after_results_simp
  rfl

set_option maxRecDepth 8192 in
set_option maxHeartbeats 2000000 in
/-- Window F2 composes the self channel's logit: two affine maps, the right-hand score added, the exponential linear unit. -/
theorem opsF2_logit : after opsF2 V (Proc.devRef .tc main_v123)
    = FnsP.logit (V (Proc.devRef .tc main_v7)) (V (Proc.devRef .tc main_arg16)) (V (Proc.devRef .tc main_arg17)) (V (Proc.devRef .tc main_arg20)) (V (Proc.devRef .tc main_arg21)) (V (Proc.devRef .tc main_v113)) := by
  simp only [opsF2]
  after_results_simp
  rfl

set_option maxRecDepth 8192 in
set_option maxHeartbeats 2000000 in
/-- Window F3 composes the relation channel's logit, the same maps over the relation features. -/
theorem opsF3_logit : after opsF3 V (Proc.devRef .tc main_v133)
    = FnsP.logit (V (Proc.devRef .tc main_v53)) (V (Proc.devRef .tc main_arg16)) (V (Proc.devRef .tc main_arg17)) (V (Proc.devRef .tc main_arg20)) (V (Proc.devRef .tc main_arg21)) (V (Proc.devRef .tc main_v113)) := by
  simp only [opsF3]
  after_results_simp
  rfl

set_option maxRecDepth 8192 in
set_option maxHeartbeats 2000000 in
/-- Window F4 composes the two-way softmax over the stacked logits and the weighted sum of the two channels; the two
    slabs of the stack are the two logit columns, each given a leading axis of length one. -/
theorem opsF4_comb : after opsF4 V (Proc.devRef .tc main_v156)
    = FnsP.comb (V (Proc.devRef .tc main_v123)) (V (Proc.devRef .tc main_v133)) (V (Proc.devRef .tc main_v7)) (V (Proc.devRef .tc main_v53)) := by
  simp only [opsF4]
  after_results_simp
  repeat (first | rw [unary_result] | (rw [unary_result_ne]; rotate_left; decide))
  rfl

set_option maxRecDepth 8192 in
set_option maxHeartbeats 2000000 in
/-- Window F5 applies the exponential linear unit to the combined features. -/
theorem opsF5_elu : after opsF5 V (Proc.devRef .tc main_v157) = FnsP.elu256 (V (Proc.devRef .tc main_v156)) := by
  simp only [opsF5]
  after_results_simp
  rfl

end Windows

/-! ## The buffers after each window, of the launch contents -/

/-- A buffer window F1 does not write holds after it what it held before. -/
theorem val11_keep (r : Ref sig .tc) (h : r ∉ opsF1_W) : val11 V0 (Proc.devRef .tc r) = val10 V0 (Proc.devRef .tc r) :=
  after_of_writes_sub opsF1 _ opsF1_writes h
/-- A buffer no operation of the program writes still holds its launch contents after window F1. -/
theorem val11_arg (r : Ref sig .tc) (h : r ∉ ops_W) : val11 V0 (Proc.devRef .tc r) = V0 (Proc.devRef .tc r) :=
  (val11_keep V0 r (fun hm => h (opsF1_W_sub r hm))).trans (val10_keep V0 r h)
/-- The first result is carried through window F1. -/
theorem val11_main_v105 : val11 V0 (Proc.devRef .tc main_v105) = nodeA :=
  (val11_keep V0 main_v105 (by decide)).trans (val10_main_v105 V0)
/-- The papers' self features are carried through window F1. -/
theorem val11_main_v7 : val11 V0 (Proc.devRef .tc main_v7) = zP :=
  (val11_keep V0 main_v7 (by decide)).trans (val10_main_v7 V0)
/-- The papers' relation features are carried through window F1. -/
theorem val11_main_v53 : val11 V0 (Proc.devRef .tc main_v53) = cvP :=
  (val11_keep V0 main_v53 (by decide)).trans (val10_main_v53 V0)
/-- After window F1: the right-hand attention score of the papers' self features. -/
theorem val11_main_v113 : val11 V0 (Proc.devRef .tc main_v113) = hrP :=
  (opsF1_hr (val10 V0)).trans (by
    rw [val10_main_v7 V0, val10_keep V0 main_arg12 (by decide), val10_keep V0 main_arg13 (by decide), val10_keep V0 main_arg24 (by decide), val10_keep V0 main_arg25 (by decide)])

/-- A buffer window F2 does not write holds after it what it held before. -/
theorem val12_keep (r : Ref sig .tc) (h : r ∉ opsF2_W) : val12 V0 (Proc.devRef .tc r) = val11 V0 (Proc.devRef .tc r) :=
  after_of_writes_sub opsF2 _ opsF2_writes h
/-- A buffer no operation of the program writes still holds its launch contents after window F2. -/
theorem val12_arg (r : Ref sig .tc) (h : r ∉ ops_W) : val12 V0 (Proc.devRef .tc r) = V0 (Proc.devRef .tc r) :=
  (val12_keep V0 r (fun hm => h (opsF2_W_sub r hm))).trans (val11_arg V0 r h)
/-- The first result is carried through window F2. -/
theorem val12_main_v105 : val12 V0 (Proc.devRef .tc main_v105) = nodeA :=
  (val12_keep V0 main_v105 (by decide)).trans (val11_main_v105 V0)
/-- The papers' self features are carried through window F2. -/
theorem val12_main_v7 : val12 V0 (Proc.devRef .tc main_v7) = zP :=
  (val12_keep V0 main_v7 (by decide)).trans (val11_main_v7 V0)
/-- The papers' relation features are carried through window F2. -/
theorem val12_main_v53 : val12 V0 (Proc.devRef .tc main_v53) = cvP :=
  (val12_keep V0 main_v53 (by decide)).trans (val11_main_v53 V0)
/-- The right-hand score is carried through window F2. -/
theorem val12_main_v113 : val12 V0 (Proc.devRef .tc main_v113) = hrP :=
  (val12_keep V0 main_v113 (by decide)).trans (val11_main_v113 V0)
/-- After window F2: the self channel's logit. -/
theorem val12_main_v123 : val12 V0 (Proc.devRef .tc main_v123) = l0P :=
  (opsF2_logit (val11 V0)).trans (by
    rw [val11_main_v7 V0, val11_main_v113 V0, val11_arg V0 main_arg16 (by decide), val11_arg V0 main_arg17 (by decide), val11_arg V0 main_arg20 (by decide), val11_arg V0 main_arg21 (by decide)])

/-- A buffer window F3 does not write holds after it what it held before. -/
theorem val13_keep (r : Ref sig .tc) (h : r ∉ opsF3_W) : val13 V0 (Proc.devRef .tc r) = val12 V0 (Proc.devRef .tc r) :=
  after_of_writes_sub opsF3 _ opsF3_writes h
/-- A buffer no operation of the program writes still holds its launch contents after window F3. -/
theorem val13_arg (r : Ref sig .tc) (h : r ∉ ops_W) : val13 V0 (Proc.devRef .tc r) = V0 (Proc.devRef .tc r) :=
  (val13_keep V0 r (fun hm => h (opsF3_W_sub r hm))).trans (val12_arg V0 r h)
/-- The first result is carried through window F3. -/
theorem val13_main_v105 : val13 V0 (Proc.devRef .tc main_v105) = nodeA :=
  (val13_keep V0 main_v105 (by decide)).trans (val12_main_v105 V0)
/-- The papers' self features are carried through window F3. -/
theorem val13_main_v7 : val13 V0 (Proc.devRef .tc main_v7) = zP :=
  (val13_keep V0 main_v7 (by decide)).trans (val12_main_v7 V0)
/-- The papers' relation features are carried through window F3. -/
theorem val13_main_v53 : val13 V0 (Proc.devRef .tc main_v53) = cvP :=
  (val13_keep V0 main_v53 (by decide)).trans (val12_main_v53 V0)
/-- The self channel's logit is carried through window F3. -/
theorem val13_main_v123 : val13 V0 (Proc.devRef .tc main_v123) = l0P :=
  (val13_keep V0 main_v123 (by decide)).trans (val12_main_v123 V0)
/-- After window F3: the relation channel's logit. -/
theorem val13_main_v133 : val13 V0 (Proc.devRef .tc main_v133) = l1P :=
  (opsF3_logit (val12 V0)).trans (by
    rw [val12_main_v53 V0, val12_main_v113 V0, val12_arg V0 main_arg16 (by decide), val12_arg V0 main_arg17 (by decide), val12_arg V0 main_arg20 (by decide), val12_arg V0 main_arg21 (by decide)])

/-- A buffer window F4 does not write holds after it what it held before. -/
theorem val14_keep (r : Ref sig .tc) (h : r ∉ opsF4_W) : val14 V0 (Proc.devRef .tc r) = val13 V0 (Proc.devRef .tc r) :=
  after_of_writes_sub opsF4 _ opsF4_writes h
/-- A buffer no operation of the program writes still holds its launch contents after window F4. -/
theorem val14_arg (r : Ref sig .tc) (h : r ∉ ops_W) : val14 V0 (Proc.devRef .tc r) = V0 (Proc.devRef .tc r) :=
  (val14_keep V0 r (fun hm => h (opsF4_W_sub r hm))).trans (val13_arg V0 r h)
/-- The first result is carried through window F4. -/
theorem val14_main_v105 : val14 V0 (Proc.devRef .tc main_v105) = nodeA :=
  (val14_keep V0 main_v105 (by decide)).trans (val13_main_v105 V0)
/-- After window F4: the attention-weighted sum of the two channels. -/
theorem val14_main_v156 : val14 V0 (Proc.devRef .tc main_v156) = FnsP.comb l0P l1P zP cvP :=
  (opsF4_comb (val13 V0)).trans (by
    rw [val13_main_v123 V0, val13_main_v133 V0, val13_main_v7 V0, val13_main_v53 V0])

/-- A buffer window F5 does not write holds after it what it held before. -/
theorem val15_keep (r : Ref sig .tc) (h : r ∉ opsF5_W) : val15 V0 (Proc.devRef .tc r) = val14 V0 (Proc.devRef .tc r) :=
  after_of_writes_sub opsF5 _ opsF5_writes h
/-- A buffer no operation of the program writes still holds its launch contents after window F5. -/
theorem val15_arg (r : Ref sig .tc) (h : r ∉ ops_W) : val15 V0 (Proc.devRef .tc r) = V0 (Proc.devRef .tc r) :=
  (val15_keep V0 r (fun hm => h (opsF5_W_sub r hm))).trans (val14_arg V0 r h)
/-- The first result is carried through window F5. -/
theorem val15_main_v105 : val15 V0 (Proc.devRef .tc main_v105) = nodeA :=
  (val15_keep V0 main_v105 (by decide)).trans (val14_main_v105 V0)
/-- After window F5: the paper half of the layer. -/
theorem val15_main_v157 :
    val15 V0 (Proc.devRef .tc main_v157)
      = FnsP.node zP cvP (V0 (Proc.devRef .tc main_arg12)) (V0 (Proc.devRef .tc main_arg13)) (V0 (Proc.devRef .tc main_arg16)) (V0 (Proc.devRef .tc main_arg17)) (V0 (Proc.devRef .tc main_arg20)) (V0 (Proc.devRef .tc main_arg21)) (V0 (Proc.devRef .tc main_arg24)) (V0 (Proc.devRef .tc main_arg25)) :=
  (opsF5_elu (val14 V0)).trans (by rw [val14_main_v156 V0]; rfl)

/-- The fold over a concatenation is the fold over the second list after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole operation list's fold is the windows' folds one after the other. -/
theorem after_ops : after ops V0 = val15 V0 := by
  unfold val15 val14 val13 val12 val11 val10 val9 val8 val7 val6 val5 val4 val3 val2 val1 val0
  unfold ops part0 part1 part2
  simp only [after_app]

/-- The first result: the author half of the layer, of the launch contents. -/
theorem out_a :
    after ops V0 (Proc.devRef .tc main_v105)
      = FnsA.node (FnsA.lin256 (V0 (Proc.devRef .tc main_arg0)) (V0 (Proc.devRef .tc main_arg6)) (V0 (Proc.devRef .tc main_arg7)))
        (FnsA.lin256 (FnsA.agg (V0 (Proc.devRef .tc main_arg1)) (V0 (Proc.devRef .tc main_arg4)) (V0 (Proc.devRef .tc main_arg5))) (V0 (Proc.devRef .tc main_arg28)) (V0 (Proc.devRef .tc main_arg29)))
        (V0 (Proc.devRef .tc main_arg10)) (V0 (Proc.devRef .tc main_arg11)) (V0 (Proc.devRef .tc main_arg14)) (V0 (Proc.devRef .tc main_arg15)) (V0 (Proc.devRef .tc main_arg18)) (V0 (Proc.devRef .tc main_arg19)) (V0 (Proc.devRef .tc main_arg22)) (V0 (Proc.devRef .tc main_arg23)) := by
  rw [after_ops]; exact val15_main_v105 V0

/-- The second result: the paper half. -/
theorem out_p :
    after ops V0 (Proc.devRef .tc main_v157)
      = FnsP.node (FnsP.lin256 (V0 (Proc.devRef .tc main_arg1)) (V0 (Proc.devRef .tc main_arg8)) (V0 (Proc.devRef .tc main_arg9)))
        (FnsP.lin256 (FnsP.agg (V0 (Proc.devRef .tc main_arg0)) (V0 (Proc.devRef .tc main_arg2)) (V0 (Proc.devRef .tc main_arg3))) (V0 (Proc.devRef .tc main_arg26)) (V0 (Proc.devRef .tc main_arg27)))
        (V0 (Proc.devRef .tc main_arg12)) (V0 (Proc.devRef .tc main_arg13)) (V0 (Proc.devRef .tc main_arg16)) (V0 (Proc.devRef .tc main_arg17)) (V0 (Proc.devRef .tc main_arg20)) (V0 (Proc.devRef .tc main_arg21)) (V0 (Proc.devRef .tc main_arg24)) (V0 (Proc.devRef .tc main_arg25)) := by
  rw [after_ops]; exact val15_main_v157 V0

/-- A buffer no operation writes (every argument) ends as launched. -/
theorem keep (r : Ref sig .tc) (h : r ∉ ops_W) : after ops V0 (Proc.devRef .tc r) = V0 (Proc.devRef .tc r) := by
  rw [after_ops]; exact val15_arg V0 r h

end Cert.ReferenceIdeal.Vals

end
-- ==== Proof.RefReadA.lean ====
import proofs.«161233_j27118423507478_1_alg».proof.Proof.RefFnsA
import proofs.«161233_j27118423507478_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

/-! # The reference's author half read entry by entry: it is the layer's row function on every row -/

noncomputable section

namespace Cert.ReferenceIdeal.ReadA

open Idealize.ShloMosaic Idealize.ShloMosaic.ValueIdx Cert.ReferenceIdeal Cert.ReferenceIdeal.Gen Cert.ReferenceIdeal.FnsA Cert.NodeSpec
open scoped BigOperators

section Layout
variable {α : Type}

/-- A bias `[O]` laid as one row and then over `N` rows reads, at `(n, o)`, its entry `o`. -/
theorem bias_apply {N O : ℕ} (b : (⟨1, ![O]⟩ : Shape).Idx → α)
    (h1 : (⟨1, ![O]⟩ : Shape).BroadcastsInDim ⟨2, ![1, O]⟩ ![1])
    (h2 : (⟨2, ![1, O]⟩ : Shape).BroadcastsInDim ⟨2, ![N, O]⟩ ![0, 1]) (n : Fin N) (o : Fin O) :
    broadcastInDim ⟨2, ![N, O]⟩ ![0, 1] h2 (broadcastInDim ⟨2, ![1, O]⟩ ![1] h1 b) (ix2 n o) = b (ix1 o) := by
  refine (broadcastInDim_apply ![0, 1] h2 _ (ix2 n o) (ix2 (0 : Fin 1) o) fun ax => ?_).trans ?_
  · match ax with
    | ⟨0, _⟩ => rfl
    | ⟨1, _⟩ =>
      show o.val = if O = 1 then 0 else o.val
      split
      · have := o.isLt; omega
      · rfl
  · refine broadcastInDim_apply ![1] h1 b (ix2 (0 : Fin 1) o) (ix1 o) fun ax => ?_
    match ax with
    | ⟨0, _⟩ =>
      show o.val = if O = 1 then 0 else o.val
      split
      · have := o.isLt; omega
      · rfl

end Layout

/-! ## The three contractions at an index

Each product contracts axis 1 of the left operand with axis 0 of the right one: the left index at result `(n, o)` and
contraction position `k` is `(n, k)`, the right one `(k, o)`. -/

theorem l256_0 (j : S40000x256.Idx) (k : dot_S40000x256_S256x256_S40000x256_1_0_0_1_n_n.contr.Idx) :
    ((dot_S40000x256_S256x256_S40000x256_1_0_0_1_n_n.lhsIdx j k) 0).val = (j 0).val := by
  unfold DotDims.lhsIdx
  rw [dif_neg (show ¬(0 : Fin S40000x256.rank) ∈ dot_S40000x256_S256x256_S40000x256_1_0_0_1_n_n.lhsBatch by decide),
    dif_pos (show (0 : Fin S40000x256.rank) ∈ dot_S40000x256_S256x256_S40000x256_1_0_0_1_n_n.lhsNonContracting by decide)]
  rfl

theorem l256_1 (j : S40000x256.Idx) (k : dot_S40000x256_S256x256_S40000x256_1_0_0_1_n_n.contr.Idx) :
    ((dot_S40000x256_S256x256_S40000x256_1_0_0_1_n_n.lhsIdx j k) 1).val = (k ⟨0, Nat.one_pos⟩).val :=
  DotDims.lhsIdx_val_of_single (d := dot_S40000x256_S256x256_S40000x256_1_0_0_1_n_n) (cl := 1) rfl j k

theorem r256_0 (j : S40000x256.Idx) (k : dot_S40000x256_S256x256_S40000x256_1_0_0_1_n_n.contr.Idx) :
    ((dot_S40000x256_S256x256_S40000x256_1_0_0_1_n_n.rhsIdx j k) 0).val = (k ⟨0, Nat.one_pos⟩).val :=
  DotDims.rhsIdx_val_of_single (d := dot_S40000x256_S256x256_S40000x256_1_0_0_1_n_n) (cr := 0) rfl j k

theorem r256_1 (j : S40000x256.Idx) (k : dot_S40000x256_S256x256_S40000x256_1_0_0_1_n_n.contr.Idx) :
    ((dot_S40000x256_S256x256_S40000x256_1_0_0_1_n_n.rhsIdx j k) 1).val = (j 1).val := by
  unfold DotDims.rhsIdx
  rw [dif_neg (show ¬(1 : Fin S256x256.rank) ∈ dot_S40000x256_S256x256_S40000x256_1_0_0_1_n_n.rhsBatch by decide),
    dif_pos (show (1 : Fin S256x256.rank) ∈ dot_S40000x256_S256x256_S40000x256_1_0_0_1_n_n.rhsNonContracting by decide)]
  rfl

/-- Rows against a 256×256 weight matrix, entry `(n, o)`. -/
theorem dot256_apply (A : FVec Ideal S40000x256 .f32) (B : FVec Ideal S256x256 .f32) (n : Fin 40000) (o : Fin 256) :
    Host.dotGeneral (F := Ideal) dot_S40000x256_S256x256_S40000x256_1_0_0_1_n_n none A B (ix2 n o) = ∑ k : Fin 256, A (ix2 n k) * B (ix2 k o) := by
  refine (Ideal.dotGeneral_apply dot_S40000x256_S256x256_S40000x256_1_0_0_1_n_n none .single A B (ix2 n o)).trans ?_
  rw [← Equiv.sum_comp (contrEquiv1 dot_S40000x256_S256x256_S40000x256_1_0_0_1_n_n 256 rfl rfl).symm]
  refine Finset.sum_congr rfl fun k _ => ?_
  have hk := contrEquiv1_symm_val dot_S40000x256_S256x256_S40000x256_1_0_0_1_n_n 256 rfl rfl k
  have hl : dot_S40000x256_S256x256_S40000x256_1_0_0_1_n_n.lhsIdx (ix2 n o) ((contrEquiv1 dot_S40000x256_S256x256_S40000x256_1_0_0_1_n_n 256 rfl rfl).symm k) = ix2 n k := by
    funext ax; apply Fin.ext
    match ax with
    | ⟨0, _⟩ => exact l256_0 _ _
    | ⟨1, _⟩ => exact (l256_1 _ _).trans hk
  have hr : dot_S40000x256_S256x256_S40000x256_1_0_0_1_n_n.rhsIdx (ix2 n o) ((contrEquiv1 dot_S40000x256_S256x256_S40000x256_1_0_0_1_n_n 256 rfl rfl).symm k) = ix2 k o := by
    funext ax; apply Fin.ext
    match ax with
    | ⟨0, _⟩ => exact (r256_0 _ _).trans hk
    | ⟨1, _⟩ => exact r256_1 _ _
  rw [hl, hr]

theorem l64_0 (j : S40000x64.Idx) (k : dot_S40000x256_S256x64_S40000x64_1_0_0_1_n_n.contr.Idx) :
    ((dot_S40000x256_S256x64_S40000x64_1_0_0_1_n_n.lhsIdx j k) 0).val = (j 0).val := by
  unfold DotDims.lhsIdx
  rw [dif_neg (show ¬(0 : Fin S40000x256.rank) ∈ dot_S40000x256_S256x64_S40000x64_1_0_0_1_n_n.lhsBatch by decide),
    dif_pos (show (0 : Fin S40000x256.rank) ∈ dot_S40000x256_S256x64_S40000x64_1_0_0_1_n_n.lhsNonContracting by decide)]
  rfl

theorem l64_1 (j : S40000x64.Idx) (k : dot_S40000x256_S256x64_S40000x64_1_0_0_1_n_n.contr.Idx) :
    ((dot_S40000x256_S256x64_S40000x64_1_0_0_1_n_n.lhsIdx j k) 1).val = (k ⟨0, Nat.one_pos⟩).val :=
  DotDims.lhsIdx_val_of_single (d := dot_S40000x256_S256x64_S40000x64_1_0_0_1_n_n) (cl := 1) rfl j k

theorem r64_0 (j : S40000x64.Idx) (k : dot_S40000x256_S256x64_S40000x64_1_0_0_1_n_n.contr.Idx) :
    ((dot_S40000x256_S256x64_S40000x64_1_0_0_1_n_n.rhsIdx j k) 0).val = (k ⟨0, Nat.one_pos⟩).val :=
  DotDims.rhsIdx_val_of_single (d := dot_S40000x256_S256x64_S40000x64_1_0_0_1_n_n) (cr := 0) rfl j k

theorem r64_1 (j : S40000x64.Idx) (k : dot_S40000x256_S256x64_S40000x64_1_0_0_1_n_n.contr.Idx) :
    ((dot_S40000x256_S256x64_S40000x64_1_0_0_1_n_n.rhsIdx j k) 1).val = (j 1).val := by
  unfold DotDims.rhsIdx
  rw [dif_neg (show ¬(1 : Fin S256x64.rank) ∈ dot_S40000x256_S256x64_S40000x64_1_0_0_1_n_n.rhsBatch by decide),
    dif_pos (show (1 : Fin S256x64.rank) ∈ dot_S40000x256_S256x64_S40000x64_1_0_0_1_n_n.rhsNonContracting by decide)]
  rfl

/-- Rows against a 256×64 weight matrix, entry `(n, o)`. -/
theorem dot64_apply (A : FVec Ideal S40000x256 .f32) (B : FVec Ideal S256x64 .f32) (n : Fin 40000) (o : Fin 64) :
    Host.dotGeneral (F := Ideal) dot_S40000x256_S256x64_S40000x64_1_0_0_1_n_n none A B (ix2 n o) = ∑ k : Fin 256, A (ix2 n k) * B (ix2 k o) := by
  refine (Ideal.dotGeneral_apply dot_S40000x256_S256x64_S40000x64_1_0_0_1_n_n none .single A B (ix2 n o)).trans ?_
  rw [← Equiv.sum_comp (contrEquiv1 dot_S40000x256_S256x64_S40000x64_1_0_0_1_n_n 256 rfl rfl).symm]
  refine Finset.sum_congr rfl fun k _ => ?_
  have hk := contrEquiv1_symm_val dot_S40000x256_S256x64_S40000x64_1_0_0_1_n_n 256 rfl rfl k
  have hl : dot_S40000x256_S256x64_S40000x64_1_0_0_1_n_n.lhsIdx (ix2 n o) ((contrEquiv1 dot_S40000x256_S256x64_S40000x64_1_0_0_1_n_n 256 rfl rfl).symm k) = ix2 n k := by
    funext ax; apply Fin.ext
    match ax with
    | ⟨0, _⟩ => exact l64_0 _ _
    | ⟨1, _⟩ => exact (l64_1 _ _).trans hk
  have hr : dot_S40000x256_S256x64_S40000x64_1_0_0_1_n_n.rhsIdx (ix2 n o) ((contrEquiv1 dot_S40000x256_S256x64_S40000x64_1_0_0_1_n_n 256 rfl rfl).symm k) = ix2 k o := by
    funext ax; apply Fin.ext
    match ax with
    | ⟨0, _⟩ => exact (r64_0 _ _).trans hk
    | ⟨1, _⟩ => exact r64_1 _ _
  rw [hl, hr]

theorem l1_0 (j : S40000x1.Idx) (k : dot_S40000x64_S64x1_S40000x1_1_0_0_1_n_n.contr.Idx) :
    ((dot_S40000x64_S64x1_S40000x1_1_0_0_1_n_n.lhsIdx j k) 0).val = (j 0).val := by
  unfold DotDims.lhsIdx
  rw [dif_neg (show ¬(0 : Fin S40000x64.rank) ∈ dot_S40000x64_S64x1_S40000x1_1_0_0_1_n_n.lhsBatch by decide),
    dif_pos (show (0 : Fin S40000x64.rank) ∈ dot_S40000x64_S64x1_S40000x1_1_0_0_1_n_n.lhsNonContracting by decide)]
  rfl

theorem l1_1 (j : S40000x1.Idx) (k : dot_S40000x64_S64x1_S40000x1_1_0_0_1_n_n.contr.Idx) :
    ((dot_S40000x64_S64x1_S40000x1_1_0_0_1_n_n.lhsIdx j k) 1).val = (k ⟨0, Nat.one_pos⟩).val :=
  DotDims.lhsIdx_val_of_single (d := dot_S40000x64_S64x1_S40000x1_1_0_0_1_n_n) (cl := 1) rfl j k

theorem r1_0 (j : S40000x1.Idx) (k : dot_S40000x64_S64x1_S40000x1_1_0_0_1_n_n.contr.Idx) :
    ((dot_S40000x64_S64x1_S40000x1_1_0_0_1_n_n.rhsIdx j k) 0).val = (k ⟨0, Nat.one_pos⟩).val :=
  DotDims.rhsIdx_val_of_single (d := dot_S40000x64_S64x1_S40000x1_1_0_0_1_n_n) (cr := 0) rfl j k

theorem r1_1 (j : S40000x1.Idx) (k : dot_S40000x64_S64x1_S40000x1_1_0_0_1_n_n.contr.Idx) :
    ((dot_S40000x64_S64x1_S40000x1_1_0_0_1_n_n.rhsIdx j k) 1).val = (j 1).val := by
  unfold DotDims.rhsIdx
  rw [dif_neg (show ¬(1 : Fin S64x1.rank) ∈ dot_S40000x64_S64x1_S40000x1_1_0_0_1_n_n.rhsBatch by decide),
    dif_pos (show (1 : Fin S64x1.rank) ∈ dot_S40000x64_S64x1_S40000x1_1_0_0_1_n_n.rhsNonContracting by decide)]
  rfl

/-- Rows of 64 lanes against a weight column, entry `(n, o)`. -/
theorem dot1_apply (A : FVec Ideal S40000x64 .f32) (B : FVec Ideal S64x1 .f32) (n : Fin 40000) (o : Fin 1) :
    Host.dotGeneral (F := Ideal) dot_S40000x64_S64x1_S40000x1_1_0_0_1_n_n none A B (ix2 n o) = ∑ k : Fin 64, A (ix2 n k) * B (ix2 k o) := by
  refine (Ideal.dotGeneral_apply dot_S40000x64_S64x1_S40000x1_1_0_0_1_n_n none .single A B (ix2 n o)).trans ?_
  rw [← Equiv.sum_comp (contrEquiv1 dot_S40000x64_S64x1_S40000x1_1_0_0_1_n_n 64 rfl rfl).symm]
  refine Finset.sum_congr rfl fun k _ => ?_
  have hk := contrEquiv1_symm_val dot_S40000x64_S64x1_S40000x1_1_0_0_1_n_n 64 rfl rfl k
  have hl : dot_S40000x64_S64x1_S40000x1_1_0_0_1_n_n.lhsIdx (ix2 n o) ((contrEquiv1 dot_S40000x64_S64x1_S40000x1_1_0_0_1_n_n 64 rfl rfl).symm k) = ix2 n k := by
    funext ax; apply Fin.ext
    match ax with
    | ⟨0, _⟩ => exact l1_0 _ _
    | ⟨1, _⟩ => exact (l1_1 _ _).trans hk
  have hr : dot_S40000x64_S64x1_S40000x1_1_0_0_1_n_n.rhsIdx (ix2 n o) ((contrEquiv1 dot_S40000x64_S64x1_S40000x1_1_0_0_1_n_n 64 rfl rfl).symm k) = ix2 k o := by
    funext ax; apply Fin.ext
    match ax with
    | ⟨0, _⟩ => exact (r1_0 _ _).trans hk
    | ⟨1, _⟩ => exact r1_1 _ _
  rw [hl, hr]

/-! ## The affine maps at an index -/

theorem lin256_apply (x : FVec Ideal S40000x256 .f32) (W : FVec Ideal S256x256 .f32) (b : FVec Ideal S256 .f32)
    (n : Fin 40000) (o : Fin 256) :
    lin256 (F := Ideal) x W b (ix2 n o) = (∑ k : Fin 256, x (ix2 n k) * W (ix2 k o)) + b (ix1 o) :=
  congrArg₂ (· + ·) (dot256_apply x W n o) (bias_apply b _ _ n o)

theorem lin64_apply (x : FVec Ideal S40000x256 .f32) (W : FVec Ideal S256x64 .f32) (b : FVec Ideal S64 .f32)
    (n : Fin 40000) (o : Fin 64) :
    lin64 (F := Ideal) x W b (ix2 n o) = (∑ k : Fin 256, x (ix2 n k) * W (ix2 k o)) + b (ix1 o) :=
  congrArg₂ (· + ·) (dot64_apply x W n o) (bias_apply b _ _ n o)

theorem lin1_apply (y : FVec Ideal S40000x64 .f32) (w : FVec Ideal S64x1 .f32) (b : FVec Ideal S1 .f32)
    (n : Fin 40000) (o : Fin 1) :
    lin1 (F := Ideal) y w b (ix2 n o) = (∑ k : Fin 64, y (ix2 n k) * w (ix2 k o)) + b (ix1 o) :=
  congrArg₂ (· + ·) (dot1_apply y w n o) (bias_apply b _ _ n o)

/-! ## The exponential linear unit as the reference spells it -/

theorem ofBits_one_f32 : Ideal.ofBits .f32 0x3F800000#32 = 1 := by
  simp [Ideal.ofBits, Ideal.ieee, -EReal.coe_mul]; norm_num

/-- Where the test holds both spellings give the value; where it fails the guarded argument is the value itself. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

theorem elu1_apply (x : FVec Ideal S40000x1 .f32) (i : S40000x1.Idx) : elu1 (F := Ideal) x i = elu (x i) := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1)) = _
  rw [Ideal.ofBits_zero_f32, ofBits_one_f32]
  exact elu_guarded (x i)

theorem elu256_apply (x : FVec Ideal S40000x256 .f32) (i : S40000x256.Idx) : elu256 (F := Ideal) x i = elu (x i) := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1)) = _
  rw [Ideal.ofBits_zero_f32, ofBits_one_f32]
  exact elu_guarded (x i)

/-! ## The stacked pair of logit columns, and a column repeated along the stack's leading axis -/

section Layout
variable {α : Type}

/-- A column laid under a new leading unit axis reads, at `(0, n, 0)`, the column at `(n, 0)`. -/
theorem under_unit_apply {N : ℕ} (l : (⟨2, ![N, 1]⟩ : Shape).Idx → α)
    (h : (⟨2, ![N, 1]⟩ : Shape).BroadcastsInDim ⟨3, ![1, N, 1]⟩ ![1, 2]) (n : Fin N) :
    broadcastInDim ⟨3, ![1, N, 1]⟩ ![1, 2] h l (ix3 (0 : Fin 1) n (0 : Fin 1)) = l (ix2 n (0 : Fin 1)) := by
  refine broadcastInDim_apply ![1, 2] h l _ (ix2 n (0 : Fin 1)) fun ax => ?_
  match ax with
  | ⟨0, _⟩ =>
    show n.val = if N = 1 then 0 else n.val
    split
    · have := n.isLt; omega
    · rfl
  | ⟨1, _⟩ => rfl

end Layout

theorem stack_apply0 (l0 l1 : FVec Ideal S40000x1 .f32) (n : Fin 40000) :
    stack (F := Ideal) l0 l1 (ix3 (0 : Fin 2) n (0 : Fin 1)) = l0 (ix2 n 0) := by
  unfold stack
  refine (concatenate_pair_apply_left (s₁ := S1x40000x1) (s₂ := S1x40000x1) (0 : Fin S2x40000x1.rank) _ _ _
    (ix3 (0 : Fin 2) n (0 : Fin 1)) rfl (ix3 (0 : Fin 1) n (0 : Fin 1)) fun b => ?_).trans (under_unit_apply l0 _ n)
  match b with
  | ⟨0, _⟩ => rfl
  | ⟨1, _⟩ => rfl
  | ⟨2, _⟩ => rfl

theorem stack_apply1 (l0 l1 : FVec Ideal S40000x1 .f32) (n : Fin 40000) :
    stack (F := Ideal) l0 l1 (ix3 (1 : Fin 2) n (0 : Fin 1)) = l1 (ix2 n 0) := by
  unfold stack
  refine (concatenate_pair_apply_right (s₁ := S1x40000x1) (s₂ := S1x40000x1) (0 : Fin S2x40000x1.rank) _ _ _
    (ix3 (1 : Fin 2) n (0 : Fin 1)) rfl rfl (ix3 (0 : Fin 1) n (0 : Fin 1)) (fun b hb => ?_) rfl).trans (under_unit_apply l1 _ n)
  match b, hb with
  | ⟨0, _⟩, hb => exact absurd (Fin.ext rfl) hb
  | ⟨1, _⟩, _ => rfl
  | ⟨2, _⟩, _ => rfl

theorem spread_apply (v : FVec Ideal S40000x1 .f32) (a : Fin 2) (n : Fin 40000) :
    spread (F := Ideal) v (ix3 a n (0 : Fin 1)) = v (ix2 n 0) := by
  unfold spread
  refine (broadcastInDim_apply ![0, 1, 2] _ _ (ix3 a n (0 : Fin 1)) (ix3 (0 : Fin 1) n (0 : Fin 1)) fun ax => ?_).trans
    (under_unit_apply v _ n)
  match ax with
  | ⟨0, _⟩ => rfl
  | ⟨1, _⟩ => rfl
  | ⟨2, _⟩ => rfl

/-! ## The two reductions over the stack's leading axis -/

/-- The stack index over column index `(n, 0)` with leading coordinate `k`. -/
theorem lift_lead (h : S2x40000x1.Reduces [0] S40000x1) (n : Fin 40000) (k : Fin (S2x40000x1.size 0)) :
    h.lift (ix2 n (0 : Fin 1)) k = ix3 (⟨k.val, k.isLt⟩ : Fin 2) n (0 : Fin 1) := by
  funext c; apply Fin.ext
  match c with
  | ⟨0, _⟩ => rfl
  | ⟨1, _⟩ => rfl
  | ⟨2, _⟩ => rfl

theorem ofBits_negInf_f32 : Ideal.ofBits .f32 0xFF800000#32 = ⊥ := by simp [Ideal.ofBits, Ideal.ieee]

/-- The fold of `max` from −∞ over a pair is the larger of the two. -/
theorem fold_max_pair (f : Fin 2 → EReal) : Finset.fold max ⊥ f (Finset.univ : Finset (Fin 2)) = max (f 0) (f 1) := by
  rw [show (Finset.univ : Finset (Fin 2)) = {0, 1} from rfl, Finset.fold_insert (by decide), Finset.fold_singleton, max_bot_right]

/-- From −∞ the maximum over the pair is the larger of the two entries. -/
theorem reduceMax_apply (s : FVec Ideal S2x40000x1 .f32) (h' : S2x40000x1.ReducesTo [0] S40000x1) (hu : 0 < S_.numel)
    (n : Fin 40000) :
    Host.reduce FloatOps.maximumf s (constant (F := Ideal) S_ .f32 0xFF800000#32) h' hu (ix2 n (0 : Fin 1))
      = max (s (ix3 (0 : Fin 2) n (0 : Fin 1))) (s (ix3 (1 : Fin 2) n (0 : Fin 1))) := by
  have h : S2x40000x1.Reduces [0] S40000x1 := by decide
  refine (Host.reduce_eq_fold_single FloatOps.maximumf s _ h' h hu (ix2 n (0 : Fin 1))).trans ?_
  have hf : (s ∘ h.lift (ix2 n (0 : Fin 1))) = fun k : Fin 2 => s (ix3 k n (0 : Fin 1)) :=
    funext fun k => congrArg s (lift_lead h n k)
  refine (congrArg₂ (fun b f => Finset.fold max b f (Finset.univ : Finset (Fin 2))) ofBits_negInf_f32 hf).trans ?_
  exact fold_max_pair _

/-- From zero the sum over the pair is the sum of the two entries. -/
theorem reduceAdd_apply (e : FVec Ideal S2x40000x1 .f32) (h' : S2x40000x1.ReducesTo [0] S40000x1) (hu : 0 < S_.numel)
    (n : Fin 40000) :
    Host.reduceAdd (F := Ideal) e (constant (F := Ideal) S_ .f32 0x00000000#32) h' hu (ix2 n (0 : Fin 1))
      = e (ix3 (0 : Fin 2) n (0 : Fin 1)) + e (ix3 (1 : Fin 2) n (0 : Fin 1)) := by
  have h : S2x40000x1.Reduces [0] S40000x1 := by decide
  refine (Ideal.hostReduceAdd_single h' h e _ (ix2 n (0 : Fin 1))).trans ?_
  have hf : (fun k : Fin (S2x40000x1.size 0) => e (h.lift (ix2 n (0 : Fin 1)) k)) = fun k : Fin 2 => e (ix3 k n (0 : Fin 1)) :=
    funext fun k => congrArg e (lift_lead h n k)
  refine (congrArg₂ (fun b (f : Fin 2 → EReal) => b + ∑ k, f k) Ideal.ofBits_zero_f32 hf).trans ?_
  rw [zero_add, Fin.sum_univ_two]

/-! ## The two-way softmax over the stack, its two weight columns, and the combination -/

theorem hostDivf_apply {s : Shape} (a b : FVec Ideal s .f32) (i : s.Idx) : Host.divf a b i = Ideal.div (a i) (b i) := rfl

theorem hostExp_apply {s : Shape} (a : FVec Ideal s .f32) (i : s.Idx) : Host.exp a i = Ideal.exp (a i) := rfl

theorem expd_apply (s : FVec Ideal S2x40000x1 .f32) (a : Fin 2) (n : Fin 40000) :
    expd (F := Ideal) s (ix3 a n (0 : Fin 1))
      = Ideal.exp (s (ix3 a n (0 : Fin 1)) - max (s (ix3 (0 : Fin 2) n (0 : Fin 1))) (s (ix3 (1 : Fin 2) n (0 : Fin 1)))) := by
  unfold expd
  refine (hostExp_apply _ _).trans ?_
  refine congrArg (fun m => Ideal.exp (s (ix3 a n (0 : Fin 1)) - m)) ((spread_apply _ a n).trans ?_)
  refine (congrArg₂ max ofBits_negInf_f32 (reduceMax_apply s _ _ n)).trans ?_
  exact max_bot_left _

theorem att_apply (s : FVec Ideal S2x40000x1 .f32) (a : Fin 2) (n : Fin 40000) :
    att (F := Ideal) s (ix3 a n (0 : Fin 1))
      = Ideal.div (expd (F := Ideal) s (ix3 a n (0 : Fin 1)))
          (expd (F := Ideal) s (ix3 (0 : Fin 2) n (0 : Fin 1)) + expd (F := Ideal) s (ix3 (1 : Fin 2) n (0 : Fin 1))) := by
  unfold att
  refine (hostDivf_apply _ _ _).trans ?_
  exact congrArg (Ideal.div _) ((spread_apply _ a n).trans (reduceAdd_apply (expd s) _ _ n))

theorem w0_apply (A : FVec Ideal S2x40000x1 .f32) (n : Fin 40000) (o : Fin 256) :
    w0 (F := Ideal) A (ix2 n o) = A (ix3 (0 : Fin 2) n (0 : Fin 1)) := by
  unfold w0
  refine (broadcastInDim_apply ![0, 1] _ _ (ix2 n o) (ix2 n (0 : Fin 1)) fun ax => ?_).trans ?_
  · match ax with
    | ⟨0, _⟩ => rfl
    | ⟨1, _⟩ => rfl
  refine (shapeCast_1ab_ab_apply _ _ n (0 : Fin 1)).trans ?_
  refine extractStridedSlice_apply _ A _ (ix3 (0 : Fin 1) n (0 : Fin 1)) (ix3 (0 : Fin 2) n (0 : Fin 1)) fun ax => ?_
  match ax with
  | ⟨0, _⟩ => rfl
  | ⟨1, _⟩ => exact (Nat.zero_add _).symm
  | ⟨2, _⟩ => rfl

theorem w1_apply (A : FVec Ideal S2x40000x1 .f32) (n : Fin 40000) (o : Fin 256) :
    w1 (F := Ideal) A (ix2 n o) = A (ix3 (1 : Fin 2) n (0 : Fin 1)) := by
  unfold w1
  refine (broadcastInDim_apply ![0, 1] _ _ (ix2 n o) (ix2 n (0 : Fin 1)) fun ax => ?_).trans ?_
  · match ax with
    | ⟨0, _⟩ => rfl
    | ⟨1, _⟩ => rfl
  refine (shapeCast_1ab_ab_apply _ _ n (0 : Fin 1)).trans ?_
  refine extractStridedSlice_apply _ A _ (ix3 (0 : Fin 1) n (0 : Fin 1)) (ix3 (1 : Fin 2) n (0 : Fin 1)) fun ax => ?_
  match ax with
  | ⟨0, _⟩ => rfl
  | ⟨1, _⟩ => exact (Nat.zero_add _).symm
  | ⟨2, _⟩ => rfl

/-- The weighted sum of the two channels at `(n, o)`, from the two logits of row `n`. -/
theorem comb_apply (l0 l1 : FVec Ideal S40000x1 .f32) (z cv : FVec Ideal S40000x256 .f32) (n : Fin 40000) (o : Fin 256) :
    comb (F := Ideal) l0 l1 z cv (ix2 n o)
      = Ideal.div (Ideal.exp (l0 (ix2 n 0) - max (l0 (ix2 n 0)) (l1 (ix2 n 0))))
            (Ideal.exp (l0 (ix2 n 0) - max (l0 (ix2 n 0)) (l1 (ix2 n 0))) + Ideal.exp (l1 (ix2 n 0) - max (l0 (ix2 n 0)) (l1 (ix2 n 0)))) * z (ix2 n o)
        + Ideal.div (Ideal.exp (l1 (ix2 n 0) - max (l0 (ix2 n 0)) (l1 (ix2 n 0))))
            (Ideal.exp (l0 (ix2 n 0) - max (l0 (ix2 n 0)) (l1 (ix2 n 0))) + Ideal.exp (l1 (ix2 n 0) - max (l0 (ix2 n 0)) (l1 (ix2 n 0)))) * cv (ix2 n o) := by
  unfold comb
  show w0 (F := Ideal) (att (stack l0 l1)) (ix2 n o) * z (ix2 n o) + w1 (F := Ideal) (att (stack l0 l1)) (ix2 n o) * cv (ix2 n o) = _
  rw [w0_apply, w1_apply, att_apply, att_apply, expd_apply, expd_apply, stack_apply0, stack_apply1]

/-! ## The attention scores and logits of a row -/

/-- A projection to 64 lanes against a weight column plus its bias, at row `n`: the score of that row. -/
theorem score_col_apply (x : FVec Ideal S40000x256 .f32) (W : FVec Ideal S256x64 .f32) (b : FVec Ideal S64 .f32)
    (w : FVec Ideal S64x1 .f32) (c : FVec Ideal S1 .f32) (n : Fin 40000) :
    lin1 (F := Ideal) (lin64 (F := Ideal) x W b) w c (ix2 n (0 : Fin 1))
      = score (affine (fun k => x (ix2 n k)) (fun k o => W (ix2 k o)) (fun o => b (ix1 o))) (fun k => w (ix2 k 0)) (c (ix1 0)) := by
  refine (lin1_apply _ w c n 0).trans ?_
  unfold score affine
  refine congrArg (· + c (ix1 0)) (Finset.sum_congr rfl fun k _ => ?_)
  rw [lin64_apply]

theorem hr_col_apply (z : FVec Ideal S40000x256 .f32) (Wq : FVec Ideal S256x64 .f32) (bq : FVec Ideal S64 .f32)
    (war : FVec Ideal S64x1 .f32) (bar : FVec Ideal S1 .f32) (n : Fin 40000) :
    hr (F := Ideal) z Wq bq war bar (ix2 n (0 : Fin 1))
      = score (affine (fun k => z (ix2 n k)) (fun k o => Wq (ix2 k o)) (fun o => bq (ix1 o))) (fun k => war (ix2 k 0)) (bar (ix1 0)) :=
  score_col_apply z Wq bq war bar n

theorem logit_col_apply (x : FVec Ideal S40000x256 .f32) (Wk : FVec Ideal S256x64 .f32) (bk : FVec Ideal S64 .f32)
    (wal : FVec Ideal S64x1 .f32) (bal : FVec Ideal S1 .f32) (hrv : FVec Ideal S40000x1 .f32) (n : Fin 40000) :
    FnsA.logit (F := Ideal) x Wk bk wal bal hrv (ix2 n (0 : Fin 1))
      = elu (score (affine (fun k => x (ix2 n k)) (fun k o => Wk (ix2 k o)) (fun o => bk (ix1 o))) (fun k => wal (ix2 k 0)) (bal (ix1 0))
          + hrv (ix2 n (0 : Fin 1))) :=
  (elu1_apply _ (ix2 n (0 : Fin 1))).trans
    (congrArg elu (congrArg (· + hrv (ix2 n (0 : Fin 1))) (score_col_apply x Wk bk wal bal n)))

/-! ## The whole half is the layer's row function on every row -/

/-- On the extended reals the reference's composed host operations for the author nodes — the two affine maps, the
    attention logits through the called unit, the softmax over the stacked pair, the weighted sum and the last unit —
    are, at row `n` and feature `o`, the layer's row function of row `n` of the features and of the neighbour means. -/
theorem node_eq (h ag : FVec Ideal S40000x256 .f32) (Wself : FVec Ideal S256x256 .f32) (bself : FVec Ideal S256 .f32)
    (Wconv : FVec Ideal S256x256 .f32) (bconv : FVec Ideal S256 .f32) (Wq : FVec Ideal S256x64 .f32) (bq : FVec Ideal S64 .f32)
    (Wk : FVec Ideal S256x64 .f32) (bk : FVec Ideal S64 .f32) (wal : FVec Ideal S64x1 .f32) (bal : FVec Ideal S1 .f32)
    (war : FVec Ideal S64x1 .f32) (bar : FVec Ideal S1 .f32) :
    FnsA.node (FnsA.lin256 h Wself bself) (FnsA.lin256 ag Wconv bconv) Wq bq Wk bk wal bal war bar
      = nodeArr (paramsOfArgs Wself bself Wconv bconv Wq bq Wk bk wal bal war bar) h ag := by
  funext i
  obtain ⟨n, o, rfl⟩ : ∃ (n : Fin 40000) (o : Fin 256), i = ix2 n o := ⟨i 0, i 1, eq_ix2 i⟩
  rw [nodeArr_apply]
  -- the two channels' feature rows
  have hzr : (fun k => lin256 (F := Ideal) h Wself bself (ix2 n k))
      = zRow (paramsOfArgs Wself bself Wconv bconv Wq bq Wk bk wal bal war bar) (fun k => h (ix2 n k)) :=
    funext fun k => lin256_apply h Wself bself n k
  have hcr : (fun k => lin256 (F := Ideal) ag Wconv bconv (ix2 n k))
      = cvRow (paramsOfArgs Wself bself Wconv bconv Wq bq Wk bk wal bal war bar) (fun k => ag (ix2 n k)) :=
    funext fun k => lin256_apply ag Wconv bconv n k
  unfold node
  refine (elu256_apply _ (ix2 n o)).trans ?_
  rw [comb_apply, logit_col_apply, logit_col_apply, hr_col_apply, hzr, hcr,
    show lin256 (F := Ideal) h Wself bself (ix2 n o) = zRow (paramsOfArgs Wself bself Wconv bconv Wq bq Wk bk wal bal war bar) (fun k => h (ix2 n k)) o from congrFun hzr o,
    show lin256 (F := Ideal) ag Wconv bconv (ix2 n o) = cvRow (paramsOfArgs Wself bself Wconv bconv Wq bq Wk bk wal bal war bar) (fun k => ag (ix2 n k)) o from congrFun hcr o]
  rfl

end Cert.ReferenceIdeal.ReadA

end
-- ==== Proof.RefReadP.lean ====
import proofs.«161233_j27118423507478_1_alg».proof.Proof.RefFnsP
import proofs.«161233_j27118423507478_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

/-! # The reference's paper half read entry by entry: it is the layer's row function on every row -/

noncomputable section

namespace Cert.ReferenceIdeal.ReadP

open Idealize.ShloMosaic Idealize.ShloMosaic.ValueIdx Cert.ReferenceIdeal Cert.ReferenceIdeal.Gen Cert.ReferenceIdeal.FnsP Cert.NodeSpec
open scoped BigOperators

section Layout
variable {α : Type}

/-- A bias `[O]` laid as one row and then over `N` rows reads, at `(n, o)`, its entry `o`. -/
theorem bias_apply {N O : ℕ} (b : (⟨1, ![O]⟩ : Shape).Idx → α)
    (h1 : (⟨1, ![O]⟩ : Shape).BroadcastsInDim ⟨2, ![1, O]⟩ ![1])
    (h2 : (⟨2, ![1, O]⟩ : Shape).BroadcastsInDim ⟨2, ![N, O]⟩ ![0, 1]) (n : Fin N) (o : Fin O) :
    broadcastInDim ⟨2, ![N, O]⟩ ![0, 1] h2 (broadcastInDim ⟨2, ![1, O]⟩ ![1] h1 b) (ix2 n o) = b (ix1 o) := by
  refine (broadcastInDim_apply ![0, 1] h2 _ (ix2 n o) (ix2 (0 : Fin 1) o) fun ax => ?_).trans ?_
  · match ax with
    | ⟨0, _⟩ => rfl
    | ⟨1, _⟩ =>
      show o.val = if O = 1 then 0 else o.val
      split
      · have := o.isLt; omega
      · rfl
  · refine broadcastInDim_apply ![1] h1 b (ix2 (0 : Fin 1) o) (ix1 o) fun ax => ?_
    match ax with
    | ⟨0, _⟩ =>
      show o.val = if O = 1 then 0 else o.val
      split
      · have := o.isLt; omega
      · rfl

end Layout

/-! ## The three contractions at an index

Each product contracts axis 1 of the left operand with axis 0 of the right one: the left index at result `(n, o)` and
contraction position `k` is `(n, k)`, the right one `(k, o)`. -/

theorem l256_0 (j : S80000x256.Idx) (k : dot_S80000x256_S256x256_S80000x256_1_0_0_1_n_n.contr.Idx) :
    ((dot_S80000x256_S256x256_S80000x256_1_0_0_1_n_n.lhsIdx j k) 0).val = (j 0).val := by
  unfold DotDims.lhsIdx
  rw [dif_neg (show ¬(0 : Fin S80000x256.rank) ∈ dot_S80000x256_S256x256_S80000x256_1_0_0_1_n_n.lhsBatch by decide),
    dif_pos (show (0 : Fin S80000x256.rank) ∈ dot_S80000x256_S256x256_S80000x256_1_0_0_1_n_n.lhsNonContracting by decide)]
  rfl

theorem l256_1 (j : S80000x256.Idx) (k : dot_S80000x256_S256x256_S80000x256_1_0_0_1_n_n.contr.Idx) :
    ((dot_S80000x256_S256x256_S80000x256_1_0_0_1_n_n.lhsIdx j k) 1).val = (k ⟨0, Nat.one_pos⟩).val :=
  DotDims.lhsIdx_val_of_single (d := dot_S80000x256_S256x256_S80000x256_1_0_0_1_n_n) (cl := 1) rfl j k

theorem r256_0 (j : S80000x256.Idx) (k : dot_S80000x256_S256x256_S80000x256_1_0_0_1_n_n.contr.Idx) :
    ((dot_S80000x256_S256x256_S80000x256_1_0_0_1_n_n.rhsIdx j k) 0).val = (k ⟨0, Nat.one_pos⟩).val :=
  DotDims.rhsIdx_val_of_single (d := dot_S80000x256_S256x256_S80000x256_1_0_0_1_n_n) (cr := 0) rfl j k

theorem r256_1 (j : S80000x256.Idx) (k : dot_S80000x256_S256x256_S80000x256_1_0_0_1_n_n.contr.Idx) :
    ((dot_S80000x256_S256x256_S80000x256_1_0_0_1_n_n.rhsIdx j k) 1).val = (j 1).val := by
  unfold DotDims.rhsIdx
  rw [dif_neg (show ¬(1 : Fin S256x256.rank) ∈ dot_S80000x256_S256x256_S80000x256_1_0_0_1_n_n.rhsBatch by decide),
    dif_pos (show (1 : Fin S256x256.rank) ∈ dot_S80000x256_S256x256_S80000x256_1_0_0_1_n_n.rhsNonContracting by decide)]
  rfl

/-- Rows against a 256×256 weight matrix, entry `(n, o)`. -/
theorem dot256_apply (A : FVec Ideal S80000x256 .f32) (B : FVec Ideal S256x256 .f32) (n : Fin 80000) (o : Fin 256) :
    Host.dotGeneral (F := Ideal) dot_S80000x256_S256x256_S80000x256_1_0_0_1_n_n none A B (ix2 n o) = ∑ k : Fin 256, A (ix2 n k) * B (ix2 k o) := by
  refine (Ideal.dotGeneral_apply dot_S80000x256_S256x256_S80000x256_1_0_0_1_n_n none .single A B (ix2 n o)).trans ?_
  rw [← Equiv.sum_comp (contrEquiv1 dot_S80000x256_S256x256_S80000x256_1_0_0_1_n_n 256 rfl rfl).symm]
  refine Finset.sum_congr rfl fun k _ => ?_
  have hk := contrEquiv1_symm_val dot_S80000x256_S256x256_S80000x256_1_0_0_1_n_n 256 rfl rfl k
  have hl : dot_S80000x256_S256x256_S80000x256_1_0_0_1_n_n.lhsIdx (ix2 n o) ((contrEquiv1 dot_S80000x256_S256x256_S80000x256_1_0_0_1_n_n 256 rfl rfl).symm k) = ix2 n k := by
    funext ax; apply Fin.ext
    match ax with
    | ⟨0, _⟩ => exact l256_0 _ _
    | ⟨1, _⟩ => exact (l256_1 _ _).trans hk
  have hr : dot_S80000x256_S256x256_S80000x256_1_0_0_1_n_n.rhsIdx (ix2 n o) ((contrEquiv1 dot_S80000x256_S256x256_S80000x256_1_0_0_1_n_n 256 rfl rfl).symm k) = ix2 k o := by
    funext ax; apply Fin.ext
    match ax with
    | ⟨0, _⟩ => exact (r256_0 _ _).trans hk
    | ⟨1, _⟩ => exact r256_1 _ _
  rw [hl, hr]

theorem l64_0 (j : S80000x64.Idx) (k : dot_S80000x256_S256x64_S80000x64_1_0_0_1_n_n.contr.Idx) :
    ((dot_S80000x256_S256x64_S80000x64_1_0_0_1_n_n.lhsIdx j k) 0).val = (j 0).val := by
  unfold DotDims.lhsIdx
  rw [dif_neg (show ¬(0 : Fin S80000x256.rank) ∈ dot_S80000x256_S256x64_S80000x64_1_0_0_1_n_n.lhsBatch by decide),
    dif_pos (show (0 : Fin S80000x256.rank) ∈ dot_S80000x256_S256x64_S80000x64_1_0_0_1_n_n.lhsNonContracting by decide)]
  rfl

theorem l64_1 (j : S80000x64.Idx) (k : dot_S80000x256_S256x64_S80000x64_1_0_0_1_n_n.contr.Idx) :
    ((dot_S80000x256_S256x64_S80000x64_1_0_0_1_n_n.lhsIdx j k) 1).val = (k ⟨0, Nat.one_pos⟩).val :=
  DotDims.lhsIdx_val_of_single (d := dot_S80000x256_S256x64_S80000x64_1_0_0_1_n_n) (cl := 1) rfl j k

theorem r64_0 (j : S80000x64.Idx) (k : dot_S80000x256_S256x64_S80000x64_1_0_0_1_n_n.contr.Idx) :
    ((dot_S80000x256_S256x64_S80000x64_1_0_0_1_n_n.rhsIdx j k) 0).val = (k ⟨0, Nat.one_pos⟩).val :=
  DotDims.rhsIdx_val_of_single (d := dot_S80000x256_S256x64_S80000x64_1_0_0_1_n_n) (cr := 0) rfl j k

theorem r64_1 (j : S80000x64.Idx) (k : dot_S80000x256_S256x64_S80000x64_1_0_0_1_n_n.contr.Idx) :
    ((dot_S80000x256_S256x64_S80000x64_1_0_0_1_n_n.rhsIdx j k) 1).val = (j 1).val := by
  unfold DotDims.rhsIdx
  rw [dif_neg (show ¬(1 : Fin S256x64.rank) ∈ dot_S80000x256_S256x64_S80000x64_1_0_0_1_n_n.rhsBatch by decide),
    dif_pos (show (1 : Fin S256x64.rank) ∈ dot_S80000x256_S256x64_S80000x64_1_0_0_1_n_n.rhsNonContracting by decide)]
  rfl

/-- Rows against a 256×64 weight matrix, entry `(n, o)`. -/
theorem dot64_apply (A : FVec Ideal S80000x256 .f32) (B : FVec Ideal S256x64 .f32) (n : Fin 80000) (o : Fin 64) :
    Host.dotGeneral (F := Ideal) dot_S80000x256_S256x64_S80000x64_1_0_0_1_n_n none A B (ix2 n o) = ∑ k : Fin 256, A (ix2 n k) * B (ix2 k o) := by
  refine (Ideal.dotGeneral_apply dot_S80000x256_S256x64_S80000x64_1_0_0_1_n_n none .single A B (ix2 n o)).trans ?_
  rw [← Equiv.sum_comp (contrEquiv1 dot_S80000x256_S256x64_S80000x64_1_0_0_1_n_n 256 rfl rfl).symm]
  refine Finset.sum_congr rfl fun k _ => ?_
  have hk := contrEquiv1_symm_val dot_S80000x256_S256x64_S80000x64_1_0_0_1_n_n 256 rfl rfl k
  have hl : dot_S80000x256_S256x64_S80000x64_1_0_0_1_n_n.lhsIdx (ix2 n o) ((contrEquiv1 dot_S80000x256_S256x64_S80000x64_1_0_0_1_n_n 256 rfl rfl).symm k) = ix2 n k := by
    funext ax; apply Fin.ext
    match ax with
    | ⟨0, _⟩ => exact l64_0 _ _
    | ⟨1, _⟩ => exact (l64_1 _ _).trans hk
  have hr : dot_S80000x256_S256x64_S80000x64_1_0_0_1_n_n.rhsIdx (ix2 n o) ((contrEquiv1 dot_S80000x256_S256x64_S80000x64_1_0_0_1_n_n 256 rfl rfl).symm k) = ix2 k o := by
    funext ax; apply Fin.ext
    match ax with
    | ⟨0, _⟩ => exact (r64_0 _ _).trans hk
    | ⟨1, _⟩ => exact r64_1 _ _
  rw [hl, hr]

theorem l1_0 (j : S80000x1.Idx) (k : dot_S80000x64_S64x1_S80000x1_1_0_0_1_n_n.contr.Idx) :
    ((dot_S80000x64_S64x1_S80000x1_1_0_0_1_n_n.lhsIdx j k) 0).val = (j 0).val := by
  unfold DotDims.lhsIdx
  rw [dif_neg (show ¬(0 : Fin S80000x64.rank) ∈ dot_S80000x64_S64x1_S80000x1_1_0_0_1_n_n.lhsBatch by decide),
    dif_pos (show (0 : Fin S80000x64.rank) ∈ dot_S80000x64_S64x1_S80000x1_1_0_0_1_n_n.lhsNonContracting by decide)]
  rfl

theorem l1_1 (j : S80000x1.Idx) (k : dot_S80000x64_S64x1_S80000x1_1_0_0_1_n_n.contr.Idx) :
    ((dot_S80000x64_S64x1_S80000x1_1_0_0_1_n_n.lhsIdx j k) 1).val = (k ⟨0, Nat.one_pos⟩).val :=
  DotDims.lhsIdx_val_of_single (d := dot_S80000x64_S64x1_S80000x1_1_0_0_1_n_n) (cl := 1) rfl j k

theorem r1_0 (j : S80000x1.Idx) (k : dot_S80000x64_S64x1_S80000x1_1_0_0_1_n_n.contr.Idx) :
    ((dot_S80000x64_S64x1_S80000x1_1_0_0_1_n_n.rhsIdx j k) 0).val = (k ⟨0, Nat.one_pos⟩).val :=
  DotDims.rhsIdx_val_of_single (d := dot_S80000x64_S64x1_S80000x1_1_0_0_1_n_n) (cr := 0) rfl j k

theorem r1_1 (j : S80000x1.Idx) (k : dot_S80000x64_S64x1_S80000x1_1_0_0_1_n_n.contr.Idx) :
    ((dot_S80000x64_S64x1_S80000x1_1_0_0_1_n_n.rhsIdx j k) 1).val = (j 1).val := by
  unfold DotDims.rhsIdx
  rw [dif_neg (show ¬(1 : Fin S64x1.rank) ∈ dot_S80000x64_S64x1_S80000x1_1_0_0_1_n_n.rhsBatch by decide),
    dif_pos (show (1 : Fin S64x1.rank) ∈ dot_S80000x64_S64x1_S80000x1_1_0_0_1_n_n.rhsNonContracting by decide)]
  rfl

/-- Rows of 64 lanes against a weight column, entry `(n, o)`. -/
theorem dot1_apply (A : FVec Ideal S80000x64 .f32) (B : FVec Ideal S64x1 .f32) (n : Fin 80000) (o : Fin 1) :
    Host.dotGeneral (F := Ideal) dot_S80000x64_S64x1_S80000x1_1_0_0_1_n_n none A B (ix2 n o) = ∑ k : Fin 64, A (ix2 n k) * B (ix2 k o) := by
  refine (Ideal.dotGeneral_apply dot_S80000x64_S64x1_S80000x1_1_0_0_1_n_n none .single A B (ix2 n o)).trans ?_
  rw [← Equiv.sum_comp (contrEquiv1 dot_S80000x64_S64x1_S80000x1_1_0_0_1_n_n 64 rfl rfl).symm]
  refine Finset.sum_congr rfl fun k _ => ?_
  have hk := contrEquiv1_symm_val dot_S80000x64_S64x1_S80000x1_1_0_0_1_n_n 64 rfl rfl k
  have hl : dot_S80000x64_S64x1_S80000x1_1_0_0_1_n_n.lhsIdx (ix2 n o) ((contrEquiv1 dot_S80000x64_S64x1_S80000x1_1_0_0_1_n_n 64 rfl rfl).symm k) = ix2 n k := by
    funext ax; apply Fin.ext
    match ax with
    | ⟨0, _⟩ => exact l1_0 _ _
    | ⟨1, _⟩ => exact (l1_1 _ _).trans hk
  have hr : dot_S80000x64_S64x1_S80000x1_1_0_0_1_n_n.rhsIdx (ix2 n o) ((contrEquiv1 dot_S80000x64_S64x1_S80000x1_1_0_0_1_n_n 64 rfl rfl).symm k) = ix2 k o := by
    funext ax; apply Fin.ext
    match ax with
    | ⟨0, _⟩ => exact (r1_0 _ _).trans hk
    | ⟨1, _⟩ => exact r1_1 _ _
  rw [hl, hr]

/-! ## The affine maps at an index -/

theorem lin256_apply (x : FVec Ideal S80000x256 .f32) (W : FVec Ideal S256x256 .f32) (b : FVec Ideal S256 .f32)
    (n : Fin 80000) (o : Fin 256) :
    lin256 (F := Ideal) x W b (ix2 n o) = (∑ k : Fin 256, x (ix2 n k) * W (ix2 k o)) + b (ix1 o) :=
  congrArg₂ (· + ·) (dot256_apply x W n o) (bias_apply b _ _ n o)

theorem lin64_apply (x : FVec Ideal S80000x256 .f32) (W : FVec Ideal S256x64 .f32) (b : FVec Ideal S64 .f32)
    (n : Fin 80000) (o : Fin 64) :
    lin64 (F := Ideal) x W b (ix2 n o) = (∑ k : Fin 256, x (ix2 n k) * W (ix2 k o)) + b (ix1 o) :=
  congrArg₂ (· + ·) (dot64_apply x W n o) (bias_apply b _ _ n o)

theorem lin1_apply (y : FVec Ideal S80000x64 .f32) (w : FVec Ideal S64x1 .f32) (b : FVec Ideal S1 .f32)
    (n : Fin 80000) (o : Fin 1) :
    lin1 (F := Ideal) y w b (ix2 n o) = (∑ k : Fin 64, y (ix2 n k) * w (ix2 k o)) + b (ix1 o) :=
  congrArg₂ (· + ·) (dot1_apply y w n o) (bias_apply b _ _ n o)

/-! ## The exponential linear unit as the reference spells it -/

theorem ofBits_one_f32 : Ideal.ofBits .f32 0x3F800000#32 = 1 := by
  simp [Ideal.ofBits, Ideal.ieee, -EReal.coe_mul]; norm_num

/-- Where the test holds both spellings give the value; where it fails the guarded argument is the value itself. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

theorem elu1_apply (x : FVec Ideal S80000x1 .f32) (i : S80000x1.Idx) : elu1 (F := Ideal) x i = elu (x i) := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1)) = _
  rw [Ideal.ofBits_zero_f32, ofBits_one_f32]
  exact elu_guarded (x i)

theorem elu256_apply (x : FVec Ideal S80000x256 .f32) (i : S80000x256.Idx) : elu256 (F := Ideal) x i = elu (x i) := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1)) = _
  rw [Ideal.ofBits_zero_f32, ofBits_one_f32]
  exact elu_guarded (x i)

/-! ## The stacked pair of logit columns, and a column repeated along the stack's leading axis -/

section Layout
variable {α : Type}

/-- A column laid under a new leading unit axis reads, at `(0, n, 0)`, the column at `(n, 0)`. -/
theorem under_unit_apply {N : ℕ} (l : (⟨2, ![N, 1]⟩ : Shape).Idx → α)
    (h : (⟨2, ![N, 1]⟩ : Shape).BroadcastsInDim ⟨3, ![1, N, 1]⟩ ![1, 2]) (n : Fin N) :
    broadcastInDim ⟨3, ![1, N, 1]⟩ ![1, 2] h l (ix3 (0 : Fin 1) n (0 : Fin 1)) = l (ix2 n (0 : Fin 1)) := by
  refine broadcastInDim_apply ![1, 2] h l _ (ix2 n (0 : Fin 1)) fun ax => ?_
  match ax with
  | ⟨0, _⟩ =>
    show n.val = if N = 1 then 0 else n.val
    split
    · have := n.isLt; omega
    · rfl
  | ⟨1, _⟩ => rfl

end Layout

theorem stack_apply0 (l0 l1 : FVec Ideal S80000x1 .f32) (n : Fin 80000) :
    stack (F := Ideal) l0 l1 (ix3 (0 : Fin 2) n (0 : Fin 1)) = l0 (ix2 n 0) := by
  unfold stack
  refine (concatenate_pair_apply_left (s₁ := S1x80000x1) (s₂ := S1x80000x1) (0 : Fin S2x80000x1.rank) _ _ _
    (ix3 (0 : Fin 2) n (0 : Fin 1)) rfl (ix3 (0 : Fin 1) n (0 : Fin 1)) fun b => ?_).trans (under_unit_apply l0 _ n)
  match b with
  | ⟨0, _⟩ => rfl
  | ⟨1, _⟩ => rfl
  | ⟨2, _⟩ => rfl

theorem stack_apply1 (l0 l1 : FVec Ideal S80000x1 .f32) (n : Fin 80000) :
    stack (F := Ideal) l0 l1 (ix3 (1 : Fin 2) n (0 : Fin 1)) = l1 (ix2 n 0) := by
  unfold stack
  refine (concatenate_pair_apply_right (s₁ := S1x80000x1) (s₂ := S1x80000x1) (0 : Fin S2x80000x1.rank) _ _ _
    (ix3 (1 : Fin 2) n (0 : Fin 1)) rfl rfl (ix3 (0 : Fin 1) n (0 : Fin 1)) (fun b hb => ?_) rfl).trans (under_unit_apply l1 _ n)
  match b, hb with
  | ⟨0, _⟩, hb => exact absurd (Fin.ext rfl) hb
  | ⟨1, _⟩, _ => rfl
  | ⟨2, _⟩, _ => rfl

theorem spread_apply (v : FVec Ideal S80000x1 .f32) (a : Fin 2) (n : Fin 80000) :
    spread (F := Ideal) v (ix3 a n (0 : Fin 1)) = v (ix2 n 0) := by
  unfold spread
  refine (broadcastInDim_apply ![0, 1, 2] _ _ (ix3 a n (0 : Fin 1)) (ix3 (0 : Fin 1) n (0 : Fin 1)) fun ax => ?_).trans
    (under_unit_apply v _ n)
  match ax with
  | ⟨0, _⟩ => rfl
  | ⟨1, _⟩ => rfl
  | ⟨2, _⟩ => rfl

/-! ## The two reductions over the stack's leading axis -/

/-- The stack index over column index `(n, 0)` with leading coordinate `k`. -/
theorem lift_lead (h : S2x80000x1.Reduces [0] S80000x1) (n : Fin 80000) (k : Fin (S2x80000x1.size 0)) :
    h.lift (ix2 n (0 : Fin 1)) k = ix3 (⟨k.val, k.isLt⟩ : Fin 2) n (0 : Fin 1) := by
  funext c; apply Fin.ext
  match c with
  | ⟨0, _⟩ => rfl
  | ⟨1, _⟩ => rfl
  | ⟨2, _⟩ => rfl

theorem ofBits_negInf_f32 : Ideal.ofBits .f32 0xFF800000#32 = ⊥ := by simp [Ideal.ofBits, Ideal.ieee]

/-- The fold of `max` from −∞ over a pair is the larger of the two. -/
theorem fold_max_pair (f : Fin 2 → EReal) : Finset.fold max ⊥ f (Finset.univ : Finset (Fin 2)) = max (f 0) (f 1) := by
  rw [show (Finset.univ : Finset (Fin 2)) = {0, 1} from rfl, Finset.fold_insert (by decide), Finset.fold_singleton, max_bot_right]

/-- From −∞ the maximum over the pair is the larger of the two entries. -/
theorem reduceMax_apply (s : FVec Ideal S2x80000x1 .f32) (h' : S2x80000x1.ReducesTo [0] S80000x1) (hu : 0 < S_.numel)
    (n : Fin 80000) :
    Host.reduce FloatOps.maximumf s (constant (F := Ideal) S_ .f32 0xFF800000#32) h' hu (ix2 n (0 : Fin 1))
      = max (s (ix3 (0 : Fin 2) n (0 : Fin 1))) (s (ix3 (1 : Fin 2) n (0 : Fin 1))) := by
  have h : S2x80000x1.Reduces [0] S80000x1 := by decide
  refine (Host.reduce_eq_fold_single FloatOps.maximumf s _ h' h hu (ix2 n (0 : Fin 1))).trans ?_
  have hf : (s ∘ h.lift (ix2 n (0 : Fin 1))) = fun k : Fin 2 => s (ix3 k n (0 : Fin 1)) :=
    funext fun k => congrArg s (lift_lead h n k)
  refine (congrArg₂ (fun b f => Finset.fold max b f (Finset.univ : Finset (Fin 2))) ofBits_negInf_f32 hf).trans ?_
  exact fold_max_pair _

/-- From zero the sum over the pair is the sum of the two entries. -/
theorem reduceAdd_apply (e : FVec Ideal S2x80000x1 .f32) (h' : S2x80000x1.ReducesTo [0] S80000x1) (hu : 0 < S_.numel)
    (n : Fin 80000) :
    Host.reduceAdd (F := Ideal) e (constant (F := Ideal) S_ .f32 0x00000000#32) h' hu (ix2 n (0 : Fin 1))
      = e (ix3 (0 : Fin 2) n (0 : Fin 1)) + e (ix3 (1 : Fin 2) n (0 : Fin 1)) := by
  have h : S2x80000x1.Reduces [0] S80000x1 := by decide
  refine (Ideal.hostReduceAdd_single h' h e _ (ix2 n (0 : Fin 1))).trans ?_
  have hf : (fun k : Fin (S2x80000x1.size 0) => e (h.lift (ix2 n (0 : Fin 1)) k)) = fun k : Fin 2 => e (ix3 k n (0 : Fin 1)) :=
    funext fun k => congrArg e (lift_lead h n k)
  refine (congrArg₂ (fun b (f : Fin 2 → EReal) => b + ∑ k, f k) Ideal.ofBits_zero_f32 hf).trans ?_
  rw [zero_add, Fin.sum_univ_two]

/-! ## The two-way softmax over the stack, its two weight columns, and the combination -/

theorem hostDivf_apply {s : Shape} (a b : FVec Ideal s .f32) (i : s.Idx) : Host.divf a b i = Ideal.div (a i) (b i) := rfl

theorem hostExp_apply {s : Shape} (a : FVec Ideal s .f32) (i : s.Idx) : Host.exp a i = Ideal.exp (a i) := rfl

theorem expd_apply (s : FVec Ideal S2x80000x1 .f32) (a : Fin 2) (n : Fin 80000) :
    expd (F := Ideal) s (ix3 a n (0 : Fin 1))
      = Ideal.exp (s (ix3 a n (0 : Fin 1)) - max (s (ix3 (0 : Fin 2) n (0 : Fin 1))) (s (ix3 (1 : Fin 2) n (0 : Fin 1)))) := by
  unfold expd
  refine (hostExp_apply _ _).trans ?_
  refine congrArg (fun m => Ideal.exp (s (ix3 a n (0 : Fin 1)) - m)) ((spread_apply _ a n).trans ?_)
  refine (congrArg₂ max ofBits_negInf_f32 (reduceMax_apply s _ _ n)).trans ?_
  exact max_bot_left _

theorem att_apply (s : FVec Ideal S2x80000x1 .f32) (a : Fin 2) (n : Fin 80000) :
    att (F := Ideal) s (ix3 a n (0 : Fin 1))
      = Ideal.div (expd (F := Ideal) s (ix3 a n (0 : Fin 1)))
          (expd (F := Ideal) s (ix3 (0 : Fin 2) n (0 : Fin 1)) + expd (F := Ideal) s (ix3 (1 : Fin 2) n (0 : Fin 1))) := by
  unfold att
  refine (hostDivf_apply _ _ _).trans ?_
  exact congrArg (Ideal.div _) ((spread_apply _ a n).trans (reduceAdd_apply (expd s) _ _ n))

theorem w0_apply (A : FVec Ideal S2x80000x1 .f32) (n : Fin 80000) (o : Fin 256) :
    w0 (F := Ideal) A (ix2 n o) = A (ix3 (0 : Fin 2) n (0 : Fin 1)) := by
  unfold w0
  refine (broadcastInDim_apply ![0, 1] _ _ (ix2 n o) (ix2 n (0 : Fin 1)) fun ax => ?_).trans ?_
  · match ax with
    | ⟨0, _⟩ => rfl
    | ⟨1, _⟩ => rfl
  refine (shapeCast_1ab_ab_apply _ _ n (0 : Fin 1)).trans ?_
  refine extractStridedSlice_apply _ A _ (ix3 (0 : Fin 1) n (0 : Fin 1)) (ix3 (0 : Fin 2) n (0 : Fin 1)) fun ax => ?_
  match ax with
  | ⟨0, _⟩ => rfl
  | ⟨1, _⟩ => exact (Nat.zero_add _).symm
  | ⟨2, _⟩ => rfl

theorem w1_apply (A : FVec Ideal S2x80000x1 .f32) (n : Fin 80000) (o : Fin 256) :
    w1 (F := Ideal) A (ix2 n o) = A (ix3 (1 : Fin 2) n (0 : Fin 1)) := by
  unfold w1
  refine (broadcastInDim_apply ![0, 1] _ _ (ix2 n o) (ix2 n (0 : Fin 1)) fun ax => ?_).trans ?_
  · match ax with
    | ⟨0, _⟩ => rfl
    | ⟨1, _⟩ => rfl
  refine (shapeCast_1ab_ab_apply _ _ n (0 : Fin 1)).trans ?_
  refine extractStridedSlice_apply _ A _ (ix3 (0 : Fin 1) n (0 : Fin 1)) (ix3 (1 : Fin 2) n (0 : Fin 1)) fun ax => ?_
  match ax with
  | ⟨0, _⟩ => rfl
  | ⟨1, _⟩ => exact (Nat.zero_add _).symm
  | ⟨2, _⟩ => rfl

/-- The weighted sum of the two channels at `(n, o)`, from the two logits of row `n`. -/
theorem comb_apply (l0 l1 : FVec Ideal S80000x1 .f32) (z cv : FVec Ideal S80000x256 .f32) (n : Fin 80000) (o : Fin 256) :
    comb (F := Ideal) l0 l1 z cv (ix2 n o)
      = Ideal.div (Ideal.exp (l0 (ix2 n 0) - max (l0 (ix2 n 0)) (l1 (ix2 n 0))))
            (Ideal.exp (l0 (ix2 n 0) - max (l0 (ix2 n 0)) (l1 (ix2 n 0))) + Ideal.exp (l1 (ix2 n 0) - max (l0 (ix2 n 0)) (l1 (ix2 n 0)))) * z (ix2 n o)
        + Ideal.div (Ideal.exp (l1 (ix2 n 0) - max (l0 (ix2 n 0)) (l1 (ix2 n 0))))
            (Ideal.exp (l0 (ix2 n 0) - max (l0 (ix2 n 0)) (l1 (ix2 n 0))) + Ideal.exp (l1 (ix2 n 0) - max (l0 (ix2 n 0)) (l1 (ix2 n 0)))) * cv (ix2 n o) := by
  unfold comb
  show w0 (F := Ideal) (att (stack l0 l1)) (ix2 n o) * z (ix2 n o) + w1 (F := Ideal) (att (stack l0 l1)) (ix2 n o) * cv (ix2 n o) = _
  rw [w0_apply, w1_apply, att_apply, att_apply, expd_apply, expd_apply, stack_apply0, stack_apply1]

/-! ## The attention scores and logits of a row -/

/-- A projection to 64 lanes against a weight column plus its bias, at row `n`: the score of that row. -/
theorem score_col_apply (x : FVec Ideal S80000x256 .f32) (W : FVec Ideal S256x64 .f32) (b : FVec Ideal S64 .f32)
    (w : FVec Ideal S64x1 .f32) (c : FVec Ideal S1 .f32) (n : Fin 80000) :
    lin1 (F := Ideal) (lin64 (F := Ideal) x W b) w c (ix2 n (0 : Fin 1))
      = score (affine (fun k => x (ix2 n k)) (fun k o => W (ix2 k o)) (fun o => b (ix1 o))) (fun k => w (ix2 k 0)) (c (ix1 0)) := by
  refine (lin1_apply _ w c n 0).trans ?_
  unfold score affine
  refine congrArg (· + c (ix1 0)) (Finset.sum_congr rfl fun k _ => ?_)
  rw [lin64_apply]

theorem hr_col_apply (z : FVec Ideal S80000x256 .f32) (Wq : FVec Ideal S256x64 .f32) (bq : FVec Ideal S64 .f32)
    (war : FVec Ideal S64x1 .f32) (bar : FVec Ideal S1 .f32) (n : Fin 80000) :
    hr (F := Ideal) z Wq bq war bar (ix2 n (0 : Fin 1))
      = score (affine (fun k => z (ix2 n k)) (fun k o => Wq (ix2 k o)) (fun o => bq (ix1 o))) (fun k => war (ix2 k 0)) (bar (ix1 0)) :=
  score_col_apply z Wq bq war bar n

theorem logit_col_apply (x : FVec Ideal S80000x256 .f32) (Wk : FVec Ideal S256x64 .f32) (bk : FVec Ideal S64 .f32)
    (wal : FVec Ideal S64x1 .f32) (bal : FVec Ideal S1 .f32) (hrv : FVec Ideal S80000x1 .f32) (n : Fin 80000) :
    FnsP.logit (F := Ideal) x Wk bk wal bal hrv (ix2 n (0 : Fin 1))
      = elu (score (affine (fun k => x (ix2 n k)) (fun k o => Wk (ix2 k o)) (fun o => bk (ix1 o))) (fun k => wal (ix2 k 0)) (bal (ix1 0))
          + hrv (ix2 n (0 : Fin 1))) :=
  (elu1_apply _ (ix2 n (0 : Fin 1))).trans
    (congrArg elu (congrArg (· + hrv (ix2 n (0 : Fin 1))) (score_col_apply x Wk bk wal bal n)))

/-! ## The whole half is the layer's row function on every row -/

/-- On the extended reals the reference's composed host operations for the paper nodes — the two affine maps, the
    attention logits through the called unit, the softmax over the stacked pair, the weighted sum and the last unit —
    are, at row `n` and feature `o`, the layer's row function of row `n` of the features and of the neighbour means. -/
theorem node_eq (h ag : FVec Ideal S80000x256 .f32) (Wself : FVec Ideal S256x256 .f32) (bself : FVec Ideal S256 .f32)
    (Wconv : FVec Ideal S256x256 .f32) (bconv : FVec Ideal S256 .f32) (Wq : FVec Ideal S256x64 .f32) (bq : FVec Ideal S64 .f32)
    (Wk : FVec Ideal S256x64 .f32) (bk : FVec Ideal S64 .f32) (wal : FVec Ideal S64x1 .f32) (bal : FVec Ideal S1 .f32)
    (war : FVec Ideal S64x1 .f32) (bar : FVec Ideal S1 .f32) :
    FnsP.node (FnsP.lin256 h Wself bself) (FnsP.lin256 ag Wconv bconv) Wq bq Wk bk wal bal war bar
      = nodeArr (paramsOfArgs Wself bself Wconv bconv Wq bq Wk bk wal bal war bar) h ag := by
  funext i
  obtain ⟨n, o, rfl⟩ : ∃ (n : Fin 80000) (o : Fin 256), i = ix2 n o := ⟨i 0, i 1, eq_ix2 i⟩
  rw [nodeArr_apply]
  -- the two channels' feature rows
  have hzr : (fun k => lin256 (F := Ideal) h Wself bself (ix2 n k))
      = zRow (paramsOfArgs Wself bself Wconv bconv Wq bq Wk bk wal bal war bar) (fun k => h (ix2 n k)) :=
    funext fun k => lin256_apply h Wself bself n k
  have hcr : (fun k => lin256 (F := Ideal) ag Wconv bconv (ix2 n k))
      = cvRow (paramsOfArgs Wself bself Wconv bconv Wq bq Wk bk wal bal war bar) (fun k => ag (ix2 n k)) :=
    funext fun k => lin256_apply ag Wconv bconv n k
  unfold node
  refine (elu256_apply _ (ix2 n o)).trans ?_
  rw [comb_apply, logit_col_apply, logit_col_apply, hr_col_apply, hzr, hcr,
    show lin256 (F := Ideal) h Wself bself (ix2 n o) = zRow (paramsOfArgs Wself bself Wconv bconv Wq bq Wk bk wal bal war bar) (fun k => h (ix2 n k)) o from congrFun hzr o,
    show lin256 (F := Ideal) ag Wconv bconv (ix2 n o) = cvRow (paramsOfArgs Wself bself Wconv bconv Wq bq Wk bk wal bal war bar) (fun k => ag (ix2 n k)) o from congrFun hcr o]
  rfl

end Cert.ReferenceIdeal.ReadP

end
-- ==== Proof.Assembly.lean ====
import proofs.«161233_j27118423507478_1_alg».proof.Defs
import proofs.«161233_j27118423507478_1_alg».proof.Proof.Gen.Kernel.Frame
import proofs.«161233_j27118423507478_1_alg».proof.Proof.Gen.KernelIdeal.Frame
import proofs.«161233_j27118423507478_1_alg».proof.Proof.Gen.ReferenceIdeal
import proofs.«161233_j27118423507478_1_alg».proof.Proof.Gen.Pre_finite_inputs
import proofs.«161233_j27118423507478_1_alg».proof.Proof.KernelRun
import proofs.«161233_j27118423507478_1_alg».proof.Proof.KernelValue
import proofs.«161233_j27118423507478_1_alg».proof.Proof.RefValuesP
import proofs.«161233_j27118423507478_1_alg».proof.Proof.RefReadA
import proofs.«161233_j27118423507478_1_alg».proof.Proof.RefReadP

/-! # The five claims

The three frames are the generated frame certificates of the two kernel programs and the reference's run with its
results dropped. The idealized kernel's two result arrays are the layer's row function applied to every author row and
every paper row (the launches' blocks laid side by side); the reference's two results are the same function of the
same arrays (its host operations read entry by entry); the neighbour means both programs feed in are one and the same
composition of host operations on the arguments. -/

noncomputable section

namespace Cert.Proof.Claims

open Idealize.ShloMosaic Idealize.SL.Sem Cert.NodeSpec
open Cert.KernelIdeal (Arrays.arg Arrays.aggA Arrays.aggP)

theorem frame_k : Cert.frame_Kernel := fun m ρ _ => Cert.Kernel.Gen.frame m ρ
theorem frame_ki : Cert.frame_KernelIdeal := fun m ρ _ => Cert.KernelIdeal.Gen.frame m ρ

open Cert.ReferenceIdeal in
/-- The reference terminates and no operation of it writes an argument. -/
theorem frame_ri : Cert.frame_ReferenceIdeal := fun m ρ _ =>
  (θ_run Cert.ReferenceIdeal.defs _ _).mono (fun r h c =>
    ⟨(h c _).trans (Vals.keep _ Cert.ReferenceIdeal.main_arg0 (by decide)),
     (h c _).trans (Vals.keep _ Cert.ReferenceIdeal.main_arg1 (by decide)),
     (h c _).trans (Vals.keep _ Cert.ReferenceIdeal.main_arg2 (by decide)),
     (h c _).trans (Vals.keep _ Cert.ReferenceIdeal.main_arg3 (by decide)),
     (h c _).trans (Vals.keep _ Cert.ReferenceIdeal.main_arg4 (by decide)),
     (h c _).trans (Vals.keep _ Cert.ReferenceIdeal.main_arg5 (by decide)),
     (h c _).trans (Vals.keep _ Cert.ReferenceIdeal.main_arg6 (by decide)),
     (h c _).trans (Vals.keep _ Cert.ReferenceIdeal.main_arg7 (by decide)),
     (h c _).trans (Vals.keep _ Cert.ReferenceIdeal.main_arg8 (by decide)),
     (h c _).trans (Vals.keep _ Cert.ReferenceIdeal.main_arg9 (by decide)),
     (h c _).trans (Vals.keep _ Cert.ReferenceIdeal.main_arg10 (by decide)),
     (h c _).trans (Vals.keep _ Cert.ReferenceIdeal.main_arg11 (by decide)),
     (h c _).trans (Vals.keep _ Cert.ReferenceIdeal.main_arg12 (by decide)),
     (h c _).trans (Vals.keep _ Cert.ReferenceIdeal.main_arg13 (by decide)),
     (h c _).trans (Vals.keep _ Cert.ReferenceIdeal.main_arg14 (by decide)),
     (h c _).trans (Vals.keep _ Cert.ReferenceIdeal.main_arg15 (by decide)),
     (h c _).trans (Vals.keep _ Cert.ReferenceIdeal.main_arg16 (by decide)),
     (h c _).trans (Vals.keep _ Cert.ReferenceIdeal.main_arg17 (by decide)),
     (h c _).trans (Vals.keep _ Cert.ReferenceIdeal.main_arg18 (by decide)),
     (h c _).trans (Vals.keep _ Cert.ReferenceIdeal.main_arg19 (by decide)),
     (h c _).trans (Vals.keep _ Cert.ReferenceIdeal.main_arg20 (by decide)),
     (h c _).trans (Vals.keep _ Cert.ReferenceIdeal.main_arg21 (by decide)),
     (h c _).trans (Vals.keep _ Cert.ReferenceIdeal.main_arg22 (by decide)),
     (h c _).trans (Vals.keep _ Cert.ReferenceIdeal.main_arg23 (by decide)),
     (h c _).trans (Vals.keep _ Cert.ReferenceIdeal.main_arg24 (by decide)),
     (h c _).trans (Vals.keep _ Cert.ReferenceIdeal.main_arg25 (by decide)),
     (h c _).trans (Vals.keep _ Cert.ReferenceIdeal.main_arg26 (by decide)),
     (h c _).trans (Vals.keep _ Cert.ReferenceIdeal.main_arg27 (by decide)),
     (h c _).trans (Vals.keep _ Cert.ReferenceIdeal.main_arg28 (by decide)),
     (h c _).trans (Vals.keep _ Cert.ReferenceIdeal.main_arg29 (by decide))⟩)
    (Ops.run_all (F := Ideal) m ρ)

/-- Both programs compute the authors' neighbour means by the same host operations on the same arguments. -/
theorem aggA_eq (m : (ℓ : Loc Cert.KernelIdeal.nD Cert.KernelIdeal.τ Cert.KernelIdeal.sig) → Buf (Elt Ideal) ℓ) (c : Dev Cert.KernelIdeal.nD) :
    Cert.ReferenceIdeal.FnsA.agg (F := Ideal) (Arrays.arg m c Cert.KernelIdeal.main_arg1) (Arrays.arg m c Cert.KernelIdeal.main_arg4) (Arrays.arg m c Cert.KernelIdeal.main_arg5) = Arrays.aggA m c := rfl

/-- … and the papers'. -/
theorem aggP_eq (m : (ℓ : Loc Cert.KernelIdeal.nD Cert.KernelIdeal.τ Cert.KernelIdeal.sig) → Buf (Elt Ideal) ℓ) (c : Dev Cert.KernelIdeal.nD) :
    Cert.ReferenceIdeal.FnsP.agg (F := Ideal) (Arrays.arg m c Cert.KernelIdeal.main_arg0) (Arrays.arg m c Cert.KernelIdeal.main_arg2) (Arrays.arg m c Cert.KernelIdeal.main_arg3) = Arrays.aggP m c := rfl

set_option maxRecDepth 65536 in
set_option maxHeartbeats 4000000 in
open Cert.ReferenceIdeal in
theorem algebraic : Cert.algebraic_KernelIdeal_ReferenceIdeal := by
  intro m g m' g' _ hagree
  refine ⟨fun c => nodeArr (paramsOfArgs (Arrays.arg m c Cert.KernelIdeal.main_arg6) (Arrays.arg m c Cert.KernelIdeal.main_arg7) (Arrays.arg m c Cert.KernelIdeal.main_arg28) (Arrays.arg m c Cert.KernelIdeal.main_arg29) (Arrays.arg m c Cert.KernelIdeal.main_arg10) (Arrays.arg m c Cert.KernelIdeal.main_arg11) (Arrays.arg m c Cert.KernelIdeal.main_arg14) (Arrays.arg m c Cert.KernelIdeal.main_arg15) (Arrays.arg m c Cert.KernelIdeal.main_arg18) (Arrays.arg m c Cert.KernelIdeal.main_arg19) (Arrays.arg m c Cert.KernelIdeal.main_arg22) (Arrays.arg m c Cert.KernelIdeal.main_arg23)) (Arrays.arg m c Cert.KernelIdeal.main_arg0) (Arrays.aggA m c),
    fun c => nodeArr (paramsOfArgs (Arrays.arg m c Cert.KernelIdeal.main_arg8) (Arrays.arg m c Cert.KernelIdeal.main_arg9) (Arrays.arg m c Cert.KernelIdeal.main_arg26) (Arrays.arg m c Cert.KernelIdeal.main_arg27) (Arrays.arg m c Cert.KernelIdeal.main_arg12) (Arrays.arg m c Cert.KernelIdeal.main_arg13) (Arrays.arg m c Cert.KernelIdeal.main_arg16) (Arrays.arg m c Cert.KernelIdeal.main_arg17) (Arrays.arg m c Cert.KernelIdeal.main_arg20) (Arrays.arg m c Cert.KernelIdeal.main_arg21) (Arrays.arg m c Cert.KernelIdeal.main_arg24) (Arrays.arg m c Cert.KernelIdeal.main_arg25)) (Arrays.arg m c Cert.KernelIdeal.main_arg1) (Arrays.aggP m c), ?_, ?_⟩
  · exact (θ_run Cert.KernelIdeal.defs _ _).mono (fun r h c =>
      ⟨(h c).1.trans (Cert.KernelIdeal.Arrays.result_a m g c), (h c).2.1.trans (Cert.KernelIdeal.Arrays.result_p m g c), (h c).2.2⟩)
      (Cert.KernelIdeal.Run.run_named m g)
  · refine (θ_run Cert.ReferenceIdeal.defs _ _).mono (fun r h c => ?_) (Ops.run_all (F := Ideal) m' g')
    obtain ⟨h0, h1, h2, h3, h4, h5, h6, h7, h8, h9, h10, h11, h12, h13, h14, h15, h16, h17, h18, h19, h20, h21, h22, h23, h24, h25, h26, h27, h28, h29⟩ := hagree c
    refine ⟨?_, ?_, (h c _).trans (Vals.keep _ Cert.ReferenceIdeal.main_arg0 (by decide)),
      (h c _).trans (Vals.keep _ Cert.ReferenceIdeal.main_arg1 (by decide)),
      (h c _).trans (Vals.keep _ Cert.ReferenceIdeal.main_arg2 (by decide)),
      (h c _).trans (Vals.keep _ Cert.ReferenceIdeal.main_arg3 (by decide)),
      (h c _).trans (Vals.keep _ Cert.ReferenceIdeal.main_arg4 (by decide)),
      (h c _).trans (Vals.keep _ Cert.ReferenceIdeal.main_arg5 (by decide)),
      (h c _).trans (Vals.keep _ Cert.ReferenceIdeal.main_arg6 (by decide)),
      (h c _).trans (Vals.keep _ Cert.ReferenceIdeal.main_arg7 (by decide)),
      (h c _).trans (Vals.keep _ Cert.ReferenceIdeal.main_arg8 (by decide)),
      (h c _).trans (Vals.keep _ Cert.ReferenceIdeal.main_arg9 (by decide)),
      (h c _).trans (Vals.keep _ Cert.ReferenceIdeal.main_arg10 (by decide)),
      (h c _).trans (Vals.keep _ Cert.ReferenceIdeal.main_arg11 (by decide)),
      (h c _).trans (Vals.keep _ Cert.ReferenceIdeal.main_arg12 (by decide)),
      (h c _).trans (Vals.keep _ Cert.ReferenceIdeal.main_arg13 (by decide)),
      (h c _).trans (Vals.keep _ Cert.ReferenceIdeal.main_arg14 (by decide)),
      (h c _).trans (Vals.keep _ Cert.ReferenceIdeal.main_arg15 (by decide)),
      (h c _).trans (Vals.keep _ Cert.ReferenceIdeal.main_arg16 (by decide)),
      (h c _).trans (Vals.keep _ Cert.ReferenceIdeal.main_arg17 (by decide)),
      (h c _).trans (Vals.keep _ Cert.ReferenceIdeal.main_arg18 (by decide)),
      (h c _).trans (Vals.keep _ Cert.ReferenceIdeal.main_arg19 (by decide)),
      (h c _).trans (Vals.keep _ Cert.ReferenceIdeal.main_arg20 (by decide)),
      (h c _).trans (Vals.keep _ Cert.ReferenceIdeal.main_arg21 (by decide)),
      (h c _).trans (Vals.keep _ Cert.ReferenceIdeal.main_arg22 (by decide)),
      (h c _).trans (Vals.keep _ Cert.ReferenceIdeal.main_arg23 (by decide)),
      (h c _).trans (Vals.keep _ Cert.ReferenceIdeal.main_arg24 (by decide)),
      (h c _).trans (Vals.keep _ Cert.ReferenceIdeal.main_arg25 (by decide)),
      (h c _).trans (Vals.keep _ Cert.ReferenceIdeal.main_arg26 (by decide)),
      (h c _).trans (Vals.keep _ Cert.ReferenceIdeal.main_arg27 (by decide)),
      (h c _).trans (Vals.keep _ Cert.ReferenceIdeal.main_arg28 (by decide)),
      (h c _).trans (Vals.keep _ Cert.ReferenceIdeal.main_arg29 (by decide))⟩
    · rw [h c Cert.ReferenceIdeal.main_v105, Vals.out_a, ReadA.node_eq]
      have e0 : StableHlo.launchContents m' c (Proc.devRef (τ := Cert.ReferenceIdeal.τ) .tc Cert.ReferenceIdeal.main_arg0) = Arrays.arg m c Cert.KernelIdeal.main_arg0 := h0
      have e1 : StableHlo.launchContents m' c (Proc.devRef (τ := Cert.ReferenceIdeal.τ) .tc Cert.ReferenceIdeal.main_arg1) = Arrays.arg m c Cert.KernelIdeal.main_arg1 := h1
      have e4 : StableHlo.launchContents m' c (Proc.devRef (τ := Cert.ReferenceIdeal.τ) .tc Cert.ReferenceIdeal.main_arg4) = Arrays.arg m c Cert.KernelIdeal.main_arg4 := h4
      have e5 : StableHlo.launchContents m' c (Proc.devRef (τ := Cert.ReferenceIdeal.τ) .tc Cert.ReferenceIdeal.main_arg5) = Arrays.arg m c Cert.KernelIdeal.main_arg5 := h5
      have e6 : StableHlo.launchContents m' c (Proc.devRef (τ := Cert.ReferenceIdeal.τ) .tc Cert.ReferenceIdeal.main_arg6) = Arrays.arg m c Cert.KernelIdeal.main_arg6 := h6
      have e7 : StableHlo.launchContents m' c (Proc.devRef (τ := Cert.ReferenceIdeal.τ) .tc Cert.ReferenceIdeal.main_arg7) = Arrays.arg m c Cert.KernelIdeal.main_arg7 := h7
      have e28 : StableHlo.launchContents m' c (Proc.devRef (τ := Cert.ReferenceIdeal.τ) .tc Cert.ReferenceIdeal.main_arg28) = Arrays.arg m c Cert.KernelIdeal.main_arg28 := h28
      have e29 : StableHlo.launchContents m' c (Proc.devRef (τ := Cert.ReferenceIdeal.τ) .tc Cert.ReferenceIdeal.main_arg29) = Arrays.arg m c Cert.KernelIdeal.main_arg29 := h29
      have e10 : StableHlo.launchContents m' c (Proc.devRef (τ := Cert.ReferenceIdeal.τ) .tc Cert.ReferenceIdeal.main_arg10) = Arrays.arg m c Cert.KernelIdeal.main_arg10 := h10
      have e11 : StableHlo.launchContents m' c (Proc.devRef (τ := Cert.ReferenceIdeal.τ) .tc Cert.ReferenceIdeal.main_arg11) = Arrays.arg m c Cert.KernelIdeal.main_arg11 := h11
      have e14 : StableHlo.launchContents m' c (Proc.devRef (τ := Cert.ReferenceIdeal.τ) .tc Cert.ReferenceIdeal.main_arg14) = Arrays.arg m c Cert.KernelIdeal.main_arg14 := h14
      have e15 : StableHlo.launchContents m' c (Proc.devRef (τ := Cert.ReferenceIdeal.τ) .tc Cert.ReferenceIdeal.main_arg15) = Arrays.arg m c Cert.KernelIdeal.main_arg15 := h15
      have e18 : StableHlo.launchContents m' c (Proc.devRef (τ := Cert.ReferenceIdeal.τ) .tc Cert.ReferenceIdeal.main_arg18) = Arrays.arg m c Cert.KernelIdeal.main_arg18 := h18
      have e19 : StableHlo.launchContents m' c (Proc.devRef (τ := Cert.ReferenceIdeal.τ) .tc Cert.ReferenceIdeal.main_arg19) = Arrays.arg m c Cert.KernelIdeal.main_arg19 := h19
      have e22 : StableHlo.launchContents m' c (Proc.devRef (τ := Cert.ReferenceIdeal.τ) .tc Cert.ReferenceIdeal.main_arg22) = Arrays.arg m c Cert.KernelIdeal.main_arg22 := h22
      have e23 : StableHlo.launchContents m' c (Proc.devRef (τ := Cert.ReferenceIdeal.τ) .tc Cert.ReferenceIdeal.main_arg23) = Arrays.arg m c Cert.KernelIdeal.main_arg23 := h23
      rw [e0, e1, e4, e5, e6, e7, e28, e29, e10, e11, e14, e15, e18, e19, e22, e23]
      exact congrArg (nodeArr _ _) (aggA_eq m c)
    · rw [h c Cert.ReferenceIdeal.main_v157, Vals.out_p, ReadP.node_eq]
      have e1 : StableHlo.launchContents m' c (Proc.devRef (τ := Cert.ReferenceIdeal.τ) .tc Cert.ReferenceIdeal.main_arg1) = Arrays.arg m c Cert.KernelIdeal.main_arg1 := h1
      have e0 : StableHlo.launchContents m' c (Proc.devRef (τ := Cert.ReferenceIdeal.τ) .tc Cert.ReferenceIdeal.main_arg0) = Arrays.arg m c Cert.KernelIdeal.main_arg0 := h0
      have e2 : StableHlo.launchContents m' c (Proc.devRef (τ := Cert.ReferenceIdeal.τ) .tc Cert.ReferenceIdeal.main_arg2) = Arrays.arg m c Cert.KernelIdeal.main_arg2 := h2
      have e3 : StableHlo.launchContents m' c (Proc.devRef (τ := Cert.ReferenceIdeal.τ) .tc Cert.ReferenceIdeal.main_arg3) = Arrays.arg m c Cert.KernelIdeal.main_arg3 := h3
      have e8 : StableHlo.launchContents m' c (Proc.devRef (τ := Cert.ReferenceIdeal.τ) .tc Cert.ReferenceIdeal.main_arg8) = Arrays.arg m c Cert.KernelIdeal.main_arg8 := h8
      have e9 : StableHlo.launchContents m' c (Proc.devRef (τ := Cert.ReferenceIdeal.τ) .tc Cert.ReferenceIdeal.main_arg9) = Arrays.arg m c Cert.KernelIdeal.main_arg9 := h9
      have e26 : StableHlo.launchContents m' c (Proc.devRef (τ := Cert.ReferenceIdeal.τ) .tc Cert.ReferenceIdeal.main_arg26) = Arrays.arg m c Cert.KernelIdeal.main_arg26 := h26
      have e27 : StableHlo.launchContents m' c (Proc.devRef (τ := Cert.ReferenceIdeal.τ) .tc Cert.ReferenceIdeal.main_arg27) = Arrays.arg m c Cert.KernelIdeal.main_arg27 := h27
      have e12 : StableHlo.launchContents m' c (Proc.devRef (τ := Cert.ReferenceIdeal.τ) .tc Cert.ReferenceIdeal.main_arg12) = Arrays.arg m c Cert.KernelIdeal.main_arg12 := h12
      have e13 : StableHlo.launchContents m' c (Proc.devRef (τ := Cert.ReferenceIdeal.τ) .tc Cert.ReferenceIdeal.main_arg13) = Arrays.arg m c Cert.KernelIdeal.main_arg13 := h13
      have e16 : StableHlo.launchContents m' c (Proc.devRef (τ := Cert.ReferenceIdeal.τ) .tc Cert.ReferenceIdeal.main_arg16) = Arrays.arg m c Cert.KernelIdeal.main_arg16 := h16
      have e17 : StableHlo.launchContents m' c (Proc.devRef (τ := Cert.ReferenceIdeal.τ) .tc Cert.ReferenceIdeal.main_arg17) = Arrays.arg m c Cert.KernelIdeal.main_arg17 := h17
      have e20 : StableHlo.launchContents m' c (Proc.devRef (τ := Cert.ReferenceIdeal.τ) .tc Cert.ReferenceIdeal.main_arg20) = Arrays.arg m c Cert.KernelIdeal.main_arg20 := h20
      have e21 : StableHlo.launchContents m' c (Proc.devRef (τ := Cert.ReferenceIdeal.τ) .tc Cert.ReferenceIdeal.main_arg21) = Arrays.arg m c Cert.KernelIdeal.main_arg21 := h21
      have e24 : StableHlo.launchContents m' c (Proc.devRef (τ := Cert.ReferenceIdeal.τ) .tc Cert.ReferenceIdeal.main_arg24) = Arrays.arg m c Cert.KernelIdeal.main_arg24 := h24
      have e25 : StableHlo.launchContents m' c (Proc.devRef (τ := Cert.ReferenceIdeal.τ) .tc Cert.ReferenceIdeal.main_arg25) = Arrays.arg m c Cert.KernelIdeal.main_arg25 := h25
      rw [e1, e0, e2, e3, e8, e9, e26, e27, e12, e13, e16, e17, e20, e21, e24, e25]
      exact congrArg (nodeArr _ _) (aggP_eq m c)

end Cert.Proof.Claims

end
-- ==== Proof.lean ====
/- The certificate of one heterogeneous graph-convolution layer over an author/paper bipartite graph: a tiled kernel
   program (two launches, one per node type, each over blocks of 2000 nodes) against the plain array program.

   For each node type both programs compute, row by row, `elu (att₀ · z + att₁ · cv)` where `z = h · Wself + bself`,
   `cv = agg · Wconv + bconv` with `agg` the mean of the neighbours' rows, and `(att₀, att₁)` the two-way softmax of the
   attention logits `elu ((x · Wk + bk) · wal + bal + hr)`, `x ∈ {z, cv}`, `hr = (z · Wq + bq) · war + bar`. On the extended
   reals the kernel's matrix products into a zero accumulator and the reference's contractions are the same finite sums,
   a lane sum against a weight row is the contraction with the weight column, `exp x − 1` is the reference's `expm1 x`,
   and the reference's softmax over a stacked pair is the kernel's explicit two-term one (`max ⊥ x = x`, `0 + x = x`);
   no entry of a result row depends on another node's row, so the kernel's blocks laid side by side are the
   reference's whole array. The neighbour means are computed by both programs with the same host operations.
   Nothing here needs the inputs finite: no law used fails at an infinity. -/
import proofs.«161233_j27118423507478_1_alg».proof.Defs
import proofs.«161233_j27118423507478_1_alg».proof.Proof.Gen.Kernel
import proofs.«161233_j27118423507478_1_alg».proof.Proof.Gen.Kernel.Skeleton
import proofs.«161233_j27118423507478_1_alg».proof.Proof.Gen.Kernel.Launch
import proofs.«161233_j27118423507478_1_alg».proof.Proof.Gen.Kernel.Points
import proofs.«161233_j27118423507478_1_alg».proof.Proof.Gen.Kernel.Frame
import proofs.«161233_j27118423507478_1_alg».proof.Proof.Gen.KernelIdeal
import proofs.«161233_j27118423507478_1_alg».proof.Proof.Gen.KernelIdeal.Skeleton
import proofs.«161233_j27118423507478_1_alg».proof.Proof.Gen.KernelIdeal.Launch
import proofs.«161233_j27118423507478_1_alg».proof.Proof.Gen.KernelIdeal.Points
import proofs.«161233_j27118423507478_1_alg».proof.Proof.Gen.KernelIdeal.Frame
import proofs.«161233_j27118423507478_1_alg».proof.Proof.Gen.ReferenceIdeal
import proofs.«161233_j27118423507478_1_alg».proof.Proof.Gen.Pre_finite_inputs
import proofs.«161233_j27118423507478_1_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
